-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S1 : Shape := ⟨1, ![1]⟩
abbrev S_ : Shape := ⟨0, ![]⟩
abbrev S1x256x1x1 : Shape := ⟨4, ![1, 256, 1, 1]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_
  reducesTo_S64x256x56x56_S256_d0_2_3 : S64x256x56x56.ReducesTo [0, 2, 3] S256
  bcast_S256_S1x256x1x1_1 : S256.BroadcastsInDim S1x256x1x1 (![1] : Fin 1 → Fin S1x256x1x1.rank)
  bcast_S1x256x1x1_S64x256x56x56_0_1_2_3 : S1x256x1x1.BroadcastsInDim S64x256x56x56 (![0, 1, 2, 3] : Fin 4 → Fin S64x256x56x56.rank)
  shapeCasts_S1_S_ : S1.ShapeCasts S_

variable [Facts]

def fn_part4 {F : FTy → Type} [FloatOps F] (main_arg1 : FVec F S256 .f32) (main_v38 : IVec S_ 1) (main_v55 : FVec F S256 .f32) (main_v61 : FVec F S_ .f32) (main_v67 : FVec F S256 .f32) (main_v68 : FVec F S_ .f32) : IVec S_ 1 :=
  let main_v69 : FVec F S_ .f32 := mulf main_v61 main_v68
  let main_v70 : FVec F S256 .f32 := subf main_arg1 main_v55
  let main_v71 : FVec F S256 .f32 := mulf main_v70 main_v70
  let main_v72 : FVec F S256 .f32 := broadcastInDim S256 ![] bcast_S_S256 main_v69
  let main_v73 : FVec F S256 .f32 := mulf main_v72 main_v71
  let main_v74 : FVec F S256 .f32 := addf main_v67 main_v73
  let main_cst_25 : FVec F S_ .f32 := constant S_ .f32 0x3727C5AC#32
  let main_v75 : FVec F S256 .f32 := broadcastInDim S256 ![] bcast_S_S256 main_cst_25
  let main_v76 : FVec F S256 .f32 := addf main_v74 main_v75
  let main_cst_26 : FVec F S_ .f32 := constant S_ .f32 0x00000000#32
  let main_v77 : FVec F S256 .f32 := broadcastInDim S256 ![] bcast_S_S256 main_cst_26
  let main_v78 : IVec S256 1 := cmpf .ogt main_v76 main_v77
  let main_c_27 : IVec S_ 1 := constantI S_ 1 1#1
  let main_v79 : IVec S_ 1 := (fun x v => Host.reduce IntOp.andi x v reducesTo_S256_S_d0 h_S_) main_v78 main_c_27
  let main_v80 : IVec S_ 1 := andi main_v38 main_v79
  main_v80

def fn_part3 {F : FTy → Type} [FloatOps F] (main_arg1 : FVec F S256 .f32) (main_arg2 : FVec F S256 .f32) (main_arg5 : FVec F S256 .f32) (main_arg6 : FVec F S256 .f32) (main_arg7 : FVec F S1 .f32) (main_v38 : IVec S_ 1) (main_v41 : FVec F S256 .f32) (main_v50 : FVec F S256 .f32) : IVec S_ 1 :=
  let main_cst_19 : FVec F S_ .f32 := constant S_ .f32 0x3F666666#32
  let main_v51 : FVec F S256 .f32 := broadcastInDim S256 ![] bcast_S_S256 main_cst_19
  let main_v52 : FVec F S256 .f32 := mulf main_v51 main_arg5
  let main_cst_20 : FVec F S_ .f32 := constant S_ .f32 0x3DCCCCCD#32
  let main_v53 : FVec F S256 .f32 := broadcastInDim S256 ![] bcast_S_S256 main_cst_20
  let main_v54 : FVec F S256 .f32 := mulf main_v53 main_v41
  let main_v55 : FVec F S256 .f32 := addf main_v52 main_v54
  let main_cst_21 : FVec F S_ .f32 := constant S_ .f32 0x3F666666#32
  let main_v56 : FVec F S256 .f32 := broadcastInDim S256 ![] bcast_S_S256 main_cst_21
  let main_v57 : FVec F S256 .f32 := mulf main_v56 main_arg6
  let main_cst_22 : FVec F S_ .f32 := constant S_ .f32 0x3DCCCCCD#32
  let main_v58 : FVec F S256 .f32 := broadcastInDim S256 ![] bcast_S_S256 main_cst_22
  let main_v59 : FVec F S256 .f32 := mulf main_v58 main_v50
  let main_v60 : FVec F S256 .f32 := addf main_v57 main_v59
  let main_v61 : FVec F S_ .f32 := shapeCast S_ main_arg7 shapeCasts_S1_S_
  let main_v62 : FVec F S256 .f32 := broadcastInDim S256 ![] bcast_S_S256 main_v61
  let main_v63 : FVec F S256 .f32 := mulf main_v62 main_arg2
  let main_cst_23 : FVec F S_ .f32 := constant S_ .f32 0x3F800000#32
  let main_v64 : FVec F S_ .f32 := subf main_cst_23 main_v61
  let main_v65 : FVec F S256 .f32 := broadcastInDim S256 ![] bcast_S_S256 main_v64
  let main_v66 : FVec F S256 .f32 := mulf main_v65 main_v60
  let main_v67 : FVec F S256 .f32 := addf main_v63 main_v66
  let main_cst_24 : FVec F S_ .f32 := constant S_ .f32 0x3F800000#32
  let main_v68 : FVec F S_ .f32 := subf main_cst_24 main_v61
  fn_part4 (F := F) main_arg1 main_v38 main_v55 main_v61 main_v67 main_v68

def fn_part2 {F : FTy → Type} [FloatOps F] (main_arg0 : FVec F S64x256x56x56 .f32) (main_arg1 : FVec F S256 .f32) (main_arg2 : FVec F S256 .f32) (main_arg5 : FVec F S256 .f32) (main_arg6 : FVec F S256 .f32) (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_cst_14 : FVec F S_ .f32 := constant S_ .f32 0x00000000#32
  let main_v39 : FVec F S256 .f32 := (fun x v => Host.reduceAdd x v reducesTo_S64x256x56x56_S256_d0_2_3 h_S_) main_arg0 main_cst_14
  let main_cst_15 : FVec F S_ .f32 := constant S_ .f32 0x48440000#32
  let main_v40 : FVec F S256 .f32 := broadcastInDim S256 ![] bcast_S_S256 main_cst_15
  let main_v41 : FVec F S256 .f32 := Host.divf main_v39 main_v40
  let main_v42 : FVec F S1x256x1x1 .f32 := broadcastInDim S1x256x1x1 ![1] bcast_S256_S1x256x1x1_1 main_v41
  let main_v43 : FVec F S64x256x56x56 .f32 := broadcastInDim S64x256x56x56 ![0, 1, 2, 3] bcast_S1x256x1x1_S64x256x56x56_0_1_2_3 main_v42
  let main_v44 : FVec F S64x256x56x56 .f32 := subf main_arg0 main_v43
  let main_v45 : FVec F S64x256x56x56 .f32 := mulf main_v44 main_v44
  let main_cst_16 : FVec F S_ .f32 := constant S_ .f32 0x00000000#32
  let main_v46 : FVec F S256 .f32 := (fun x v => Host.reduceAdd x v reducesTo_S64x256x56x56_S256_d0_2_3 h_S_) main_v45 main_cst_16
  let main_cst_17 : FVec F S_ .f32 := constant S_ .f32 0x48440000#32
  let main_v47 : FVec F S256 .f32 := broadcastInDim S256 ![] bcast_S_S256 main_cst_17
  let main_v48 : FVec F S256 .f32 := Host.divf main_v46 main_v47
  let main_cst_18 : FVec F S_ .f32 := constant S_ .f32 0x3F80002A#32
  let main_v49 : FVec F S256 .f32 := broadcastInDim S256 ![] bcast_S_S256 main_cst_18
  let main_v50 : FVec F S256 .f32 := mulf main_v48 main_v49
  fn_part3 (F := F) main_arg1 main_arg2 main_arg5 main_arg6 main_arg7 main_v38 main_v41 main_v50

def fn_part1 {F : FTy → Type} [FloatOps F] (main_arg0 : FVec F S64x256x56x56 .f32) (main_arg1 : FVec F S256 .f32) (main_arg2 : FVec F S256 .f32) (main_arg4 : FVec F S256 .f32) (main_arg5 : FVec F S256 .f32) (main_arg6 : FVec F S256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg1 main_arg2 main_arg5 main_arg6 main_arg7 main_v33

def fn {F : FTy → Type} [FloatOps F] (main_arg0 : FVec F S64x256x56x56 .f32) (main_arg1 : FVec F S256 .f32) (main_arg2 : FVec F S256 .f32) (main_arg3 : FVec F S256 .f32) (main_arg4 : FVec F S256 .f32) (main_arg5 : FVec F S256 .f32) (main_arg6 : FVec F S256 .f32) (main_arg7 : FVec F S1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg1 main_arg2 main_arg4 main_arg5 main_arg6 main_arg7 main_v13 main_v16
-- ==== Kernel.lean ====
abbrev S64x256x56x56 : Shape := ⟨4, ![64, 256, 56, 56]⟩
abbrev S256 : Shape := ⟨1, ![256]⟩
abbrev S1 : Shape := ⟨1, ![1]⟩
abbrev S2x256x56x56 : Shape := ⟨4, ![2, 256, 56, 56]⟩
abbrev S2x256x56 : Shape := ⟨3, ![2, 256, 56]⟩
abbrev S2x256 : Shape := ⟨2, ![2, 256]⟩
abbrev S_ : Shape := ⟨0, ![]⟩
abbrev S1x256x56x56 : Shape := ⟨4, ![1, 256, 56, 56]⟩
abbrev S1x256x1x1 : Shape := ⟨4, ![1, 256, 1, 1]⟩

abbrev nBuf : Space → Nat
  | .hbm => 111
  | .vmem => 12
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S256, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256, .f32⟩
  | .hbm, ⟨57, _⟩ => ⟨S_, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S256, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S256, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S_, .f32⟩
  | .hbm, ⟨84, _⟩ => ⟨S_, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S256, .f32⟩
  | .hbm, ⟨90, _⟩ => ⟨S_, .f32⟩
  | .hbm, ⟨91, _⟩ => ⟨S_, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S256, .f32⟩
  | .hbm, ⟨99, _⟩ => ⟨S256, .f32⟩
  | .hbm, ⟨100, _⟩ => ⟨S256, .f32⟩
  | .hbm, ⟨101, _⟩ => ⟨S256, .f32⟩
  | .hbm, ⟨102, _⟩ => ⟨S256, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S256, .f32⟩
  | .hbm, ⟨107, _⟩ => ⟨S256, .f32⟩
  | .hbm, ⟨108, _⟩ => ⟨S256, .f32⟩
  | .hbm, ⟨109, _⟩ => ⟨S256, .f32⟩
  | .hbm, ⟨110, _⟩ => ⟨S64x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S1x256x56x56, .f32⟩
  | .local _ .vmem, ⟨7, _⟩ => ⟨S1x256x56x56, .f32⟩
  | .local _ .vmem, ⟨8, _⟩ => ⟨S256, .f32⟩
  | .local _ .vmem, ⟨9, _⟩ => ⟨S256, .f32⟩
  | .local _ .vmem, ⟨10, _⟩ => ⟨S1x256x56x56, .f32⟩
  | .local _ .vmem, ⟨11, _⟩ => ⟨S1x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_v30 : Ref sig .tc := ⟨.hbm, 51, rfl⟩
abbrev main_cst_11 : Ref sig .tc := ⟨.hbm, 52, rfl⟩
abbrev main_v31 : Ref sig .tc := ⟨.hbm, 53, rfl⟩
abbrev main_cst_12 : Ref sig .tc := ⟨.hbm, 54, rfl⟩
abbrev main_v32 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_14 : Ref sig .tc := ⟨.hbm, 62, rfl⟩
abbrev main_v38 : Ref sig .tc := ⟨.hbm, 63, rfl⟩
abbrev main_v39 : Ref sig .tc := ⟨.hbm, 64, rfl⟩
abbrev main_cst_15 : Ref sig .tc := ⟨.hbm, 65, rfl⟩
abbrev main_v40 : Ref sig .tc := ⟨.hbm, 66, rfl⟩
abbrev main_v41 : Ref sig .tc := ⟨.hbm, 67, rfl⟩
abbrev main_cst_16 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_17 : Ref sig .tc := ⟨.hbm, 72, rfl⟩
abbrev main_v45 : Ref sig .tc := ⟨.hbm, 73, rfl⟩
abbrev main_v46 : Ref sig .tc := ⟨.hbm, 74, rfl⟩
abbrev main_cst_18 : Ref sig .tc := ⟨.hbm, 75, rfl⟩
abbrev main_v47 : Ref sig .tc := ⟨.hbm, 76, rfl⟩
abbrev main_cst_19 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_20 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_21 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_22 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_23 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v21 : BitVec 1 := Scalar.cmpi .eq arg0 c31_i32
  let v22 : BitVec 32 := Scalar.extui v21
  let c0_i32_13 : BitVec 32 := 0#32
  let v23 : BitVec 1 := Scalar.cmpi .ne v22 c0_i32_13
  v23

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x56x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256_S256_0 : ∀ a, (![0] : Fin 1 → Nat) a + S256.size a ≤ S256.size a
  h_S256 : 0 < S256.numel
  shapeCasts_S256_S256 : S256.ShapeCasts S256
  inb_S2x256x56x56_S2x256x56x56_0_0_0_0 : ∀ a, (![0, 0, 0, 0] : Fin 4 → Nat) a + S2x256x56x56.size a ≤ S2x256x56x56.size a
  h_S2x256x56x56 : 0 < S2x256x56x56.numel
  reduces_S2x256x56x56_S2x256x56 : S2x256x56x56.Reduces [3] S2x256x56
  reduces_S2x256x56_S2x256 : S2x256x56.Reduces [2] S2x256
  reduces_S2x256_S256 : S2x256.Reduces [0] S256
  bcast_S_S256 : S_.BroadcastsInDim S256 (![] : Fin 0 → Fin S256.rank)
  reducesTo_S256_S_d0 : S256.ReducesTo [0] S_
  h_S_ : 0 < S_.numel
  shapeCasts_S1_S_ : S1.ShapeCasts S_
  inb_S1x256x56x56_S1x256x56x56_0_0_0_0 : ∀ a, (![0, 0, 0, 0] : Fin 4 → Nat) a + S1x256x56x56.size a ≤ S1x256x56x56.size a
  h_S1x256x56x56 : 0 < S1x256x56x56.numel
  shapeCasts_S256_S1x256x1x1 : S256.ShapeCasts S1x256x1x1
  shapeCasts_S1x256x1x1_S1x256x1x1 : S1x256x1x1.ShapeCasts S1x256x1x1
  broadcasts_S1x256x1x1_S1x256x56x56 : S1x256x1x1.Broadcasts S1x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S64x256x56x56.size a
  hwx0_0 : ∀ i : grid0.Coords, EltTy.bits .f32 = 32 ∨ (Rect.block (s := S64x256x56x56) S2x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x56x56.size a ≤ S64x256x56x56.size a
  hwx1_0 : ∀ i : grid1.Coords, EltTy.bits .f32 = 32 ∨ (Rect.block (s := S64x256x56x56) S1x256x56x56.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x56x56.size a ≤ S64x256x56x56.size a
  hwx1_3 : ∀ i : grid1.Coords, EltTy.bits .f32 = 32 ∨ (Rect.block (s := S64x256x56x56) S1x256x56x56.size (cc1_transform_3 i) (hinb1_3 i)).WholeWords (EltTy.packing .f32)

variable [Facts₀]

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v75) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v76) S1x256x56x56.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S1 : Shape := ⟨1, ![1]⟩
abbrev S_ : Shape := ⟨0, ![]⟩
abbrev S1x256x1x1 : Shape := ⟨4, ![1, 256, 1, 1]⟩

abbrev nBuf : Space → Nat
  | .hbm => 131
  | .vmem => 0
  | .smem => 0
  | _ => 0

abbrev hbmTy0_0 (i : Nat) : BufTy := match i % 128 with
  | 0 => ⟨S64x256x56x56, .f32⟩
  | 1 => ⟨S256, .f32⟩
  | 2 => ⟨S256, .f32⟩
  | 3 => ⟨S256, .f32⟩
  | 4 => ⟨S256, .f32⟩
  | 5 => ⟨S256, .f32⟩
  | 6 => ⟨S256, .f32⟩
  | 7 => ⟨S1, .f32⟩
  | 8 => ⟨S_, .f32⟩
  | 9 => ⟨S256, .f32⟩
  | 10 => ⟨S_, .f32⟩
  | 11 => ⟨S256, .f32⟩
  | 12 => ⟨S256, .f32⟩
  | 13 => ⟨S1x256x1x1, .f32⟩
  | 14 => ⟨S64x256x56x56, .f32⟩
  | 15 => ⟨S64x256x56x56, .f32⟩
  | 16 => ⟨S64x256x56x56, .f32⟩
  | 17 => ⟨S_, .f32⟩
  | 18 => ⟨S256, .f32⟩
  | 19 => ⟨S_, .f32⟩
  | 20 => ⟨S256, .f32⟩
  | 21 => ⟨S256, .f32⟩
  | 22 => ⟨S_, .f32⟩
  | 23 => ⟨S256, .f32⟩
  | 24 => ⟨S256, .f32⟩
  | 25 => ⟨S_, .f32⟩
  | 26 => ⟨S256, .f32⟩
  | 27 => ⟨S256, .f32⟩
  | 28 => ⟨S_, .f32⟩
  | 29 => ⟨S256, .f32⟩
  | 30 => ⟨S256, .f32⟩
  | 31 => ⟨S256, .f32⟩
  | 32 => ⟨S_, .f32⟩
  | 33 => ⟨S256, .f32⟩
  | 34 => ⟨S256, .f32⟩
  | 35 => ⟨S_, .f32⟩
  | 36 => ⟨S256, .f32⟩
  | 37 => ⟨S256, .f32⟩
  | 38 => ⟨S256, .f32⟩
  | 39 => ⟨S_, .f32⟩
  | 40 => ⟨S256, .f32⟩
  | 41 => ⟨S256, .f32⟩
  | 42 => ⟨S_, .f32⟩
  | 43 => ⟨S256, .f32⟩
  | 44 => ⟨S256, .f32⟩
  | 45 => ⟨S256, .f32⟩
  | 46 => ⟨S_, .f32⟩
  | 47 => ⟨S_, .f32⟩
  | 48 => ⟨S256, .f32⟩
  | 49 => ⟨S256, .f32⟩
  | 50 => ⟨S256, .f32⟩
  | 51 => ⟨S_, .f32⟩
  | 52 => ⟨S_, .f32⟩
  | 53 => ⟨S_, .f32⟩
  | 54 => ⟨S_, .f32⟩
  | 55 => ⟨S_, .f32⟩
  | 56 => ⟨S256, .f32⟩
  | 57 => ⟨S_, .f32⟩
  | 58 => ⟨S_, .f32⟩
  | 59 => ⟨S_, .f32⟩
  | 60 => ⟨S256, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S256, .f32⟩
  | 69 => ⟨S_, .f32⟩
  | 70 => ⟨S_, .f32⟩
  | 71 => ⟨S256, .f32⟩
  | 72 => ⟨S256, .f32⟩
  | 73 => ⟨S256, .f32⟩
  | 74 => ⟨S_, .f32⟩
  | 75 => ⟨S_, .f32⟩
  | 76 => ⟨S_, .f32⟩
  | 77 => ⟨S_, .f32⟩
  | 78 => ⟨S_, .f32⟩
  | 79 => ⟨S256, .f32⟩
  | 80 => ⟨S_, .f32⟩
  | 81 => ⟨S_, .f32⟩
  | 82 => ⟨S_, .f32⟩
  | 83 => ⟨S256, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S256, .f32⟩
  | 94 => ⟨S256, .f32⟩
  | 95 => ⟨S_, .f32⟩
  | 96 => ⟨S_, .f32⟩
  | 97 => ⟨S256, .f32⟩
  | 98 => ⟨S256, .f32⟩
  | 99 => ⟨S256, .f32⟩
  | 100 => ⟨S256, .f32⟩
  | 101 => ⟨S256, .f32⟩
  | 102 => ⟨S_, .f32⟩
  | 103 => ⟨S_, .f32⟩
  | 104 => ⟨S256, .f32⟩
  | 105 => ⟨S256, .f32⟩
  | 106 => ⟨S256, .f32⟩
  | 107 => ⟨S_, .f32⟩
  | 108 => ⟨S_, .f32⟩
  | 109 => ⟨S_, .f32⟩
  | 110 => ⟨S256, .f32⟩
  | 111 => ⟨S256, .f32⟩
  | 112 => ⟨S256, .f32⟩
  | 113 => ⟨S256, .f32⟩
  | 114 => ⟨S256, .f32⟩
  | 115 => ⟨S1x256x1x1, .f32⟩
  | 116 => ⟨S64x256x56x56, .f32⟩
  | 117 => ⟨S64x256x56x56, .f32⟩
  | 118 => ⟨S1x256x1x1, .f32⟩
  | 119 => ⟨S_, .f32⟩
  | 120 => ⟨S1x256x1x1, .f32⟩
  | 121 => ⟨S1x256x1x1, .f32⟩
  | 122 => ⟨S1x256x1x1, .f32⟩
  | 123 => ⟨S64x256x56x56, .f32⟩
  | 124 => ⟨S64x256x56x56, .f32⟩
  | 125 => ⟨S1x256x1x1, .f32⟩
  | 126 => ⟨S64x256x56x56, .f32⟩
  | 127 => ⟨S64x256x56x56, .f32⟩
  | _ => ⟨S64x256x56x56, .f32⟩

abbrev hbmTy0_1 (i : Nat) : BufTy := match i % 128 with
  | 0 => ⟨S1x256x1x1, .f32⟩
  | 1 => ⟨S64x256x56x56, .f32⟩
  | 2 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_14 : Ref sig .tc := ⟨.hbm, 61, rfl⟩
abbrev main_v38 : Ref sig .tc := ⟨.hbm, 62, rfl⟩
abbrev main_v39 : Ref sig .tc := ⟨.hbm, 63, rfl⟩
abbrev main_cst_15 : Ref sig .tc := ⟨.hbm, 64, rfl⟩
abbrev main_v40 : Ref sig .tc := ⟨.hbm, 65, rfl⟩
abbrev main_cst_16 : Ref sig .tc := ⟨.hbm, 66, rfl⟩
abbrev main_v41 : Ref sig .tc := ⟨.hbm, 67, rfl⟩
abbrev main_v42 : Ref sig .tc := ⟨.hbm, 68, rfl⟩
abbrev main_cst_17 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_18 : Ref sig .tc := ⟨.hbm, 74, rfl⟩
abbrev main_v47 : Ref sig .tc := ⟨.hbm, 75, rfl⟩
abbrev main_v48 : Ref sig .tc := ⟨.hbm, 76, rfl⟩
abbrev main_cst_19 : Ref sig .tc := ⟨.hbm, 77, rfl⟩
abbrev main_v49 : Ref sig .tc := ⟨.hbm, 78, rfl⟩
abbrev main_v50 : Ref sig .tc := ⟨.hbm, 79, rfl⟩
abbrev main_cst_20 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_21 : Ref sig .tc := ⟨.hbm, 84, rfl⟩
abbrev main_v54 : Ref sig .tc := ⟨.hbm, 85, rfl⟩
abbrev main_v55 : Ref sig .tc := ⟨.hbm, 86, rfl⟩
abbrev main_cst_22 : Ref sig .tc := ⟨.hbm, 87, rfl⟩
abbrev main_v56 : Ref sig .tc := ⟨.hbm, 88, rfl⟩
abbrev main_cst_23 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_24 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_25 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_26 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_27 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  reducesTo_S64x256x56x56_S256_d0_2_3 : S64x256x56x56.ReducesTo [0, 2, 3] S256
  h_S_ : 0 < S_.numel
  bcast_S_S256 : S_.BroadcastsInDim S256 (![] : Fin 0 → Fin S256.rank)
  bcast_S256_S1x256x1x1_1 : S256.BroadcastsInDim S1x256x1x1 (![1] : Fin 1 → Fin S1x256x1x1.rank)
  bcast_S1x256x1x1_S64x256x56x56_0_1_2_3 : S1x256x1x1.BroadcastsInDim S64x256x56x56 (![0, 1, 2, 3] : Fin 4 → Fin S64x256x56x56.rank)
  reducesTo_S256_S_d0 : S256.ReducesTo [0] S_
  shapeCasts_S1_S_ : S1.ShapeCasts S_
  bcast_S_S1x256x1x1 : S_.BroadcastsInDim S1x256x1x1 (![] : Fin 0 → Fin S1x256x1x1.rank)

variable [Facts₀]

class Facts : Prop extends Facts₀ where

variable [Facts]
-- ==== Proof.BNSpec.lean ====
/-
  The mathematics of the two programs, free of either program's text.  Over the extended reals, for an input
  `x` of shape 64 x 256 x 56 x 56 and per-channel vectors of length 256:

  * a channel's sum, sum of squares, mean `(sum x) / N` and the two spellings of its variance:
    `E[x^2] - (E x)^2` (accumulated by the first kernel) and `E[(x - E x)^2]` (the reference's);
  * the blended running moments (momentum blend of the batch moments with the stored ones, then the
    prior-weighted mixture of the layer's moments with that blend, with the mixture's spread term);
  * the two spellings of the normalised output: `x * scale + shift` with `scale = w / sqrt (var + eps)`,
    `shift = b - mean * scale`, against `(x - mean) / sqrt (var + eps) * w + b`.

  The float literals stay as their bit patterns; only `N = 200704 = 64 * 56 * 56` is ever evaluated.
-/
import Idealize.ShloMosaic.PureOps.Ideal
import Idealize.ShloMosaic.PureOps.Ideal.Laws
import Idealize.ShloMosaic.Lib.ValueIdx

noncomputable section

namespace BNSpec

open Idealize.ShloMosaic Idealize.ShloMosaic.ValueIdx

/-- Index type of the input and of the output. -/
abbrev I4 : Type := (⟨4, ![64, 256, 56, 56]⟩ : Shape).Idx
/-- The channel coordinate of an index. -/
def ch (i : I4) : Fin 256 := i 1

/-- An extended real that is a real number. -/
def IsR (x : EReal) : Prop := ∃ r : ℝ, x = (r : EReal)

/-- The literals of both programs, as the extended reals their patterns denote. -/
def cN : EReal := Ideal.ofBits .f32 0x48440000#32      -- 200704 = 64 * 56 * 56
def cUnb : EReal := Ideal.ofBits .f32 0x3F80002A#32    -- n / (n - 1)
def c09 : EReal := Ideal.ofBits .f32 0x3F666666#32     -- 1 - momentum
def c01 : EReal := Ideal.ofBits .f32 0x3DCCCCCD#32     -- momentum
def cEps : EReal := Ideal.ofBits .f32 0x3727C5AC#32    -- eps (and the jitter)
def cOne : EReal := Ideal.ofBits .f32 0x3F800000#32    -- 1

/-- The sum of channel `c` over batch, height and width. -/
def chSum (x : I4 → EReal) (c : Fin 256) : EReal :=
  ∑ n : Fin 64, ∑ h : Fin 56, ∑ w : Fin 56, x (ix4 n c h w)
/-- The sum of squares of channel `c`. -/
def chSumSq (x : I4 → EReal) (c : Fin 256) : EReal :=
  ∑ n : Fin 64, ∑ h : Fin 56, ∑ w : Fin 56, x (ix4 n c h w) * x (ix4 n c h w)
/-- The channel mean. -/
def mean (x : I4 → EReal) (c : Fin 256) : EReal := Ideal.div (chSum x c) cN
/-- The variance as the kernel accumulates it: mean of squares minus squared mean. -/
def varK (x : I4 → EReal) (c : Fin 256) : EReal := Ideal.div (chSumSq x c) cN - mean x c * mean x c
/-- The sum of squared deviations from the mean. -/
def chSumDev (x : I4 → EReal) (c : Fin 256) : EReal :=
  ∑ n : Fin 64, ∑ h : Fin 56, ∑ w : Fin 56, (x (ix4 n c h w) - mean x c) * (x (ix4 n c h w) - mean x c)
/-- The variance as the reference computes it: mean squared deviation. -/
def varR (x : I4 → EReal) (c : Fin 256) : EReal := Ideal.div (chSumDev x c) cN

/-- The momentum blend of the stored running mean with the batch mean. -/
def rmT (μ nrm : Fin 256 → EReal) (c : Fin 256) : EReal := c09 * nrm c + c01 * μ c
/-- The momentum blend of the stored running variance with the unbiased batch variance. -/
def rvT (σ nrv : Fin 256 → EReal) (c : Fin 256) : EReal := c09 * nrv c + c01 * (σ c * cUnb)
/-- The prior-weighted mixture of the layer's mean with the blended mean. -/
def runMean (p : EReal) (μ lrm nrm : Fin 256 → EReal) (c : Fin 256) : EReal :=
  p * lrm c + (cOne - p) * rmT μ nrm c
/-- The mixture's variance: weighted variances plus the spread of the two means. -/
def runVar (p : EReal) (μ σ lrm lrv nrm nrv : Fin 256 → EReal) (c : Fin 256) : EReal :=
  (p * lrv c + (cOne - p) * rvT σ nrv c) + (p * (cOne - p)) * ((lrm c - rmT μ nrm c) * (lrm c - rmT μ nrm c))
/-- The kernel's per-channel scale. -/
def scale (rv w : Fin 256 → EReal) (c : Fin 256) : EReal := Ideal.div (w c) (Ideal.sqrt (rv c + cEps))
/-- The kernel's per-channel shift. -/
def shift (rm sc b : Fin 256 → EReal) (c : Fin 256) : EReal := b c - rm c * sc c
/-- The kernel's output: one multiply-add per element. -/
def outK (x : I4 → EReal) (sc sh : Fin 256 → EReal) : I4 → EReal := fun i => x i * sc (ch i) + sh (ch i)
/-- The reference's output. -/
def outR (x : I4 → EReal) (rm rv w b : Fin 256 → EReal) : I4 → EReal :=
  fun i => Ideal.div (x i - rm (ch i)) (Ideal.sqrt (rv (ch i) + cEps)) * w (ch i) + b (ch i)

end BNSpec

end
-- ==== Proof.BNMath.lean ====
/-
  The two algebraic facts that join the programs, over the extended reals, for finite inputs:
  the two spellings of the variance agree, and so do the two spellings of the normalised output
  wherever `var + eps` is positive.
-/
import proofs.«166841_j11261404250602_1_alg».proof.Proof.BNSpec

noncomputable section

namespace BNSpec

open Idealize.ShloMosaic Idealize.ShloMosaic.ValueIdx

/-! ### Finite extended reals are closed under the ring operations -/

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

/-! ### The literals: `N` is evaluated, the others are only shown finite -/

theorem cN_eq : cN = ((200704 : ℝ) : EReal) := by
  simp [cN, Ideal.ofBits, Ideal.ieee, -EReal.coe_mul]; norm_num

theorem isR_cUnb : IsR cUnb := by
  simp [cUnb, Ideal.ofBits, Ideal.ieee, -EReal.coe_mul]; exact ⟨_, rfl⟩
theorem isR_c09 : IsR c09 := by
  simp [c09, Ideal.ofBits, Ideal.ieee, -EReal.coe_mul]; exact ⟨_, rfl⟩
theorem isR_c01 : IsR c01 := by
  simp [c01, Ideal.ofBits, Ideal.ieee, -EReal.coe_mul]; exact ⟨_, rfl⟩
theorem isR_cEps : IsR cEps := by
  simp [cEps, Ideal.ofBits, Ideal.ieee, -EReal.coe_mul]; exact ⟨_, rfl⟩
theorem isR_cOne : IsR cOne := by
  simp [cOne, Ideal.ofBits, Ideal.ieee, -EReal.coe_mul]; exact ⟨_, rfl⟩

/-! ### Coercion through finite sums -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum3 (F : Fin 64 → Fin 56 → Fin 56 → ℝ) :
    (∑ n, ∑ h, ∑ w, (F n h w : EReal)) = ((∑ n, ∑ h, ∑ w, F n h w : ℝ) : EReal) := by
  simp only [coe_sum]

/-! ### The variance identity over the reals -/

/-- Over a finite index set of `N` elements, `E[g^2] - (E g)^2 = E[(g - E g)^2]`. -/
theorem real_var {ι : Type*} [Fintype ι] (g : ι → ℝ) (N : ℝ) (hN : (Fintype.card ι : ℝ) = N) (hN0 : N ≠ 0) :
    (∑ i, g i * g i) * (1 / N) - ((∑ i, g i) * (1 / N)) * ((∑ i, g i) * (1 / N))
      = (∑ i, (g i - (∑ j, g j) * (1 / N)) * (g i - (∑ j, g j) * (1 / N))) * (1 / N) := by
  have h1 : ∀ m : ℝ, (∑ i, (g i - m) * (g i - m)) = (∑ i, g i * g i) - 2 * m * (∑ i, g i) + N * (m * m) := by
    intro m
    have h2 : ∀ i, (g i - m) * (g i - m) = g i * g i - 2 * m * g i + m * m := fun i => by ring
    simp only [h2, Finset.sum_add_distrib, Finset.sum_sub_distrib, ← Finset.mul_sum, Finset.sum_const,
      Finset.card_univ, nsmul_eq_mul, hN]
    ring
  rw [h1]
  field_simp
  ring

theorem real_var3 (F : Fin 64 → Fin 56 → Fin 56 → ℝ) :
    (∑ n, ∑ h, ∑ w, F n h w * F n h w) * (1 / 200704)
        - ((∑ n, ∑ h, ∑ w, F n h w) * (1 / 200704)) * ((∑ n, ∑ h, ∑ w, F n h w) * (1 / 200704))
      = (∑ n, ∑ h, ∑ w, (F n h w - (∑ n, ∑ h, ∑ w, F n h w) * (1 / 200704))
          * (F n h w - (∑ n, ∑ h, ∑ w, F n h w) * (1 / 200704))) * (1 / 200704) := by
  have h := real_var (fun p : Fin 64 × Fin 56 × Fin 56 => F p.1 p.2.1 p.2.2) 200704
    (by simp only [Fintype.card_prod, Fintype.card_fin]; norm_num) (by norm_num)
  simpa only [Fintype.sum_prod_type] using h

/-! ### The channel moments of a real input -/

theorem exists_real (x : I4 → EReal) (hx : ∀ i, IsR (x i)) : ∃ x' : I4 → ℝ, x = fun i => (x' i : EReal) := by
  choose x' hx' using hx
  exact ⟨x', funext hx'⟩

/-- The channel mean of a real input, as a real. -/
def meanReal (x' : I4 → ℝ) (c : Fin 256) : ℝ := (∑ n, ∑ h, ∑ w, x' (ix4 n c h w)) * (1 / 200704)

theorem mean_coe (x' : I4 → ℝ) (c : Fin 256) : mean (fun i => (x' i : EReal)) c = (meanReal x' c : EReal) := by
  simp only [mean, chSum, meanReal]
  rw [coe_sum3, cN_eq, Ideal.div_coe (by norm_num), ← EReal.coe_mul]

theorem varK_coe (x' : I4 → ℝ) (c : Fin 256) :
    varK (fun i => (x' i : EReal)) c
      = (((∑ n, ∑ h, ∑ w, x' (ix4 n c h w) * x' (ix4 n c h w)) * (1 / 200704)
          - meanReal x' c * meanReal x' c : ℝ) : EReal) := by
  simp only [varK, chSumSq, mean_coe, ← EReal.coe_mul]
  rw [coe_sum3, cN_eq, Ideal.div_coe (by norm_num), ← EReal.coe_mul, ← EReal.coe_sub]

theorem varR_coe (x' : I4 → ℝ) (c : Fin 256) :
    varR (fun i => (x' i : EReal)) c
      = (((∑ n, ∑ h, ∑ w, (x' (ix4 n c h w) - meanReal x' c) * (x' (ix4 n c h w) - meanReal x' c))
          * (1 / 200704) : ℝ) : EReal) := by
  simp only [varR, chSumDev, mean_coe, ← EReal.coe_sub, ← EReal.coe_mul]
  rw [coe_sum3, cN_eq, Ideal.div_coe (by norm_num), ← EReal.coe_mul]

/-- Mean of squares minus squared mean is the mean squared deviation, for finite entries
    (`N = 200704` is the number of summands). -/
theorem varK_eq_varR (x : I4 → EReal) (hx : ∀ i, IsR (x i)) (c : Fin 256) : varK x c = varR x c := by
  obtain ⟨x', rfl⟩ := exists_real x hx
  rw [varK_coe, varR_coe]
  congr 1
  exact real_var3 (fun n h w => x' (ix4 n c h w))

/-! ### The running moments are finite -/

theorem isR_mean (x : I4 → EReal) (hx : ∀ i, IsR (x i)) (c : Fin 256) : IsR (mean x c) := by
  obtain ⟨x', rfl⟩ := exists_real x hx
  exact ⟨_, mean_coe x' c⟩

theorem isR_varR (x : I4 → EReal) (hx : ∀ i, IsR (x i)) (c : Fin 256) : IsR (varR x c) := by
  obtain ⟨x', rfl⟩ := exists_real x hx
  exact ⟨_, varR_coe x' c⟩

theorem isR_rmT {μ nrm : Fin 256 → EReal} (hμ : ∀ c, IsR (μ c)) (hnrm : ∀ c, IsR (nrm c)) (c : Fin 256) :
    IsR (rmT μ nrm c) :=
  (isR_c09.mul (hnrm c)).add (isR_c01.mul (hμ c))

theorem isR_rvT {σ nrv : Fin 256 → EReal} (hσ : ∀ c, IsR (σ c)) (hnrv : ∀ c, IsR (nrv c)) (c : Fin 256) :
    IsR (rvT σ nrv c) :=
  (isR_c09.mul (hnrv c)).add (isR_c01.mul ((hσ c).mul isR_cUnb))

theorem isR_runMean {p : EReal} {μ lrm nrm : Fin 256 → EReal} (hp : IsR p) (hμ : ∀ c, IsR (μ c))
    (hlrm : ∀ c, IsR (lrm c)) (hnrm : ∀ c, IsR (nrm c)) (c : Fin 256) : IsR (runMean p μ lrm nrm c) :=
  (hp.mul (hlrm c)).add ((isR_cOne.sub hp).mul (isR_rmT hμ hnrm c))

theorem isR_runVar {p : EReal} {μ σ lrm lrv nrm nrv : Fin 256 → EReal} (hp : IsR p) (hμ : ∀ c, IsR (μ c))
    (hσ : ∀ c, IsR (σ c)) (hlrm : ∀ c, IsR (lrm c)) (hlrv : ∀ c, IsR (lrv c)) (hnrm : ∀ c, IsR (nrm c))
    (hnrv : ∀ c, IsR (nrv c)) (c : Fin 256) : IsR (runVar p μ σ lrm lrv nrm nrv c) :=
  ((hp.mul (hlrv c)).add ((isR_cOne.sub hp).mul (isR_rvT hσ hnrv c))).add
    ((hp.mul (isR_cOne.sub hp)).mul
      (((hlrm c).sub (isR_rmT hμ hnrm c)).mul ((hlrm c).sub (isR_rmT hμ hnrm c))))

/-! ### The two spellings of the normalised output -/

/-- For finite `x, w, b, m, v` with `v + eps` positive and `s = sqrt (v + eps)`:
    `x * (w / s) + (b - m * (w / s)) = (x - m) / s * w + b`. -/
theorem out_core {x w b m v : EReal} (hx : IsR x) (hw : IsR w) (hb : IsR b) (hm : IsR m) (hv : IsR v)
    (hpos : 0 < v + cEps) :
    x * Ideal.div w (Ideal.sqrt (v + cEps)) + (b - m * Ideal.div w (Ideal.sqrt (v + cEps)))
      = Ideal.div (x - m) (Ideal.sqrt (v + cEps)) * w + b := by
  obtain ⟨x, rfl⟩ := hx
  obtain ⟨w, rfl⟩ := hw
  obtain ⟨b, rfl⟩ := hb
  obtain ⟨m, rfl⟩ := hm
  obtain ⟨r, hr⟩ := hv.add isR_cEps
  rw [hr] at hpos ⊢
  have hr0 : 0 < r := by exact_mod_cast hpos
  have hs : Ideal.sqrt (r : EReal) = ((Real.sqrt r : ℝ) : EReal) := by
    rw [Ideal.sqrt_coe, if_neg (not_lt.mpr hr0.le)]
  have hs0 : Real.sqrt r ≠ 0 := (Real.sqrt_pos.mpr hr0).ne'
  rw [hs, Ideal.div_coe hs0, Ideal.div_coe hs0]
  norm_cast
  ring

/-- `x * (w / s) + (b - m * (w / s)) = (x - m) / s * w + b` for finite `x, w, b, m` and `s = sqrt (v + eps)`
    with `v + eps` a positive real; the running moments are finite because every input is. -/
theorem out_eq (x : I4 → EReal) (lrm lrv w b nrm nrv : Fin 256 → EReal) (p : EReal)
    (hx : ∀ i, IsR (x i)) (hlrm : ∀ c, IsR (lrm c)) (hlrv : ∀ c, IsR (lrv c)) (hw : ∀ c, IsR (w c))
    (hb : ∀ c, IsR (b c)) (hnrm : ∀ c, IsR (nrm c)) (hnrv : ∀ c, IsR (nrv c)) (hp : IsR p)
    (hpos : ∀ c, 0 < runVar p (mean x) (varR x) lrm lrv nrm nrv c + cEps) :
    outK x (scale (runVar p (mean x) (varK x) lrm lrv nrm nrv) w)
        (shift (runMean p (mean x) lrm nrm) (scale (runVar p (mean x) (varK x) lrm lrv nrm nrv) w) b)
      = outR x (runMean p (mean x) lrm nrm) (runVar p (mean x) (varR x) lrm lrv nrm nrv) w b := by
  have hv : varK x = varR x := funext (varK_eq_varR x hx)
  rw [hv]
  funext i
  simp only [outK, outR, scale, shift]
  exact out_core (hx i) (hw _) (hb _) (isR_runMean hp (isR_mean x hx) hlrm hnrm _)
    (isR_runVar hp (isR_mean x hx) (isR_varR x hx) hlrm hlrv hnrm hnrv _) (hpos _)

end BNSpec

end
-- ==== Proof.BNTail.lean ====
/-
  The per-channel arithmetic both programs run on the host between the statistics and the normalisation, as pure
  functions of a mean vector `μ`, a variance vector `σ` and the stored per-channel vectors, at any float instance:
  the momentum blends, the symmetric divergence of the two diagonal normals (two sums of quotients, two of
  squared mean differences over variances, four of logarithms), the prior-weighted mixture moments, and the
  kernel's scale and shift.  Each is the operations in the programs' order, so that either program's
  composed term is one of these applied to its own mean and variance; at the extended reals the moments
  read, channel by channel, as the formulas of `BNSpec`.
-/
import proofs.«166841_j11261404250602_1_alg».proof.Proof.BNSpec
import Idealize.ShloMosaic.Lib.StableHlo
import Idealize.ShloMosaic.PureOps
import Idealize.ShloMosaic.Lib.Pipeline.Value
import Idealize.ShloMosaic.Lib.ValueLayout

noncomputable section

namespace BNTail

open Idealize.ShloMosaic Idealize.ShloMosaic.ValueIdx

abbrev S256 : Shape := ⟨1, ![256]⟩
abbrev S1 : Shape := ⟨1, ![1]⟩
abbrev S_ : Shape := ⟨0, ![]⟩

section Generic

variable {F : FTy → Type} [FloatOps F]
variable (hb : S_.BroadcastsInDim S256 (![] : Fin 0 → Fin S256.rank)) (hr : S256.ReducesTo [0] S_) (h0 : 0 < S_.numel)
  (hc : S1.ShapeCasts S_)

/-- A scalar literal spread over the 256 channels. -/
def lit (w : BitVec 32) : FVec F S256 .f32 := broadcastInDim S256 ![] hb (constant S_ .f32 w)

/-- The blended mean `0.9 * nrm + 0.1 * μ`. -/
def rmT (μ nrm : FVec F S256 .f32) : FVec F S256 .f32 :=
  addf (mulf (lit hb 0x3F666666#32) nrm) (mulf (lit hb 0x3DCCCCCD#32) μ)

/-- The blended variance `0.9 * nrv + 0.1 * (σ * n/(n-1))`. -/
def rvT (σ nrv : FVec F S256 .f32) : FVec F S256 .f32 :=
  addf (mulf (lit hb 0x3F666666#32) nrv) (mulf (lit hb 0x3DCCCCCD#32) (mulf σ (lit hb 0x3F80002A#32)))

/-- The sum of a vector's 256 entries, from zero. -/
def tot (v : FVec F S256 .f32) : FVec F S_ .f32 := Host.reduceAdd v (constant S_ .f32 0x00000000#32) hr h0

/-- The symmetric divergence between `N(lrm, lrv + jitter)` and `N(rmT, rvT + jitter)`. -/
def divT (μ σ lrm lrv nrm nrv : FVec F S256 .f32) : FVec F S_ .f32 :=
  let m := rmT hb μ nrm
  let vs := addf lrv (lit hb 0x3727C5AC#32)
  let vt := addf (rvT hb σ nrv) (lit hb 0x3727C5AC#32)
  let k1 := subf (addf (subf (addf (tot hr h0 (Host.divf vs vt)) (tot hr h0 (Host.divf (mulf (subf m lrm) (subf m lrm)) vt)))
                  (constant S_ .f32 0x43800000#32)) (tot hr h0 (Host.log vt))) (tot hr h0 (Host.log vs))
  let k2 := subf (addf (subf (addf (tot hr h0 (Host.divf vt vs)) (tot hr h0 (Host.divf (mulf (subf lrm m) (subf lrm m)) vs)))
                  (constant S_ .f32 0x43800000#32)) (tot hr h0 (Host.log vs))) (tot hr h0 (Host.log vt))
  addf (mulf (constant S_ .f32 0x3F000000#32) (mulf (constant S_ .f32 0x3F000000#32) k1))
       (mulf (constant S_ .f32 0x3F000000#32) (mulf (constant S_ .f32 0x3F000000#32) k2))

/-- The prior as a scalar. -/
def prior0 (pr : FVec F S1 .f32) : FVec F S_ .f32 := shapeCast S_ pr hc

/-- The mixture mean `p * lrm + (1 - p) * rmT`. -/
def runMeanT (μ lrm nrm : FVec F S256 .f32) (pr : FVec F S1 .f32) : FVec F S256 .f32 :=
  addf (mulf (broadcastInDim S256 ![] hb (prior0 hc pr)) lrm)
       (mulf (broadcastInDim S256 ![] hb (subf (constant S_ .f32 0x3F800000#32) (prior0 hc pr))) (rmT hb μ nrm))

/-- The mixture variance `p * lrv + (1 - p) * rvT + p (1 - p) (lrm - rmT)^2`. -/
def runVarT (μ σ lrm lrv nrm nrv : FVec F S256 .f32) (pr : FVec F S1 .f32) : FVec F S256 .f32 :=
  addf (addf (mulf (broadcastInDim S256 ![] hb (prior0 hc pr)) lrv)
             (mulf (broadcastInDim S256 ![] hb (subf (constant S_ .f32 0x3F800000#32) (prior0 hc pr))) (rvT hb σ nrv)))
       (mulf (broadcastInDim S256 ![] hb (mulf (prior0 hc pr) (subf (constant S_ .f32 0x3F800000#32) (prior0 hc pr))))
             (mulf (subf lrm (rmT hb μ nrm)) (subf lrm (rmT hb μ nrm))))

/-- The kernel's scale `w / sqrt (runVar + eps)`. -/
def scaleT (rv w : FVec F S256 .f32) : FVec F S256 .f32 :=
  Host.divf w (Host.sqrt (addf rv (lit hb 0x3727C5AC#32)))

/-- The kernel's shift `b - runMean * scale`. -/
def shiftT (rm sc b : FVec F S256 .f32) : FVec F S256 .f32 := subf b (mulf rm sc)

end Generic

/-! ## The moments read channel by channel at the extended reals -/

section Ideal

variable (hb : S_.BroadcastsInDim S256 (![] : Fin 0 → Fin S256.rank)) (hc : S1.ShapeCasts S_)

/-- A vector of length 256 as a function of the channel. -/
def fn (v : FVec Ideal S256 .f32) : Fin 256 → EReal := fun c => v (ix1 c)

/-- A scalar spread over the 256 channels reads, at every channel, the scalar. -/
theorem bcast0_apply (v : FVec Ideal S_ .f32) (i : S256.Idx) : broadcastInDim S256 ![] hb v i = v ix0 :=
  broadcastInDim_apply _ hb v i ix0 (fun a => a.elim0)

/-- The one-element vector viewed as a scalar reads its one element. -/
theorem prior0_apply (pr : FVec Ideal S1 .f32) (j : S_.Idx) : prior0 hc pr j = pr (ix1 0) := by
  unfold prior0
  refine shapeCast_apply pr hc j (ix1 0) ?_
  have h1 := (S1.rowMajor (ix1 0)).isLt
  have h2 := (S_.rowMajor j).isLt
  have e1 : S1.numel = 1 := by decide
  have e2 : S_.numel = 1 := by decide
  omega

theorem lit_apply (w : BitVec 32) (i : S256.Idx) : lit (F := Ideal) hb w i = Ideal.ofBits .f32 w := by
  unfold lit
  rw [bcast0_apply]
  rfl

theorem rmT_apply (μ nrm : FVec Ideal S256 .f32) (c : Fin 256) :
    rmT hb μ nrm (ix1 c) = BNSpec.rmT (fn μ) (fn nrm) c := by
  simp only [rmT, addf_apply, mulf_apply, lit_apply]
  rfl

theorem rvT_apply (σ nrv : FVec Ideal S256 .f32) (c : Fin 256) :
    rvT hb σ nrv (ix1 c) = BNSpec.rvT (fn σ) (fn nrv) c := by
  simp only [rvT, addf_apply, mulf_apply, lit_apply]
  rfl

theorem runMeanT_apply (μ lrm nrm : FVec Ideal S256 .f32) (pr : FVec Ideal S1 .f32) (c : Fin 256) :
    runMeanT hb hc μ lrm nrm pr (ix1 c) = BNSpec.runMean (pr (ix1 0)) (fn μ) (fn lrm) (fn nrm) c := by
  simp only [runMeanT, addf_apply, mulf_apply]
  rw [bcast0_apply hb, bcast0_apply hb]
  simp only [subf_apply, prior0_apply, constant_apply, rmT_apply]
  rfl

theorem runVarT_apply (μ σ lrm lrv nrm nrv : FVec Ideal S256 .f32) (pr : FVec Ideal S1 .f32) (c : Fin 256) :
    runVarT hb hc μ σ lrm lrv nrm nrv pr (ix1 c)
      = BNSpec.runVar (pr (ix1 0)) (fn μ) (fn σ) (fn lrm) (fn lrv) (fn nrm) (fn nrv) c := by
  simp only [runVarT, addf_apply, mulf_apply]
  rw [bcast0_apply hb, bcast0_apply hb, bcast0_apply hb]
  simp only [mulf_apply, subf_apply, prior0_apply, constant_apply, rmT_apply, rvT_apply]
  rfl

theorem scaleT_apply (rv w : FVec Ideal S256 .f32) (c : Fin 256) :
    scaleT hb rv w (ix1 c) = BNSpec.scale (fn rv) (fn w) c := by
  show Ideal.div (w (ix1 c)) (Ideal.sqrt (rv (ix1 c) + lit (F := Ideal) hb 0x3727C5AC#32 (ix1 c))) = _
  rw [lit_apply]
  rfl

theorem shiftT_apply (rm sc b : FVec Ideal S256 .f32) (c : Fin 256) :
    shiftT rm sc b (ix1 c) = BNSpec.shift (fn rm) (fn sc) (fn b) c := rfl

end Ideal

end BNTail

end
-- ==== Proof.BNStats.lean ====
/-
  The reference's batch statistics as pure functions of the input at any float instance — the sum over batch, height
  and width divided by `N`, and the mean squared deviation from that mean (the mean broadcast back along the three
  reduced axes) — and their reading, channel by channel, at the extended reals.
-/
import proofs.«166841_j11261404250602_1_alg».proof.Proof.BNTail
import Idealize.ShloMosaic.PureOps.Ideal.Laws

noncomputable section

namespace BNTail

open Idealize.ShloMosaic Idealize.ShloMosaic.ValueIdx

abbrev S4 : Shape := ⟨4, ![64, 256, 56, 56]⟩
abbrev S1x256x1x1 : Shape := ⟨4, ![1, 256, 1, 1]⟩

section Generic

variable {F : FTy → Type} [FloatOps F]
variable (hred : S4.ReducesTo [0, 2, 3] S256) (h0 : 0 < S_.numel)
  (hb : S_.BroadcastsInDim S256 (![] : Fin 0 → Fin S256.rank))
  (hb1 : S256.BroadcastsInDim S1x256x1x1 (![1] : Fin 1 → Fin S1x256x1x1.rank))
  (hb4 : S1x256x1x1.BroadcastsInDim S4 (![0, 1, 2, 3] : Fin 4 → Fin S4.rank))

/-- The per-channel mean: the sum over batch, height and width, from zero, divided by `N`. -/
def meanT (x : FVec F S4 .f32) : FVec F S256 .f32 :=
  Host.divf (Host.reduceAdd x (constant S_ .f32 0x00000000#32) hred h0) (lit hb 0x48440000#32)

/-- The per-channel mean squared deviation from `meanT`. -/
def varRT (x : FVec F S4 .f32) : FVec F S256 .f32 :=
  Host.divf
    (Host.reduceAdd
      (mulf (subf x (broadcastInDim S4 ![0, 1, 2, 3] hb4 (broadcastInDim S1x256x1x1 ![1] hb1 (meanT hred h0 hb x))))
            (subf x (broadcastInDim S4 ![0, 1, 2, 3] hb4 (broadcastInDim S1x256x1x1 ![1] hb1 (meanT hred h0 hb x)))))
      (constant S_ .f32 0x00000000#32) hred h0)
    (lit hb 0x48440000#32)

end Generic

section Ideal

variable (hred : S4.ReducesTo [0, 2, 3] S256) (h0 : 0 < S_.numel)
  (hb : S_.BroadcastsInDim S256 (![] : Fin 0 → Fin S256.rank))
  (hb1 : S256.BroadcastsInDim S1x256x1x1 (![1] : Fin 1 → Fin S1x256x1x1.rank))
  (hb4 : S1x256x1x1.BroadcastsInDim S4 (![0, 1, 2, 3] : Fin 4 → Fin S4.rank))

/-- At the extended reals the sum over batch, height and width into the 256 channels reads, at channel `c`,
    the initial value plus the triple sum of the entries of that channel: the source indices that drop to `c`
    are exactly those whose channel coordinate is `c`, and they are in bijection with the triples `(n, h, w)`. -/
theorem reduce3_apply (x : FVec Ideal S4 .f32) (init : FVec Ideal S_ .f32) (c : Fin 256) :
    Host.reduceAdd x init hred h0 (ix1 c)
      = init ix0 + ∑ n : Fin 64, ∑ h : Fin 56, ∑ w : Fin 56, x (ix4 n c h w) := by
  show Ideal.hostReduceAdd hred x (init (Shape.Idx.first h0)) (ix1 c) = _
  unfold Ideal.hostReduceAdd
  rw [show Shape.Idx.first h0 = ix0 from eq_ix0 _]
  congr 1
  have hdrop : ∀ i : S4.Idx, hred.drop i = (ix1 (i 1) : S256.Idx) := fun i => funext fun b =>
    match b with
    | ⟨0, _⟩ => Fin.ext (hred.drop_apply_val_of_eq i 0 1)
  have key : ∀ i : S4.Idx, hred.drop i = ix1 c ↔ i 1 = c := fun i => by
    rw [hdrop i]
    exact ⟨fun h => congrFun h 0, fun h => by rw [h]⟩
  rw [← (by simp only [Fintype.sum_prod_type] :
    ∑ q : Fin 64 × Fin 56 × Fin 56, x (ix4 q.1 c q.2.1 q.2.2) = ∑ n : Fin 64, ∑ h : Fin 56, ∑ w : Fin 56, x (ix4 n c h w))]
  refine Finset.sum_nbij' (fun i => ((i 0, i 2, i 3) : Fin 64 × Fin 56 × Fin 56)) (fun q => ix4 q.1 c q.2.1 q.2.2)
    ?_ ?_ ?_ ?_ ?_
  · intro i _; exact Finset.mem_univ _
  · intro q _; rw [Finset.mem_filter]; exact ⟨Finset.mem_univ _, (key _).mpr rfl⟩
  · intro i hi
    rw [Finset.mem_filter] at hi
    have hc := (key i).mp hi.2
    subst hc
    exact (eq_ix4 i).symm
  · intro q _; rfl
  · intro i hi
    rw [Finset.mem_filter] at hi
    have hc := (key i).mp hi.2
    subst hc
    exact congrArg x (eq_ix4 i)

/-- A per-channel vector spread back over batch, height and width reads, at `(n, c, h, w)`, its entry `c`. -/
theorem bcast4_apply (v : FVec Ideal S256 .f32) (n : Fin 64) (c : Fin 256) (h w : Fin 56) :
    broadcastInDim S4 ![0, 1, 2, 3] hb4 (broadcastInDim S1x256x1x1 ![1] hb1 v) (ix4 n c h w) = v (ix1 c) := by
  refine (broadcastInDim_apply _ hb4 _ (ix4 n c h w) (ix4 (0 : Fin 1) c (0 : Fin 1) (0 : Fin 1)) (fun a => match a with
    | ⟨0, _⟩ => by show 0 = if (1 : Nat) = 1 then 0 else n.val; rw [if_pos rfl]
    | ⟨1, _⟩ => by show c.val = if (256 : Nat) = 1 then 0 else c.val; rw [if_neg (by decide)]
    | ⟨2, _⟩ => by show 0 = if (1 : Nat) = 1 then 0 else h.val; rw [if_pos rfl]
    | ⟨3, _⟩ => by show 0 = if (1 : Nat) = 1 then 0 else w.val; rw [if_pos rfl])).trans ?_
  exact broadcastInDim_apply _ hb1 v _ (ix1 c) (fun a => match a with
    | ⟨0, _⟩ => by show c.val = if (256 : Nat) = 1 then 0 else c.val; rw [if_neg (by decide)])

theorem meanT_apply (x : FVec Ideal S4 .f32) (c : Fin 256) :
    meanT hred h0 hb x (ix1 c) = BNSpec.mean x c := by
  show Ideal.div (Host.reduceAdd x (constant (F := Ideal) S_ .f32 0x00000000#32) hred h0 (ix1 c))
    (lit (F := Ideal) hb 0x48440000#32 (ix1 c)) = _
  rw [reduce3_apply, lit_apply, constant_apply, Ideal.ofBits_zero_f32, zero_add]
  rfl

theorem varRT_apply (x : FVec Ideal S4 .f32) (c : Fin 256) :
    varRT hred h0 hb hb1 hb4 x (ix1 c) = BNSpec.varR x c := by
  show Ideal.div (Host.reduceAdd
      (mulf (subf x (broadcastInDim S4 ![0, 1, 2, 3] hb4 (broadcastInDim S1x256x1x1 ![1] hb1 (meanT hred h0 hb x))))
            (subf x (broadcastInDim S4 ![0, 1, 2, 3] hb4 (broadcastInDim S1x256x1x1 ![1] hb1 (meanT hred h0 hb x)))))
      (constant (F := Ideal) S_ .f32 0x00000000#32) hred h0 (ix1 c))
    (lit (F := Ideal) hb 0x48440000#32 (ix1 c)) = _
  rw [reduce3_apply, lit_apply, constant_apply, Ideal.ofBits_zero_f32, zero_add]
  simp only [mulf_apply, subf_apply]
  simp only [bcast4_apply hb1 hb4, meanT_apply]
  rfl

end Ideal

end BNTail

end
-- ==== Proof.PreDecode.lean ====
/-
  What the precondition says at the extended reals: every entry of every input is a real number, and on every
  channel the reference's blended variance plus `eps` is positive (the domain of its `1 / sqrt`).
-/
import proofs.«166841_j11261404250602_1_alg».proof.Pre_finite_inputs
import proofs.«166841_j11261404250602_1_alg».proof.Proof.Gen.Pre_finite_inputs
import proofs.«166841_j11261404250602_1_alg».proof.Proof.BNStats
import Idealize.ShloMosaic.Lib.ReduceAll

noncomputable section

namespace Cert.Pre_finite_inputs.Hand

open Cert.Pre_finite_inputs Cert.Pre_finite_inputs.Gen
open Idealize.ShloMosaic Idealize.ShloMosaic.ValueIdx

/-- The scalar shape has one index. -/
instance : Subsingleton S_.Idx := ⟨fun a b => funext fun d => d.elim0⟩

/-- An extended real whose absolute value is below `+∞` is a real number. -/
theorem isR_of_finite {x : EReal} (h : Ideal.cmp .olt (max x (-x)) (Ideal.ofBits .f32 0x7F800000#32) = 1#1) :
    BNSpec.IsR x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- A comparison "greater than zero" that holds says the value is positive. -/
theorem pos_of_cmp_ogt {a : EReal} (h : Ideal.cmp .ogt a (Ideal.ofBits .f32 0x00000000#32) = 1#1) : 0 < a := by
  rw [Ideal.ofBits_zero_f32] at h
  by_contra hn
  simp [Ideal.cmp, hn] at h

theorem pre_decode (x0 : FVec Ideal S64x256x56x56 .f32) (x1 x2 x3 x4 x5 x6 : FVec Ideal S256 .f32) (x7 : FVec Ideal S1 .f32)
    (h : Cert.Pre_finite_inputs.fn (F := Ideal) x0 x1 x2 x3 x4 x5 x6 x7 = fun _ => 1#1) :
    (∀ i, BNSpec.IsR (x0 i)) ∧ (∀ c, BNSpec.IsR (BNTail.fn x1 c)) ∧ (∀ c, BNSpec.IsR (BNTail.fn x2 c))
      ∧ (∀ c, BNSpec.IsR (BNTail.fn x3 c)) ∧ (∀ c, BNSpec.IsR (BNTail.fn x4 c)) ∧ (∀ c, BNSpec.IsR (BNTail.fn x5 c))
      ∧ (∀ c, BNSpec.IsR (BNTail.fn x6 c)) ∧ BNSpec.IsR (x7 (ix1 0))
      ∧ ∀ c, 0 < BNSpec.runVar (x7 (ix1 0)) (BNSpec.mean x0) (BNSpec.varR x0) (BNTail.fn x1) (BNTail.fn x2)
                  (BNTail.fn x5) (BNTail.fn x6) c + BNSpec.cEps := by
  have h0 := congrFun h ix0
  dsimp only [fn, fn_part1, fn_part2, fn_part3, fn_part4] at h0
  obtain ⟨h38, h79⟩ := IntOp.andi_eq_one.1 h0
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  clear h0 h38 h33 h28 h23 h18 h13 h8 h
  refine ⟨fun i => isR_of_finite (Host.reduce_andi_all _ _ _ _ ix0 h3 i),
    fun c => isR_of_finite (Host.reduce_andi_all _ _ _ _ ix0 h7 (ix1 c)),
    fun c => isR_of_finite (Host.reduce_andi_all _ _ _ _ ix0 h12 (ix1 c)),
    fun c => isR_of_finite (Host.reduce_andi_all _ _ _ _ ix0 h17 (ix1 c)),
    fun c => isR_of_finite (Host.reduce_andi_all _ _ _ _ ix0 h22 (ix1 c)),
    fun c => isR_of_finite (Host.reduce_andi_all _ _ _ _ ix0 h27 (ix1 c)),
    fun c => isR_of_finite (Host.reduce_andi_all _ _ _ _ ix0 h32 (ix1 c)),
    isR_of_finite (Host.reduce_andi_all _ _ _ _ ix0 h37 (ix1 0)), fun c => ?_⟩
  have hc := Host.reduce_andi_all _ _ _ _ ix0 h79 (ix1 c)
  have hc2 : cmpf .ogt
      (addf (BNTail.runVarT bcast_S_S256 shapeCasts_S1_S_
          (BNTail.meanT reducesTo_S64x256x56x56_S256_d0_2_3 h_S_ bcast_S_S256 x0)
          (BNTail.varRT reducesTo_S64x256x56x56_S256_d0_2_3 h_S_ bcast_S_S256 bcast_S256_S1x256x1x1_1
            bcast_S1x256x1x1_S64x256x56x56_0_1_2_3 x0) x1 x2 x5 x6 x7)
        (BNTail.lit bcast_S_S256 0x3727C5AC#32))
      (BNTail.lit (F := Ideal) bcast_S_S256 0x00000000#32) (ix1 c) = 1#1 := hc
  have hc3 : Ideal.cmp .ogt
      (BNTail.runVarT bcast_S_S256 shapeCasts_S1_S_
          (BNTail.meanT reducesTo_S64x256x56x56_S256_d0_2_3 h_S_ bcast_S_S256 x0)
          (BNTail.varRT reducesTo_S64x256x56x56_S256_d0_2_3 h_S_ bcast_S_S256 bcast_S256_S1x256x1x1_1
            bcast_S1x256x1x1_S64x256x56x56_0_1_2_3 x0) x1 x2 x5 x6 x7 (ix1 c)
        + BNTail.lit (F := Ideal) bcast_S_S256 0x3727C5AC#32 (ix1 c))
      (BNTail.lit (F := Ideal) bcast_S_S256 0x00000000#32 (ix1 c)) = 1#1 := hc2
  have hm : BNTail.fn (BNTail.meanT reducesTo_S64x256x56x56_S256_d0_2_3 h_S_ bcast_S_S256 x0) = BNSpec.mean x0 :=
    funext fun k => BNTail.meanT_apply _ _ _ x0 k
  have hv : BNTail.fn (BNTail.varRT reducesTo_S64x256x56x56_S256_d0_2_3 h_S_ bcast_S_S256 bcast_S256_S1x256x1x1_1
      bcast_S1x256x1x1_S64x256x56x56_0_1_2_3 x0) = BNSpec.varR x0 :=
    funext fun k => BNTail.varRT_apply _ _ _ _ _ x0 k
  rw [BNTail.lit_apply, BNTail.lit_apply, BNTail.runVarT_apply, hm, hv] at hc3
  exact pos_of_cmp_ogt hc3

end Cert.Pre_finite_inputs.Hand

end
-- ==== Proof.KStats.lean ====
/-
  The first kernel region (the statistics kernel) at any float instance: a grid of 32 points, each fetching a
  block of two batch entries of the input; two scratch vectors of length 256 carry the running per-channel sum and
  sum of squares from point to point (reset at the first point), and the last point writes the mean
  `sum / N` and the variance `sumsq / N - mean * mean` into the two output windows, which are idle before it.
-/
import proofs.«166841_j11261404250602_1_alg».proof.Proof.Gen.KernelIdeal.Launch
import proofs.«166841_j11261404250602_1_alg».proof.Proof.Gen.KernelIdeal.Skeleton
import proofs.«166841_j11261404250602_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running per-channel sum after the first `n` points: zero, then each point adds its block's channel sums. -/
def acc0 (c : Dev nD) : Nat → Vec F S256 .f32
  | 0 => k0_pay1
  | n + 1 => if h : n < cfg0.N then k0_pay3 (iblk0 V c 0 ⟨n, h⟩) (acc0 c n) else acc0 c n

/-- The running per-channel sum of squares after the first `n` points. -/
def acc1 (c : Dev nD) : Nat → Vec F S256 .f32
  | 0 => k0_pay2
  | n + 1 => if h : n < cfg0.N then k0_pay4 (iblk0 V c 0 ⟨n, h⟩) (acc1 c n) else acc1 c n

/-- The region's invariant before point `t`: before the first point the two scratch vectors hold anything;
    before any later point they hold the running sums of the points done; the other scoped buffers at some
    contents, the generator register at some state. -/
def Φ0 (c : Dev nD) (t : Fin (cfg0.N + 1)) : sProp 𝕄 :=
  iprop((if t.val = 0 then iprop(∃ f : Buf (Elt F) ((c : Thread nD τ).loc cc0_scratch0), ((c : Thread nD τ).loc cc0_scratch0) ↦{fullShare} f)
          else owns (c : Thread nD τ) (Memref.whole cc0_scratch0 : Memref sig .tc .vmem S256 .f32) fullShare (acc0 V c t.val))
    ∗ (if t.val = 0 then iprop(∃ f : Buf (Elt F) ((c : Thread nD τ).loc cc0_scratch1), ((c : Thread nD τ).loc cc0_scratch1) ↦{fullShare} f)
          else owns (c : Thread nD τ) (Memref.whole cc0_scratch1 : Memref sig .tc .vmem S256 .f32) fullShare (acc1 V c t.val))
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ ∃ r, prngReg c r)

/-- The proof data of pipeline 0 on core `c`: the arrays as the region finds them; the input's buffer left at
    its block; the two outputs' buffers, consulted at the last point only, at the mean and the variance of
    the completed sums; the invariant `Φ0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay5 (acc0 V c cfg0.N)
    | ⟨2, _⟩ => k0_pay6 (acc0 V c cfg0.N) (acc1 V c cfg0.N)
  Φ t := Φ0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay5 (acc0 V c cfg0.N) := by dsimp only [dat0]
theorem after0_2 (c : Dev nD) (t : Fin cfg0.N) : (dat0 V c).after 2 t = k0_pay6 (acc0 V c cfg0.N) (acc1 V c cfg0.N) := by dsimp only [dat0]

/-! ## The accumulators, one point at a time -/

theorem acc0_of_zero (c : Dev nD) (n : Nat) (h : n = 0) : acc0 V c n = k0_pay1 := by subst h; rfl
theorem acc1_of_zero (c : Dev nD) (n : Nat) (h : n = 0) : acc1 V c n = k0_pay2 := by subst h; rfl

/-- After point `t` the running sum is the one before it plus the point's channel sums. -/
theorem acc0_succ (c : Dev nD) (t : Fin cfg0.N) : acc0 V c (t.val + 1) = k0_pay3 (iblk0 V c 0 t) (acc0 V c t.val) := by
  rw [acc0]; exact dif_pos t.isLt
theorem acc1_succ (c : Dev nD) (t : Fin cfg0.N) : acc1 V c (t.val + 1) = k0_pay4 (iblk0 V c 0 t) (acc1 V c t.val) := by
  rw [acc1]; exact dif_pos t.isLt

/-- At the last point the completed sums are the sums after it. -/
theorem acc0_N (c : Dev nD) (t : Fin cfg0.N) (h : t.val = 31) : acc0 V c cfg0.N = k0_pay3 (iblk0 V c 0 t) (acc0 V c t.val) := by
  have hN : cfg0.N = t.val + 1 := by rw [h]; exact N_0
  exact (congrArg (acc0 V c) hN).trans (acc0_succ V c t)
theorem acc1_N (c : Dev nD) (t : Fin cfg0.N) (h : t.val = 31) : acc1 V c cfg0.N = k0_pay4 (iblk0 V c 0 t) (acc1 V c t.val) := by
  have hN : cfg0.N = t.val + 1 := by rw [h]; exact N_0
  exact (congrArg (acc1 V c) hN).trans (acc1_succ V c t)

/-! ## The two branch conditions and the idle points, in closed form over the grid -/

/-- The first branch's condition: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second branch's condition: the grid coordinate is the last. -/
abbrev cond0_1 (i : grid0.Coords) : Prop := k0_cond2 i = 1#1
/-- It holds at the last point only. -/
theorem hcond0_1 : ∀ t : Fin cfg0.N, cond0_1 (grid0.coords t) ↔ t.val = 31 :=
  (by decide +kernel : ∀ t : Fin grid0.N, cond0_1 (grid0.coords t) ↔ t.val = 31)

/-- The input window is never idle; the two output windows are idle, and not written back, exactly off the last point. -/
theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem idleAt0_2 : ∀ t : Fin cfg0.N, ¬cond0_1 (grid0.coords t) → cfg0.idle 2 (grid0.coords t) = true := by decide +kernel
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel
theorem noFlush0_1 : ∀ t : Fin cfg0.N, ¬cond0_1 (grid0.coords t) → (cfg0.win 1).flush t = false := by decide +kernel
theorem noFlush0_2 : ∀ t : Fin cfg0.N, ¬cond0_1 (grid0.coords t) → (cfg0.win 2).flush t = false := by decide +kernel

/-! ## Whole-vector loads and stores -/

theorem hz1 : (![0] : Fin 1 → Nat) = fun _ => 0 := funext fun a => by fin_cases a <;> rfl
theorem hz4 : (![0, 0, 0, 0] : Fin 4 → Nat) = fun _ => 0 := funext fun a => by fin_cases a <;> rfl

/-- A store of a whole length-256 vector, last, covers the vector. -/
theorem cover1 (p : Vec F S256 .f32) (L : List (View.Piece (Elt F) S256 .f32)) (y : S256.Idx) :
    ∃ pc ∈ ((⟨Rect.unit (s := S256) ![0] S256.size inb_S256_S256_0, p⟩ : View.Piece (Elt F) S256 .f32) :: L), y ∈ pc.1.set :=
  ⟨_, List.mem_cons_self, View.mem_set_unit_zero (S := S256) hz1 inb_S256_S256_0 y⟩

/-! ## The body's triple in each of its three control cases, on any whole memrefs -/

set_option maxHeartbeats 1000000 in
/-- At the first point: both scratch vectors, whatever they held, are reset to zero and then take the block's channel
    sums and sums of squares; the input and the two outputs are left as found. -/
theorem kernel_first (c : Dev nD) (E : Set ℕ) (i : grid0.Coords)
    (arg1 : Memref sig .tc .vmem S2x256x56x56 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S256 .f32) (harg5 : arg5.IsWhole)
    (hc0 : cond0_0 i) (hc1 : ¬cond0_1 i)
    (x : Vec F S2x256x56x56 .f32) (y1 y2 : Vec F S256 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare y1 ∗ owns (c : Thread nD τ) arg3 fullShare y2
            ∗ owns (c : Thread nD τ) arg4 fullShare (k0_pay3 x k0_pay1) ∗ owns (c : Thread nD τ) arg5 fullShare (k0_pay4 x k0_pay2)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1 _ _)]
    sl_unfold_words
    rw [View.canon_cons_unit_zero (S := S256) hz1]
    simp only [View.readAt_eq_ld, View.ld_unit_zero (S := S2x256x56x56) hz4, View.ld_unit_zero (S := S256) hz1, View.readCov_unit_zero (S := S256) _ hz1]
  · iexists _; isplitr
    swap; · iexact H5
    ipureintro
    rw [View.read_writes_eq_canon _ _ _ (cover1 _ _)]
    sl_unfold_words
    rw [View.canon_cons_unit_zero (S := S256) hz1]
    simp only [View.readAt_eq_ld, View.ld_unit_zero (S := S2x256x56x56) hz4, View.ld_unit_zero (S := S256) hz1, View.readCov_unit_zero (S := S256) _ hz1]

set_option maxHeartbeats 1000000 in
/-- At a point that is neither first nor last: the scratch vectors take the block's channel sums and sums of squares
    on top of what they held; the input and the two outputs are left as found. -/
theorem kernel_mid (c : Dev nD) (E : Set ℕ) (i : grid0.Coords)
    (arg1 : Memref sig .tc .vmem S2x256x56x56 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S256 .f32) (harg5 : arg5.IsWhole)
    (hc0 : ¬cond0_0 i) (hc1 : ¬cond0_1 i)
    (x : Vec F S2x256x56x56 .f32) (y1 y2 s0 s1 : Vec F S256 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x ∗ owns (c : Thread nD τ) arg2 fullShare y1 ∗ owns (c : Thread nD τ) arg3 fullShare y2
            ∗ owns (c : Thread nD τ) arg4 fullShare (k0_pay3 x s0) ∗ owns (c : Thread nD τ) arg5 fullShare (k0_pay4 x s1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1 _ _), View.canon_unit_zero hz1]
    simp only [View.readAt_eq_ld, View.ld_unit_zero (S := S2x256x56x56) hz4, View.ld_unit_zero (S := S256) hz1]
  · iexists _; isplitr
    swap; · iexact H5
    ipureintro
    rw [View.read_writes_eq_canon _ _ _ (cover1 _ _), View.canon_unit_zero hz1]
    simp only [View.readAt_eq_ld, View.ld_unit_zero (S := S2x256x56x56) hz4, View.ld_unit_zero (S := S256) hz1]

set_option maxHeartbeats 1000000 in
/-- At the last point: the scratch vectors take the block's sums on top of what they held, and the completed sums
    are then read back and the mean and the variance stored into the two outputs, whatever those held. -/
theorem kernel_last (c : Dev nD) (E : Set ℕ) (i : grid0.Coords)
    (arg1 : Memref sig .tc .vmem S2x256x56x56 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S256 .f32) (harg5 : arg5.IsWhole)
    (hc0 : ¬cond0_0 i) (hc1 : cond0_1 i)
    (x : Vec F S2x256x56x56 .f32) (s0 s1 : Vec F S256 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare (k0_pay5 (k0_pay3 x s0))
            ∗ owns (c : Thread nD τ) arg3 fullShare (k0_pay6 (k0_pay3 x s0) (k0_pay4 x s1))
            ∗ owns (c : Thread nD τ) arg4 fullShare (k0_pay3 x s0) ∗ owns (c : Thread nD τ) arg5 fullShare (k0_pay4 x s1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc0 | exact hc1)
  sl_step
  iapply Hk
  isplitl [H1]
  · iexists f1; isplitr; · ipureintro; rfl
    iexact H1
  isplitl [H2]
  · iexists _; isplitr
    swap; · iexact H2
    ipureintro
    rw [View.read_writes_eq_canon _ _ _ (cover1 _ _), View.canon_unit_zero hz1]
    sl_unfold_words
    simp only [View.readAt_eq_ld, View.ld_unit_zero (S := S2x256x56x56) hz4, View.ld_unit_zero (S := S256) hz1, View.readCov_unit_zero (S := S256) _ hz1]
  isplitl [H3]
  · iexists _; isplitr
    swap; · iexact H3
    ipureintro
    rw [View.read_writes_eq_canon _ _ _ (cover1 _ _), View.canon_unit_zero hz1]
    sl_unfold_words
    simp only [View.readAt_eq_ld, View.ld_unit_zero (S := S2x256x56x56) hz4, View.ld_unit_zero (S := S256) hz1, View.readCov_unit_zero (S := S256) _ hz1]
  isplitl [H4]
  · iexists _; isplitr
    swap; · iexact H4
    ipureintro
    sl_unfold_words
    rw [View.read_writes_eq_canon _ _ _ (cover1 _ _), View.canon_unit_zero hz1]
    simp only [View.readAt_eq_ld, View.ld_unit_zero (S := S2x256x56x56) hz4, View.ld_unit_zero (S := S256) hz1]
  · iexists _; isplitr
    swap; · iexact H5
    ipureintro
    sl_unfold_words
    rw [View.read_writes_eq_canon _ _ _ (cover1 _ _), View.canon_unit_zero hz1]
    simp only [View.readAt_eq_ld, View.ld_unit_zero (S := S2x256x56x56) hz4, View.ld_unit_zero (S := S256) hz1]

/-! ## The invariant, before the first point and after it -/

/-- The two scratch vectors as memrefs. -/
abbrev scM0 : Memref sig .tc .vmem S256 .f32 := Memref.whole cc0_scratch0
abbrev scM1 : Memref sig .tc .vmem S256 .f32 := Memref.whole cc0_scratch1

/-- What the invariant holds beside the two scratch vectors: the other scoped buffers at some contents, the generator
    register at some state. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ ∃ r, prngReg c r)

theorem Φ0_eq (c : Dev nD) (t : Fin (cfg0.N + 1)) :
    Φ0 V c t = iprop((if t.val = 0 then iprop(∃ f : Buf (Elt F) ((c : Thread nD τ).loc cc0_scratch0), ((c : Thread nD τ).loc cc0_scratch0) ↦{fullShare} f)
          else owns (c : Thread nD τ) scM0 fullShare (acc0 V c t.val))
    ∗ (if t.val = 0 then iprop(∃ f : Buf (Elt F) ((c : Thread nD τ).loc cc0_scratch1), ((c : Thread nD τ).loc cc0_scratch1) ↦{fullShare} f)
          else owns (c : Thread nD τ) scM1 fullShare (acc1 V c t.val))
    ∗ rest0 (F := F) c) := by
  unfold Φ0 rest0; rfl

/-- Before the first point: the scratch vectors at anything. -/
theorem Φ0_zero (c : Dev nD) (t : Fin (cfg0.N + 1)) (h : t.val = 0) :
    Φ0 V c t = iprop((∃ d, owns (c : Thread nD τ) scM0 fullShare d) ∗ (∃ d, owns (c : Thread nD τ) scM1 fullShare d) ∗ rest0 (F := F) c) := by
  rw [Φ0_eq, if_pos h, if_pos h]; simp only [scM0, scM1, owns_whole]; try rfl

/-- Before a later point `n`: the scratch vectors at the running sums of the first `n` points. -/
theorem Φ0_pos (c : Dev nD) (t : Fin (cfg0.N + 1)) (n : Nat) (hn : t.val = n) (h : n ≠ 0) :
    Φ0 V c t = iprop(owns (c : Thread nD τ) scM0 fullShare (acc0 V c n) ∗ owns (c : Thread nD τ) scM1 fullShare (acc1 V c n) ∗ rest0 (F := F) c) := by
  subst hn; rw [Φ0_eq, if_neg h, if_neg h]

/-! ## The input window's buffer holds its block at every point -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation at a generic point -/

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The input's buffer holds its block; the point is the first, a middle one or the last, and
    that case's triple applies: the scratch vectors go from the running sums of the points done (anything, at the
    first point) to the running sums including this point; off the last point the outputs' buffers are handed back as
    found, and at the last they hold the mean and the variance of the completed sums. Nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Φ0 V c t.succ from by dsimp only [dat0],
    show (dat0 V c).Φ t.castSucc = Φ0 V c t.castSucc from by dsimp only [dat0]]
  rw [Φ0_pos V c t.succ (t.val + 1) (Fin.val_succ t) (Nat.succ_ne_zero _), acc0_succ, acc1_succ]
  rw [show (dat0 V c).leavesExact 0 t = owns (c : Thread nD τ) (st0_0 t) fullShare ((dat0 V c).after 0 t) from by
    unfold Dat.leavesExact; rw [liveAt0_0 t], after0_0]
  have hN : t.val < 32 := lt_of_lt_of_eq t.isLt (show cfg0.N = 32 from N_0)
  by_cases h1 : t.val = 31
  · -- the last point
    have hc0 : ¬cond0_0 (grid0.coords t) := fun h => by have := (hcond0_0 t).mp h; omega
    have hc1 : cond0_1 (grid0.coords t) := (hcond0_1 t).mpr h1
    rw [show (dat0 V c).leavesExact 1 t = owns (c : Thread nD τ) (st0_1 t) fullShare ((dat0 V c).after 1 t) from by
      unfold Dat.leavesExact; rw [liveAt0_1 t hc1], after0_1]
    rw [show (dat0 V c).leavesExact 2 t = owns (c : Thread nD τ) (st0_2 t) fullShare ((dat0 V c).after 2 t) from by
      unfold Dat.leavesExact; rw [liveAt0_2 t hc1], after0_2]
    rw [acc0_N V c t h1, acc1_N V c t h1]
    rw [Φ0_pos V c t.castSucc t.val (Fin.coe_castSucc t) (by omega)]
    iintro ⟨⟨HS0, HS1, HR⟩, Ho, ⟨%d0, H0⟩, ⟨%d1, H1⟩, ⟨%d2, H2⟩⟩
    iapply (kernel_last c Set.univ (grid0.coords t) _ _ _ _ _ _ _ _ _ _ hc0 hc1 (iblk0 V c 0 t) (acc0 V c t.val) (acc1 V c t.val) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    iexact H2
  · have hc1 : ¬cond0_1 (grid0.coords t) := fun h => h1 ((hcond0_1 t).mp h)
    rw [Dat.leavesExact_idle (dat0 V c) 1 t (idleAt0_1 t hc1) (noFlush0_1 t hc1),
      Dat.leavesExact_idle (dat0 V c) 2 t (idleAt0_2 t hc1) (noFlush0_2 t hc1)]
    by_cases h0 : t.val = 0
    · -- the first point
      have hc0 : cond0_0 (grid0.coords t) := (hcond0_0 t).mpr h0
      rw [acc0_of_zero V c t.val h0, acc1_of_zero V c t.val h0]
      rw [Φ0_zero V c t.castSucc ((Fin.coe_castSucc t).trans h0)]
      iintro ⟨⟨HS0, HS1, HR⟩, Ho, ⟨%d0, H0⟩, ⟨%d1, H1⟩, ⟨%d2, H2⟩⟩
      iapply (kernel_first c Set.univ (grid0.coords t) _ _ _ _ _ _ _ _ _ _ hc0 hc1 (iblk0 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexists _; iexact H1
      iexists _; iexact H2
    · -- a middle point
      have hc0 : ¬cond0_0 (grid0.coords t) := fun h => h0 ((hcond0_0 t).mp h)
      rw [Φ0_pos V c t.castSucc t.val (Fin.coe_castSucc t) h0]
      iintro ⟨⟨HS0, HS1, HR⟩, Ho, ⟨%d0, H0⟩, ⟨%d1, H1⟩, ⟨%d2, H2⟩⟩
      iapply (kernel_mid c Set.univ (grid0.coords t) _ _ _ _ _ _ _ _ _ _ hc0 hc1 (iblk0 V c 0 t) _ _ (acc0 V c t.val) (acc1 V c t.val) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexists _; iexact H1
      iexists _; iexact H2

/-- Entering the region: the scoped buffers that are no staging buffer of this pipeline, each at some contents,
    and the generator register give the invariant before the first point. -/
theorem Φ0_in (c : Dev nD) :
    iprop(Pipeline.scopedRest (Ix := Unit) (Name := ℕ) (U := UR sig nD τ) (Lvl := ℕ) (Val := Elt F) spec0 c ∗ ∃ r, prngReg c r)
      ⊢ ((dat0 V c).Φ 0 : sProp 𝕄) := by
  rw [scopedRest0_eq]
  dsimp only [dat0]
  have h0 : (0 : Fin (cfg0.N + 1)).val = 0 := rfl
  rw [Φ0_eq, if_pos h0, if_pos h0]
  unfold rest0
  iintro ⟨⟨A0, A1, B0, B1, B2, B3, B4, B5⟩, R⟩
  isplitl [A0]; · iexact A0
  isplitl [A1]; · iexact A1
  isplitl [B0]; · iexact B0
  isplitl [B1]; · iexact B1
  isplitl [B2]; · iexact B2
  isplitl [B3]; · iexact B3
  isplitl [B4]; · iexact B4
  isplitl [B5]; · iexact B5
  iexact R

/-- Leaving it: the invariant after the last point gives them back, the sums forgotten. -/
theorem Φ0_out (c : Dev nD) :
    ((dat0 V c).Φ (Fin.last cfg0.N) : sProp 𝕄)
      ⊢ iprop(Pipeline.scopedRest (Ix := Unit) (Name := ℕ) (U := UR sig nD τ) (Lvl := ℕ) (Val := Elt F) spec0 c ∗ ∃ r, prngReg c r) := by
  rw [scopedRest0_eq]
  dsimp only [dat0]
  rw [Φ0_pos V c (Fin.last cfg0.N) cfg0.N (Fin.val_last _) (by have : cfg0.N = 32 := N_0; omega)]
  unfold rest0
  simp only [scM0, scM1, owns_whole]
  iintro ⟨A0, A1, B0, B1, B2, B3, B4, B5, R⟩
  isplitr [R]
  · isplitl [A0]; · iexists _; iexact A0
    isplitl [A1]; · iexists _; iexact A1
    isplitl [B0]; · iexact B0
    isplitl [B1]; · iexact B1
    isplitl [B2]; · iexact B2
    isplitl [B3]; · iexact B3
    isplitl [B4]; · iexact B4
    iexact B5
  iexact R

/-- The body obligation of the library, at every point of the grid. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KNorm.lean ====
/-
  The second kernel region (the normalising kernel) at any float instance: a grid of 64 points, each fetching one
  batch entry of the input and, once, the per-channel scale and shift vectors; the body stores
  `x * scale + shift` (the two vectors broadcast along batch, height and width) into the output block, which
  is written back at every point.
-/
import proofs.«166841_j11261404250602_1_alg».proof.Proof.Gen.KernelIdeal.Launch
import proofs.«166841_j11261404250602_1_alg».proof.Proof.Gen.KernelIdeal.Skeleton
import proofs.«166841_j11261404250602_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer, from the three input blocks: its one whole store. -/
def out1_3 (x0 : Vec F S1x256x56x56 .f32) (x1 : Vec F S256 .f32) (x2 : Vec F S256 .f32) : Vec F S1x256x56x56 .f32 :=
  k1_pay1 x0 x1 x2

/-- The proof data of pipeline 1 on core `c`: the arrays as the region finds them; each input's buffer left at
    its block, the output's at the body's store; the class invariant (the other scoped buffers and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Each input's staging buffer holds its block -/

/-- The batch-entry window's current buffer holds its block at every point (it is fetched at every point). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The scale vector's buffer holds the whole vector at every point: fetched at the first, and its block index
    never moves afterwards. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The shift vector's buffer likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's triple -/

/-- The zero offsets of the body's whole-buffer accesses, at rank 4 and at rank 1. -/
theorem zeros4 : (![0, 0, 0, 0] : Fin 4 → Nat) = fun _ => 0 := funext fun a => by fin_cases a <;> rfl
theorem zeros1 : (![0] : Fin 1 → Nat) = fun _ => 0 := funext fun a => by fin_cases a <;> rfl

set_option maxHeartbeats 1000000 in
/-- The body on whole staging memrefs, the three inputs' at contents `x0`, `x1`, `x2` and the output's at
    anything, runs to the continuation holding the inputs' as they were and the output's at
    `x0 * broadcast x1 + broadcast x2`: three whole loads, one load of the output that is not used, one whole store. -/
theorem sound_kernel1 (c : Dev nD) (E : Set ℕ) (i : grid1.Coords)
    (arg1 : Memref sig .tc .vmem S1x256x56x56 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S1x256x56x56 .f32) (harg4 : arg4.IsWhole)
    (x0 : Vec F S1x256x56x56 .f32) (x1 x2 : Vec F S256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- one store through the whole buffer leaves its payload; a load through the whole buffer reads the contents
  rw [View.read_writes_eq_canon _ _ _
      (fun y => ⟨_, List.mem_singleton_self _, View.mem_set_unit_zero (S := S1x256x56x56) zeros4 inb_S1x256x56x56_S1x256x56x56_0_0_0_0 y⟩),
    View.canon_unit_zero zeros4, View.readAt_eq_ld, View.readAt_eq_ld, View.readAt_eq_ld,
    View.ld_unit_zero zeros4, View.ld_unit_zero zeros1, View.ld_unit_zero zeros1]
  rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the library, at every point of the grid. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KRun.lean ====
/-
  The whole program at any float instance: the statistics region, a stretch of one hundred host operations (cut in
  two where the printed text is cut), the normalising region.  The buffer contents at each boundary are a fold from
  the launch memory: a region leaves its windows' arrays at what its write-backs made of them and every other
  buffer as it was; a host stretch leaves each operation's result.  No operation and no region writes an
  argument, so every argument ends as launched; the two results end at the fold's values at their buffers.
-/
import proofs.«166841_j11261404250602_1_alg».proof.Proof.Gen.KernelIdeal.Launch
import proofs.«166841_j11261404250602_1_alg».proof.Proof.Gen.KernelIdeal.Skeleton
import proofs.«166841_j11261404250602_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166841_j11261404250602_1_alg».proof.Proof.KStats
import proofs.«166841_j11261404250602_1_alg».proof.Proof.KNorm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first 59 host operations, and after the remaining 41 (the second region's entry). -/
abbrev W2 : Dev nD → Valuation τ sig (Elt F) := fun c => StableHlo.after main_part0_ops0 (W1 m ρ c)
abbrev W3 : Dev nD → Valuation τ sig (Elt F) := fun c => StableHlo.after main_part1_ops0 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No host operation writes an argument -/

/-- The eight arguments. -/
def IsArg (b : Ref sig .tc) : Prop :=
  b = main_arg0 ∨ b = main_arg1 ∨ b = main_arg2 ∨ b = main_arg3 ∨ b = main_arg4 ∨ b = main_arg5 ∨ b = main_arg6 ∨ b = main_arg7
instance (b : Ref sig .tc) : Decidable (IsArg b) := by unfold IsArg; infer_instance

set_option maxHeartbeats 4000000 in
theorem part0_writes (V : Valuation τ sig (Elt F)) (b : Ref sig .tc) (hb : IsArg b) :
    StableHlo.after (main_part0_ops0 (F := F)) V (Proc.devRef .tc b) = V (Proc.devRef .tc b) := by
  refine StableHlo.after_of_forall_not_mem (b := Proc.devRef .tc b) _ _ (List.forall_iff_forall_mem.mp ?_)
  simp only [main_part0_ops0, List.Forall, StableHlo.nullary_writes, StableHlo.unary_writes, StableHlo.binary_writes,
    StableHlo.reshape_writes, Finset.mem_singleton]
  rcases hb with rfl | rfl | rfl | rfl | rfl | rfl | rfl | rfl <;>
  · repeat' apply And.intro
    all_goals exact StableHlo.devRef_ne_of_ne (by decide)

set_option maxHeartbeats 4000000 in
theorem part1_writes (V : Valuation τ sig (Elt F)) (b : Ref sig .tc) (hb : IsArg b) :
    StableHlo.after (main_part1_ops0 (F := F)) V (Proc.devRef .tc b) = V (Proc.devRef .tc b) := by
  refine StableHlo.after_of_forall_not_mem (b := Proc.devRef .tc b) _ _ (List.forall_iff_forall_mem.mp ?_)
  simp only [main_part1_ops0, List.Forall, StableHlo.nullary_writes, StableHlo.unary_writes, StableHlo.binary_writes,
    StableHlo.reshape_writes, Finset.mem_singleton]
  rcases hb with rfl | rfl | rfl | rfl | rfl | rfl | rfl | rfl <;>
  · repeat' apply And.intro
    all_goals exact StableHlo.devRef_ne_of_ne (by decide)

theorem W2_of_arg (c : Dev nD) (b : Ref sig .tc) (hb : IsArg b) :
    W2 m ρ c (Proc.devRef .tc b) = W1 m ρ c (Proc.devRef .tc b) := part0_writes _ b hb
theorem W3_of_arg (c : Dev nD) (b : Ref sig .tc) (hb : IsArg b) :
    W3 m ρ c (Proc.devRef .tc b) = W2 m ρ c (Proc.devRef .tc b) := part1_writes _ b hb

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of_arg m ρ c main_arg0 (by decide)
    _ = W1 m ρ c (Proc.devRef .tc main_arg0) := W2_of_arg m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_arg m ρ c main_arg1 (by decide)
    _ = W1 m ρ c (Proc.devRef .tc main_arg1) := W2_of_arg m ρ c main_arg1 (by decide)
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_arg m ρ c main_arg2 (by decide)
    _ = W1 m ρ c (Proc.devRef .tc main_arg2) := W2_of_arg m ρ c main_arg2 (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_arg m ρ c main_arg3 (by decide)
    _ = W1 m ρ c (Proc.devRef .tc main_arg3) := W2_of_arg m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_arg m ρ c main_arg4 (by decide)
    _ = W1 m ρ c (Proc.devRef .tc main_arg4) := W2_of_arg m ρ c main_arg4 (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_arg m ρ c main_arg5 (by decide)
    _ = W1 m ρ c (Proc.devRef .tc main_arg5) := W2_of_arg m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_arg m ρ c main_arg6 (by decide)
    _ = W1 m ρ c (Proc.devRef .tc main_arg6) := W2_of_arg m ρ c main_arg6 (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_arg m ρ c main_arg7 (by decide)
    _ = W1 m ρ c (Proc.devRef .tc main_arg7) := W2_of_arg m ρ c main_arg7 (by decide)
    _ = W0 m ρ c (Proc.devRef .tc main_arg7) := W1_of_ne m ρ c main_arg7 (by decide)
    _ = m ((c : Thread nD τ).loc main_arg7) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The statistics region: entered from every unscoped buffer at the launch contents, left at `W1`; the generator
    register and the scoped rest go into the region's invariant (the scratch vectors at anything) and come back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    iintro ⟨Hp, -, Hr⟩
    iapply (Φ0_in (V0 m ρ) c)
    isplitl [Hr]; · iexact Hr
    iexact Hp
  hout c := by
    rw [Pipeline.ownSems0_none, show (pdats m ρ 0 c).Φ (Fin.last _) = (dat0 (V0 m ρ) c).Φ (Fin.last cfg0.N) from rfl]
    iintro H
    ihave H2 := (Φ0_out (V0 m ρ) c) $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg main_part0_ops0 main_part0_ops0_sub part0_fresh (W1 m ρ)),
    .host (hseg main_part1_ops0 main_part1_ops0_sub part1_fresh (W2 m ρ)),
    .region (reg1 m ρ) ]

theorem main_run (c : Dev nD) : main (F := F) c = Pipeline.Seg.run (segs m ρ) :=
  (main_chain_windows c).trans (by chain_rfl)

set_option backward.isDefEq.respectTransparency.types false in
/-- Every weakly fair execution from a memory with zero counters terminates, nothing faulting, and every final state
    has the two results at the fold's values at their buffers and the eight arguments as launched. -/
theorem run_main : θ_run defs (onTc (τ := τ) (main (F := F))) ⟨m, fun _ => 0, ρ⟩ (fun r => ∀ c : Dev nD,
      r.2.mem ((c.tc : Thread nD τ).loc main_v76) = W4 m ρ c (Proc.devRef .tc main_v76)
      ∧ r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v76 (by decide)),
       h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.KStatsValue.lean ====
/-
  What the statistics region leaves in its two output arrays, at the extended reals: the per-channel running sums
  after all 32 points are the sums over the whole batch, height and width (each point adds its block of two
  batch entries, reduced along width, then height, then batch), so the mean array holds `sum / N` and the
  variance array `sumsq / N - mean * mean`, channel by channel.

  The steps: (1) each output window is written back at the last point only, and that point's block is the whole
  vector, so the array after the region is the last point's payload of the completed sums; (2) one reduction
  along one axis is a plain sum over that axis's coordinate, so a point's update at a channel adds the block's
  sum over its two batch entries, all heights and widths; (3) a block's coordinate is its index times its size
  plus the coordinate inside it, so block `t` holds batch entries `2t` and `2t + 1`; (4) by induction on the
  points the running sum after `n` points is the sum of the first `2n` batch planes, taken pair by pair, and
  32 pairs are the 64 planes (addition of extended reals is commutative and associative: no finiteness needed);
  (5) the two final payloads divide by the literal `N` and subtract the squared mean.
-/
import proofs.«166841_j11261404250602_1_alg».proof.Proof.KStats
import proofs.«166841_j11261404250602_1_alg».proof.Proof.BNSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The last point of the grid. -/
abbrev tLast : Fin cfg0.N := ⟨31, by rw [show cfg0.N = 32 from N_0]; decide⟩

/-- What the last point writes back into the mean array is the whole vector. -/
theorem flushed1_eq (c : Dev nD) (t : Fin cfg0.N) (hf : (cfg0.win 1).flush t = true) :
    (dat0 (F := Ideal) V c).flushed 1 t
      = ((cfg0.win 1).blk t).view.read (Elt Ideal) (k0_pay5 (acc0 V c cfg0.N)) := by
  have hN : cfg0.N = 32 := N_0
  have h31 : t.val = 31 := by have := (flush0_1 t).mp hf; have := t.isLt; omega
  obtain rfl : t = tLast := Fin.ext h31
  show (cfg0.win 1).cut (grid0.coords tLast) ((dat0 (F := Ideal) V c).after 1 tLast) = _
  rw [after0_1]
  have hz' : (fun a => win0_1.index tLast a * main_v0_0.ty.shape.size a) = fun _ => 0 :=
    funext fun a => by fin_cases a; decide +kernel
  exact (Memref.read_access_unit_zero (Elt Ideal) main_v0_0 hz' (fun a => by rw [congrFun hz' a]; simp)
    (k0_pay5 (acc0 V c cfg0.N))).symm

/-- Likewise the variance array. -/
theorem flushed2_eq (c : Dev nD) (t : Fin cfg0.N) (hf : (cfg0.win 2).flush t = true) :
    (dat0 (F := Ideal) V c).flushed 2 t
      = ((cfg0.win 2).blk t).view.read (Elt Ideal) (k0_pay6 (acc0 V c cfg0.N) (acc1 V c cfg0.N)) := by
  have hN : cfg0.N = 32 := N_0
  have h31 : t.val = 31 := by have := (flush0_2 t).mp hf; have := t.isLt; omega
  obtain rfl : t = tLast := Fin.ext h31
  show (cfg0.win 2).cut (grid0.coords tLast) ((dat0 (F := Ideal) V c).after 2 tLast) = _
  rw [after0_2]
  have hz' : (fun a => win0_2.index tLast a * main_v0_1.ty.shape.size a) = fun _ => 0 :=
    funext fun a => by fin_cases a; decide +kernel
  exact (Memref.read_access_unit_zero (Elt Ideal) main_v0_1 hz' (fun a => by rw [congrFun hz' a]; simp)
    (k0_pay6 (acc0 V c cfg0.N) (acc1 V c cfg0.N))).symm

/-- The mean array after the region is the last point's vector: its one block is the whole array. -/
theorem arr1_eq (c : Dev nD) :
    (dat0 (F := Ideal) V c).arrAt 1 cfg0.N = k0_pay5 (acc0 V c cfg0.N) :=
  (dat0 (F := Ideal) V c).arrAt_eq_of_cover 1 (k0_pay5 (acc0 V c cfg0.N)) (flushed1_eq V c) fun i =>
    ⟨tLast, (flush0_1 tLast).mpr rfl, by
      show i ∈ ((View.whole main_v0_0).slice (win0_1.rect tLast)).set
      rw [View.set_slice_whole, Rect.mem_set_unit]
      intro a
      have h0 : (i 0 : Nat) < 256 := (i 0).isLt
      match a with
      | ⟨0, _⟩ =>
        show win0_1.index tLast 0 * win0_1.size 0 ≤ (i 0 : Nat)
          ∧ (i 0 : Nat) < win0_1.index tLast 0 * win0_1.size 0 + win0_1.xsize (grid0.coords tLast) 0
        rw [show win0_1.index tLast 0 * win0_1.size 0 = 0 from by decide +kernel,
          show win0_1.xsize (grid0.coords tLast) 0 = 256 from by decide +kernel]; omega⟩

/-- Likewise the variance array. -/
theorem arr2_eq (c : Dev nD) :
    (dat0 (F := Ideal) V c).arrAt 2 cfg0.N = k0_pay6 (acc0 V c cfg0.N) (acc1 V c cfg0.N) :=
  (dat0 (F := Ideal) V c).arrAt_eq_of_cover 2 (k0_pay6 (acc0 V c cfg0.N) (acc1 V c cfg0.N)) (flushed2_eq V c) fun i =>
    ⟨tLast, (flush0_2 tLast).mpr rfl, by
      show i ∈ ((View.whole main_v0_1).slice (win0_2.rect tLast)).set
      rw [View.set_slice_whole, Rect.mem_set_unit]
      intro a
      have h0 : (i 0 : Nat) < 256 := (i 0).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 256 from by decide +kernel]; omega⟩

/-- The mean payload at a channel: the sum divided by the count. -/
theorem pay5_apply (s : FVec Ideal S256 .f32) (i : S256.Idx) :
    k0_pay5 (F := Ideal) s i = Ideal.div (s i) BNSpec.cN := by
  unfold k0_pay5 BNSpec.cN
  simp only [divf_apply, broadcast_apply]
  rfl

/-- The variance payload at a channel. -/
theorem pay6_apply (s0 s1 : FVec Ideal S256 .f32) (i : S256.Idx) :
    k0_pay6 (F := Ideal) s0 s1 i
      = Ideal.div (s1 i) BNSpec.cN - Ideal.div (s0 i) BNSpec.cN * Ideal.div (s0 i) BNSpec.cN := by
  unfold k0_pay6
  simp only [subf_apply, mulf_apply, divf_apply, broadcast_apply, pay5_apply]
  rfl

/-- The reduction along width, at (batch, channel, height): the sum over the width coordinate. -/
theorem red_width (x : FVec Ideal S2x256x56x56 .f32) (h : S2x256x56x56.Reduces [3] S2x256x56)
    (hφ : FKind.Formats .f32) (hacc : (0x00000000#32 : BitVec 32) = 0x00000000#32)
    (b : Fin 2) (ch : Fin 256) (hh : Fin 56) :
    multiReduction (F := Ideal) .add [3] S2x256x56 x 0x00000000#32 h hφ hacc (ix3 b ch hh)
      = ∑ w : Fin 56, x (ix4 b ch hh w) := by
  refine (Ideal.multiReduction_add_single x 0x00000000#32 h hφ hacc (ix3 b ch hh)).trans ?_
  refine Finset.sum_congr rfl fun w _ => congrArg x ?_
  funext a
  match a with
  | ⟨0, _⟩ => exact Fin.ext rfl
  | ⟨1, _⟩ => exact Fin.ext rfl
  | ⟨2, _⟩ => exact Fin.ext rfl
  | ⟨3, _⟩ => exact Fin.ext rfl

/-- The reduction along height, at (batch, channel): the sum over the height coordinate. -/
theorem red_height (y : FVec Ideal S2x256x56 .f32) (h : S2x256x56.Reduces [2] S2x256)
    (hφ : FKind.Formats .f32) (hacc : (0x00000000#32 : BitVec 32) = 0x00000000#32)
    (b : Fin 2) (ch : Fin 256) :
    multiReduction (F := Ideal) .add [2] S2x256 y 0x00000000#32 h hφ hacc (ix2 b ch)
      = ∑ hh : Fin 56, y (ix3 b ch hh) := by
  refine (Ideal.multiReduction_add_single y 0x00000000#32 h hφ hacc (ix2 b ch)).trans ?_
  refine Finset.sum_congr rfl fun hh _ => congrArg y ?_
  funext a
  match a with
  | ⟨0, _⟩ => exact Fin.ext rfl
  | ⟨1, _⟩ => exact Fin.ext rfl
  | ⟨2, _⟩ => exact Fin.ext rfl

/-- The reduction along batch, at a channel: the sum over the block's two batch entries. -/
theorem red_batch (z : FVec Ideal S2x256 .f32) (h : S2x256.Reduces [0] S256)
    (hφ : FKind.Formats .f32) (hacc : (0x00000000#32 : BitVec 32) = 0x00000000#32) (ch : Fin 256) :
    multiReduction (F := Ideal) .add [0] S256 z 0x00000000#32 h hφ hacc (ix1 ch)
      = ∑ b : Fin 2, z (ix2 b ch) := by
  refine (Ideal.multiReduction_add_single z 0x00000000#32 h hφ hacc (ix1 ch)).trans ?_
  refine Finset.sum_congr rfl fun b _ => congrArg z ?_
  funext a
  match a with
  | ⟨0, _⟩ => exact Fin.ext rfl
  | ⟨1, _⟩ => exact Fin.ext rfl

/-- One point's update of the running sum, at a channel: the block's sum over its two batch entries, all
    heights and all widths is added. -/
theorem pay3_apply (x : FVec Ideal S2x256x56x56 .f32) (s : FVec Ideal S256 .f32) (ch : Fin 256) :
    k0_pay3 (F := Ideal) x s (ix1 ch)
      = s (ix1 ch) + ∑ b : Fin 2, ∑ hh : Fin 56, ∑ w : Fin 56, x (ix4 b ch hh w) := by
  unfold k0_pay3
  simp only [shapeCast_self, addf_apply]
  refine congrArg (s (ix1 ch) + ·) ?_
  refine (red_batch _ _ _ _ ch).trans ?_
  refine Finset.sum_congr rfl fun b _ => ?_
  refine (red_height _ _ _ _ b ch).trans ?_
  exact Finset.sum_congr rfl fun hh _ => red_width x _ _ _ b ch hh

/-- One point's update of the running sum of squares, at a channel. -/
theorem pay4_apply (x : FVec Ideal S2x256x56x56 .f32) (s : FVec Ideal S256 .f32) (ch : Fin 256) :
    k0_pay4 (F := Ideal) x s (ix1 ch)
      = s (ix1 ch) + ∑ b : Fin 2, ∑ hh : Fin 56, ∑ w : Fin 56, x (ix4 b ch hh w) * x (ix4 b ch hh w) := by
  unfold k0_pay4
  simp only [shapeCast_self, addf_apply]
  refine congrArg (s (ix1 ch) + ·) ?_
  refine (red_batch _ _ _ _ ch).trans ?_
  refine Finset.sum_congr rfl fun b _ => ?_
  refine (red_height _ _ _ _ b ch).trans ?_
  refine Finset.sum_congr rfl fun hh _ => ?_
  refine (red_width (mulf x x) _ _ _ b ch hh).trans ?_
  exact Finset.sum_congr rfl fun w _ => mulf_apply x x _

/-- The reset vector is zero at every channel. -/
theorem pay1_apply (i : S256.Idx) : k0_pay1 (F := Ideal) i = 0 := by
  unfold k0_pay1
  simp only [shapeCast_self, broadcast_apply]
  exact Ideal.ofBits_zero_f32

theorem pay2_apply (i : S256.Idx) : k0_pay2 (F := Ideal) i = 0 := by
  unfold k0_pay2
  simp only [shapeCast_self, broadcast_apply]
  exact Ideal.ofBits_zero_f32

/-- The input window's block index at a point: the point itself along batch, zero along the other axes. -/
theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- The block a point reads: batch entries `2t` and `2t + 1` of the input, every channel, height and width. -/
theorem iblk0_apply (c : Dev nD) (t : Fin cfg0.N) (b : Fin 2) (ch : Fin 256) (hh w : Fin 56)
    (k : Fin 64) (hk : k.val = 2 * t.val + b.val) :
    iblk0 (F := Ideal) V c 0 t (ix4 b ch hh w) = V c main_arg0 (ix4 k ch hh w) := by
  obtain ⟨e0, e1, e2, e3⟩ := idx_facts0 t
  unfold iblk0
  rw [View.read_apply]
  show V c main_arg0 _ = V c main_arg0 _
  congr 1
  funext a
  apply Fin.ext
  match a with
  | ⟨0, _⟩ => show win0_0.index t (0 : Fin 4) * 2 + 1 * b.val = k.val; rw [e0, hk]; omega
  | ⟨1, _⟩ => show win0_0.index t (1 : Fin 4) * 256 + 1 * ch.val = ch.val; rw [e1]; omega
  | ⟨2, _⟩ => show win0_0.index t (2 : Fin 4) * 56 + 1 * hh.val = hh.val; rw [e2]; omega
  | ⟨3, _⟩ => show win0_0.index t (3 : Fin 4) * 56 + 1 * w.val = w.val; rw [e3]; omega

/-- A function of the 64 batch entries, extended by zero to every natural number. -/
def ext64 (g : Fin 64 → EReal) (k : Nat) : EReal := if h : k < 64 then g ⟨k, h⟩ else 0

theorem ext64_of_lt (g : Fin 64 → EReal) (k : Nat) (h : k < 64) : ext64 g k = g ⟨k, h⟩ := dif_pos h

/-- Summing consecutive pairs over the first `n` pairs is summing over the first `2n` entries. -/
theorem sum_pairs (f : Nat → EReal) :
    ∀ n : Nat, ∑ t ∈ Finset.range n, (f (2 * t) + f (2 * t + 1)) = ∑ k ∈ Finset.range (2 * n), f k
  | 0 => by simp
  | n + 1 => by
    rw [Finset.sum_range_succ, sum_pairs f n, show 2 * (n + 1) = 2 * n + 1 + 1 from by ring,
      Finset.sum_range_succ, Finset.sum_range_succ, add_assoc]

/-- Over all 64 entries the zero extension is never met. -/
theorem sum_ext64 (g : Fin 64 → EReal) : ∑ k ∈ Finset.range 64, ext64 g k = ∑ k : Fin 64, g k := by
  rw [Finset.sum_range]
  exact Finset.sum_congr rfl fun k _ => ext64_of_lt g k.val k.isLt

/-- So the 32 pairs make up the whole sum over the batch. -/
theorem sum_pairs_all (g : Fin 64 → EReal) :
    ∑ t ∈ Finset.range 32, (ext64 g (2 * t) + ext64 g (2 * t + 1)) = ∑ k : Fin 64, g k :=
  (sum_pairs (ext64 g) 32).trans (sum_ext64 g)

/-- The sum over height and width of batch entry `k` of channel `ch`. -/
def planeSum (x : BNSpec.I4 → EReal) (ch : Fin 256) (k : Fin 64) : EReal :=
  ∑ hh : Fin 56, ∑ w : Fin 56, x (ix4 k ch hh w)

/-- The same of the squares. -/
def planeSumSq (x : BNSpec.I4 → EReal) (ch : Fin 256) (k : Fin 64) : EReal :=
  ∑ hh : Fin 56, ∑ w : Fin 56, x (ix4 k ch hh w) * x (ix4 k ch hh w)

/-- The block point `t` reads, as a vector of extended reals. -/
abbrev blk0 (c : Dev nD) (t : Fin cfg0.N) : FVec Ideal S2x256x56x56 .f32 := iblk0 (F := Ideal) V c 0 t

/-- One plane of a point's block is a plane of the input: entry `b` of block `t` is batch entry `2t + b`. -/
theorem plane_blk (c : Dev nD) (t : Fin cfg0.N) (b : Fin 2) (ch : Fin 256) (k : Fin 64)
    (hk : k.val = 2 * t.val + b.val) :
    ∑ hh : Fin 56, ∑ w : Fin 56, blk0 V c t (ix4 b ch hh w) = planeSum (V c main_arg0) ch k :=
  Finset.sum_congr rfl fun hh _ => Finset.sum_congr rfl fun w _ => iblk0_apply V c t b ch hh w k hk

theorem planeSq_blk (c : Dev nD) (t : Fin cfg0.N) (b : Fin 2) (ch : Fin 256) (k : Fin 64)
    (hk : k.val = 2 * t.val + b.val) :
    ∑ hh : Fin 56, ∑ w : Fin 56, blk0 V c t (ix4 b ch hh w) * blk0 V c t (ix4 b ch hh w)
      = planeSumSq (V c main_arg0) ch k :=
  Finset.sum_congr rfl fun hh _ => Finset.sum_congr rfl fun w _ =>
    congrArg (fun v : EReal => v * v) (iblk0_apply V c t b ch hh w k hk)

/-- One point's block, summed at a channel: the plane sums of batch entries `2t` and `2t + 1`. -/
theorem blk_sum (c : Dev nD) (t : Fin cfg0.N) (ch : Fin 256) :
    ∑ b : Fin 2, ∑ hh : Fin 56, ∑ w : Fin 56, blk0 V c t (ix4 b ch hh w)
      = ext64 (planeSum (V c main_arg0) ch) (2 * t.val) + ext64 (planeSum (V c main_arg0) ch) (2 * t.val + 1) := by
  have hN : cfg0.N = 32 := N_0
  have ht := t.isLt
  have h0 : 2 * t.val < 64 := by omega
  have h1 : 2 * t.val + 1 < 64 := by omega
  rw [ext64_of_lt _ _ h0, ext64_of_lt _ _ h1]
  refine (Fin.sum_univ_two _).trans ?_
  exact congrArg₂ (· + ·) (plane_blk V c t 0 ch ⟨2 * t.val, h0⟩ rfl) (plane_blk V c t 1 ch ⟨2 * t.val + 1, h1⟩ rfl)

/-- Likewise the squares. -/
theorem blk_sumSq (c : Dev nD) (t : Fin cfg0.N) (ch : Fin 256) :
    ∑ b : Fin 2, ∑ hh : Fin 56, ∑ w : Fin 56, blk0 V c t (ix4 b ch hh w) * blk0 V c t (ix4 b ch hh w)
      = ext64 (planeSumSq (V c main_arg0) ch) (2 * t.val) + ext64 (planeSumSq (V c main_arg0) ch) (2 * t.val + 1) := by
  have hN : cfg0.N = 32 := N_0
  have ht := t.isLt
  have h0 : 2 * t.val < 64 := by omega
  have h1 : 2 * t.val + 1 < 64 := by omega
  rw [ext64_of_lt _ _ h0, ext64_of_lt _ _ h1]
  refine (Fin.sum_univ_two _).trans ?_
  exact congrArg₂ (· + ·) (planeSq_blk V c t 0 ch ⟨2 * t.val, h0⟩ rfl) (planeSq_blk V c t 1 ch ⟨2 * t.val + 1, h1⟩ rfl)

/-- The running sum after `n` points, at a channel: the plane sums of the first `2n` batch entries, pair by pair. -/
theorem acc0_closed (c : Dev nD) (ch : Fin 256) : ∀ n : Nat, n ≤ cfg0.N →
    acc0 (F := Ideal) V c n (ix1 ch)
      = ∑ t ∈ Finset.range n, (ext64 (planeSum (V c main_arg0) ch) (2 * t) + ext64 (planeSum (V c main_arg0) ch) (2 * t + 1))
  | 0, _ => by
    rw [acc0_of_zero V c 0 rfl, Finset.sum_range_zero]; exact pay1_apply _
  | n + 1, h => by
    have hn : n < cfg0.N := h
    refine (congrFun (acc0_succ V c ⟨n, hn⟩) (ix1 ch)).trans ?_
    refine (pay3_apply (blk0 V c ⟨n, hn⟩) (acc0 V c n) ch).trans ?_
    rw [Finset.sum_range_succ, ← acc0_closed c ch n (Nat.le_of_lt hn)]
    exact congrArg (acc0 (F := Ideal) V c n (ix1 ch) + ·) (blk_sum V c ⟨n, hn⟩ ch)

/-- The running sum of squares likewise. -/
theorem acc1_closed (c : Dev nD) (ch : Fin 256) : ∀ n : Nat, n ≤ cfg0.N →
    acc1 (F := Ideal) V c n (ix1 ch)
      = ∑ t ∈ Finset.range n, (ext64 (planeSumSq (V c main_arg0) ch) (2 * t) + ext64 (planeSumSq (V c main_arg0) ch) (2 * t + 1))
  | 0, _ => by
    rw [acc1_of_zero V c 0 rfl, Finset.sum_range_zero]; exact pay2_apply _
  | n + 1, h => by
    have hn : n < cfg0.N := h
    refine (congrFun (acc1_succ V c ⟨n, hn⟩) (ix1 ch)).trans ?_
    refine (pay4_apply (blk0 V c ⟨n, hn⟩) (acc1 V c n) ch).trans ?_
    rw [Finset.sum_range_succ, ← acc1_closed c ch n (Nat.le_of_lt hn)]
    exact congrArg (acc1 (F := Ideal) V c n (ix1 ch) + ·) (blk_sumSq V c ⟨n, hn⟩ ch)

/-- After all 32 points the running sum is the channel's sum over the whole batch, height and width. -/
theorem acc0_total (c : Dev nD) (ch : Fin 256) :
    acc0 (F := Ideal) V c cfg0.N (ix1 ch) = BNSpec.chSum (V c main_arg0) ch := by
  have hN : cfg0.N = 32 := N_0
  have e : acc0 (F := Ideal) V c cfg0.N (ix1 ch) = acc0 (F := Ideal) V c 32 (ix1 ch) :=
    congrArg (fun n => acc0 (F := Ideal) V c n (ix1 ch)) hN
  rw [e, acc0_closed V c ch 32 (le_of_eq hN.symm)]
  exact sum_pairs_all (planeSum (V c main_arg0) ch)

/-- And the running sum of squares the channel's sum of squares. -/
theorem acc1_total (c : Dev nD) (ch : Fin 256) :
    acc1 (F := Ideal) V c cfg0.N (ix1 ch) = BNSpec.chSumSq (V c main_arg0) ch := by
  have hN : cfg0.N = 32 := N_0
  have e : acc1 (F := Ideal) V c cfg0.N (ix1 ch) = acc1 (F := Ideal) V c 32 (ix1 ch) :=
    congrArg (fun n => acc1 (F := Ideal) V c n (ix1 ch)) hN
  rw [e, acc1_closed V c ch 32 (le_of_eq hN.symm)]
  exact sum_pairs_all (planeSumSq (V c main_arg0) ch)

/-- The mean array after the region: channel `c`'s sum over batch, height and width, divided by `N`. -/
theorem final0_1 (c : Dev nD) :
    (dat0 (F := Ideal) V c).arrAt 1 cfg0.N = fun i => BNSpec.mean (V c main_arg0) (i 0) := by
  rw [arr1_eq]
  funext i
  refine (pay5_apply _ i).trans ?_
  unfold BNSpec.mean
  refine congrArg (fun s : EReal => Ideal.div s BNSpec.cN) ?_
  exact (congrArg (acc0 (F := Ideal) V c cfg0.N) (eq_ix1 (n := 256) i)).trans (acc0_total V c (i 0))

/-- The variance array after the region: mean of squares minus squared mean. -/
theorem final0_2 (c : Dev nD) :
    (dat0 (F := Ideal) V c).arrAt 2 cfg0.N = fun i => BNSpec.varK (V c main_arg0) (i 0) := by
  rw [arr2_eq]
  funext i
  refine (pay6_apply _ _ i).trans ?_
  unfold BNSpec.varK BNSpec.mean
  have e0 : acc0 (F := Ideal) V c cfg0.N i = BNSpec.chSum (V c main_arg0) (i 0) :=
    (congrArg (acc0 (F := Ideal) V c cfg0.N) (eq_ix1 (n := 256) i)).trans (acc0_total V c (i 0))
  have e1 : acc1 (F := Ideal) V c cfg0.N i = BNSpec.chSumSq (V c main_arg0) (i 0) :=
    (congrArg (acc1 (F := Ideal) V c cfg0.N) (eq_ix1 (n := 256) i)).trans (acc1_total V c (i 0))
  rw [e0, e1]

end Cert.KernelIdeal.Hand

end
-- ==== Proof.KNormValue.lean ====
/-
  What the second kernel region leaves in its output array, at the extended reals: every block is one batch entry,
  the blocks tile the array, and each element is `x * scale[channel] + shift[channel]`.
-/
import proofs.«166841_j11261404250602_1_alg».proof.Proof.KNorm
import proofs.«166841_j11261404250602_1_alg».proof.Proof.BNTail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's payload at an index -/

/-- At batch `n`, channel `ch`, row `h`, column `w` the body's value is the input element times the scale of
    the channel plus the shift of the channel: the two vectors are recast to 1 x 256 x 1 x 1 (same row-major
    position) and broadcast along batch, height and width. -/
theorem normPay_apply (x0 : Vec Ideal S1x256x56x56 .f32) (x1 x2 : Vec Ideal S256 .f32)
    (n : Fin 1) (ch : Fin 256) (h w : Fin 56) :
    k1_pay1 x0 x1 x2 (ix4 n ch h w) = x0 (ix4 n ch h w) * x1 (ix1 ch) + x2 (ix1 ch) := by
  have hcast : ∀ x : Vec Ideal S256 .f32,
      shapeCast S1x256x1x1 x shapeCasts_S256_S1x256x1x1 (ix4 (0 : Fin 1) ch (0 : Fin 1) (0 : Fin 1)) = x (ix1 ch) := fun x =>
    shapeCast_apply x shapeCasts_S256_S1x256x1x1 _ (ix1 ch) (by
      rw [Shape.rowMajor_val_one, Shape.rowMajor_val_four]
      show ch.val = ((0 * 256 + ch.val) * 1 + 0) * 1 + 0
      omega)
  have hbc : ∀ y : Vec Ideal S1x256x1x1 .f32,
      broadcastTo S1x256x56x56 y broadcasts_S1x256x1x1_S1x256x56x56 (ix4 n ch h w) = y (ix4 (0 : Fin 1) ch (0 : Fin 1) (0 : Fin 1)) := fun y =>
    broadcastTo_apply y broadcasts_S1x256x1x1_S1x256x56x56 _ _ (fun a => match a with
      | ⟨0, _⟩ => rfl | ⟨1, _⟩ => rfl | ⟨2, _⟩ => rfl | ⟨3, _⟩ => rfl)
  unfold k1_pay1
  simp only [shapeCast_self]
  rw [addf_apply, mulf_apply, hbc, hbc, hcast, hcast]

/-! ## The index maps over the grid -/

/-- Decided over the 64 points: the input's and the output's block at point `t` is batch entry `t` (block
    index `t` along the batch axis, `0` along channel, height and width), and the two vectors' one block is
    block `0`. -/
theorem idx_facts1 : ∀ t : Fin cfg1.N,
    win1_0.index t (0 : Fin 4) = t.val ∧ win1_0.index t (1 : Fin 4) = 0
    ∧ win1_0.index t (2 : Fin 4) = 0 ∧ win1_0.index t (3 : Fin 4) = 0
    ∧ win1_3.index t (0 : Fin 4) = t.val ∧ win1_3.index t (1 : Fin 4) = 0
    ∧ win1_3.index t (2 : Fin 4) = 0 ∧ win1_3.index t (3 : Fin 4) = 0
    ∧ win1_1.index t (0 : Fin 1) = 0 ∧ win1_2.index t (0 : Fin 1) = 0 :=
  (by decide +kernel : ∀ t : Fin grid1.N, _)

variable (V : (c : Dev nD) → (b : Ref sig .tc) → Buf (Elt Ideal) ((c : Thread nD τ).loc b))

/-! ## What a point writes back -/

/-- Point `t` writes back block `t` of `x * scale[channel] + shift[channel]`: the body's payload at an index
    of the block, the input block's element being the array's at batch entry `t` and the two vectors' blocks
    the whole vectors. -/
theorem flushed1_3_eq (c : Dev nD) (t : Fin cfg1.N) :
    (dat1 (F := Ideal) V c).flushed 3 t = ((cfg1.win 3).blk t).view.read (Elt Ideal)
      (BNSpec.outK (V c main_arg0) (BNTail.fn (V c main_v73)) (BNTail.fn (V c main_v75))) := by
  show (cfg1.win 3).cut (grid1.coords t) ((dat1 V c).after 3 t) = _
  rw [after1_3]
  unfold out1_3
  obtain ⟨a0, a1, a2, a3, b0, b1, b2, b3, s0, r0⟩ := idx_facts1 t
  funext j
  have ej : (j : S1x256x56x56.Idx) = ix4 (j 0) (j 1) (j 2) (j 3) :=
    eq_ix4 (n0 := 1) (n1 := 256) (n2 := 56) (n3 := 56) j
  have hp := normPay_apply (iblk1 V c 0 t) (iblk1 V c 1 t) (iblk1 V c 2 t) (j 0) (j 1) (j 2) (j 3)
  have hj : (cfg1.win 3).cut (grid1.coords t) (k1_pay1 (iblk1 V c 0 t) (iblk1 V c 1 t) (iblk1 V c 2 t)) j
      = k1_pay1 (iblk1 V c 0 t) (iblk1 V c 1 t) (iblk1 V c 2 t) (ix4 (j 0) (j 1) (j 2) (j 3)) :=
    congrArg (k1_pay1 (iblk1 V c 0 t) (iblk1 V c 1 t) (iblk1 V c 2 t)) ej
  refine hj.trans (hp.trans ?_)
  -- the input block's element is the array's at batch entry `t`, same channel, row and column
  have k0 : ((cfg1.win 0).blk t).view.emb (ix4 (j 0) (j 1) (j 2) (j 3)) = ((cfg1.win 3).blk t).view.emb j := by
    funext a; apply Fin.ext
    match a with
    | ⟨0, _⟩ => show win1_0.index t (0 : Fin 4) * 1 + 1 * (j 0).val = win1_3.index t (0 : Fin 4) * 1 + 1 * (j 0).val; omega
    | ⟨1, _⟩ => show win1_0.index t (1 : Fin 4) * 256 + 1 * (j 1).val = win1_3.index t (1 : Fin 4) * 256 + 1 * (j 1).val; omega
    | ⟨2, _⟩ => show win1_0.index t (2 : Fin 4) * 56 + 1 * (j 2).val = win1_3.index t (2 : Fin 4) * 56 + 1 * (j 2).val; omega
    | ⟨3, _⟩ => show win1_0.index t (3 : Fin 4) * 56 + 1 * (j 3).val = win1_3.index t (3 : Fin 4) * 56 + 1 * (j 3).val; omega
  -- each vector's one block is the whole vector: its element at the channel is the vector's
  have k1 : ((cfg1.win 1).blk t).view.emb (ix1 (j 1)) = ix1 (BNSpec.ch (((cfg1.win 3).blk t).view.emb j)) := by
    funext a; apply Fin.ext
    match a with
    | ⟨0, _⟩ => show win1_1.index t (0 : Fin 1) * 256 + 1 * (j 1).val = win1_3.index t (1 : Fin 4) * 256 + 1 * (j 1).val; omega
  have k2 : ((cfg1.win 2).blk t).view.emb (ix1 (j 1)) = ix1 (BNSpec.ch (((cfg1.win 3).blk t).view.emb j)) := by
    funext a; apply Fin.ext
    match a with
    | ⟨0, _⟩ => show win1_2.index t (0 : Fin 1) * 256 + 1 * (j 1).val = win1_3.index t (1 : Fin 4) * 256 + 1 * (j 1).val; omega
  have e0 : iblk1 V c 0 t (ix4 (j 0) (j 1) (j 2) (j 3)) = V c main_arg0 (((cfg1.win 3).blk t).view.emb j) :=
    congrArg (V c main_arg0) k0
  have e1 : iblk1 V c 1 t (ix1 (j 1)) = V c main_v73 (ix1 (BNSpec.ch (((cfg1.win 3).blk t).view.emb j))) :=
    congrArg (V c main_v73) k1
  have e2 : iblk1 V c 2 t (ix1 (j 1)) = V c main_v75 (ix1 (BNSpec.ch (((cfg1.win 3).blk t).view.emb j))) :=
    congrArg (V c main_v75) k2
  rw [e0, e1, e2]
  rfl

/-! ## The blocks tile the array -/

/-- An index of the array is in point `t`'s block iff each coordinate is in the block's range on its axis. -/
theorem mem_blk1_3 (t : Fin cfg1.N) (i : S64x256x56x56.Idx) :
    i ∈ ((cfg1.win 3).blk t).view.set ↔ ∀ a : Fin 4, win1_3.index t a * S1x256x56x56.size a ≤ (i a).val
      ∧ (i a).val < win1_3.index t a * S1x256x56x56.size a + S1x256x56x56.size a := by
  show i ∈ ((View.whole main_v76).slice (win1_3.rect t)).set ↔ _
  rw [View.set_slice_whole, Rect.mem_set_unit]
  exact Iff.rfl

/-- Every index is in the block of the point that is its batch entry. -/
theorem covered1_3 (i : S64x256x56x56.Idx) :
    ∃ t : Fin cfg1.N, (cfg1.win 3).flush t = true ∧ i ∈ ((cfg1.win 3).blk t).view.set := by
  have h0 : (i 0).val < 64 := (i 0).isLt
  have h1 : (i 1).val < 256 := (i 1).isLt
  have h2 : (i 2).val < 56 := (i 2).isLt
  have h3 : (i 3).val < 56 := (i 3).isLt
  obtain ⟨t, ht⟩ : ∃ t : Fin cfg1.N, t.val = (i 0).val :=
    ⟨⟨(i 0).val, by rw [show cfg1.N = 64 from N_1]; exact h0⟩, rfl⟩
  refine ⟨t, flush1_3 t, ?_⟩
  rw [mem_blk1_3]
  obtain ⟨-, -, -, -, b0, b1, b2, b3, -, -⟩ := idx_facts1 t
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 256 ≤ (i 1).val ∧ (i 1).val < win1_3.index t (1 : Fin 4) * 256 + 256; omega
  | ⟨2, _⟩ => show win1_3.index t (2 : Fin 4) * 56 ≤ (i 2).val ∧ (i 2).val < win1_3.index t (2 : Fin 4) * 56 + 56; omega
  | ⟨3, _⟩ => show win1_3.index t (3 : Fin 4) * 56 ≤ (i 3).val ∧ (i 3).val < win1_3.index t (3 : Fin 4) * 56 + 56; omega

/-! ## The array after the run -/

/-- After the region's 64 points the output array holds, at every index, the input element times its channel's
    scale plus its channel's shift (the arrays as the region found them). -/
theorem final1_3 (c : Dev nD) :
    (dat1 (F := Ideal) V c).arrAt 3 cfg1.N
      = BNSpec.outK (V c main_arg0) (BNTail.fn (V c main_v73)) (BNTail.fn (V c main_v75)) :=
  (dat1 (F := Ideal) V c).arrAt_eq_of_cover 3 _ (fun t _ => flushed1_3_eq V c t) (covered1_3)

end Cert.KernelIdeal.Hand

end
-- ==== Proof.KValue.lean ====
/-
  The kernel program's two results as functions of the launch contents.  At any float instance the host stretch
  between the regions computes, from the statistics region's mean and variance vectors, the divergence, the scale
  and the shift: the same operations, in the same order, as the functions of `BNTail`.  At the extended reals the
  statistics are the channel means and the mean-of-squares variance, the scale and shift read channel by channel
  as the specification's, and the normalising region leaves `x * scale + shift` in the output.
-/
import proofs.«166841_j11261404250602_1_alg».proof.Proof.KRun
import proofs.«166841_j11261404250602_1_alg».proof.Proof.KStatsValue
import proofs.«166841_j11261404250602_1_alg».proof.Proof.KNormValue
import proofs.«166841_j11261404250602_1_alg».proof.Proof.BNTail

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

section Generic

variable {F : FTy → Type} [FloatOps F]
variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 (c : Dev nD) : W1 m ρ c (Proc.devRef .tc main_arg1) = m ((c : Thread nD τ).loc main_arg1) :=
  W1_of_ne m ρ c main_arg1 (by decide)
theorem W1_main_arg2 (c : Dev nD) : W1 m ρ c (Proc.devRef .tc main_arg2) = m ((c : Thread nD τ).loc main_arg2) :=
  W1_of_ne m ρ c main_arg2 (by decide)
theorem W1_main_arg3 (c : Dev nD) : W1 m ρ c (Proc.devRef .tc main_arg3) = m ((c : Thread nD τ).loc main_arg3) :=
  W1_of_ne m ρ c main_arg3 (by decide)
theorem W1_main_arg4 (c : Dev nD) : W1 m ρ c (Proc.devRef .tc main_arg4) = m ((c : Thread nD τ).loc main_arg4) :=
  W1_of_ne m ρ c main_arg4 (by decide)
theorem W1_main_arg5 (c : Dev nD) : W1 m ρ c (Proc.devRef .tc main_arg5) = m ((c : Thread nD τ).loc main_arg5) :=
  W1_of_ne m ρ c main_arg5 (by decide)
theorem W1_main_arg6 (c : Dev nD) : W1 m ρ c (Proc.devRef .tc main_arg6) = m ((c : Thread nD τ).loc main_arg6) :=
  W1_of_ne m ρ c main_arg6 (by decide)
theorem W1_main_arg7 (c : Dev nD) : W1 m ρ c (Proc.devRef .tc main_arg7) = m ((c : Thread nD τ).loc main_arg7) :=
  W1_of_ne m ρ c main_arg7 (by decide)
theorem W3_main_arg0 (c : Dev nD) : W3 m ρ c (Proc.devRef .tc main_arg0) = m ((c : Thread nD τ).loc main_arg0) :=
  (W3_of_arg m ρ c main_arg0 (by decide)).trans ((W2_of_arg m ρ c main_arg0 (by decide)).trans (W1_main_arg0 m ρ c))
theorem W3_main_arg1 (c : Dev nD) : W3 m ρ c (Proc.devRef .tc main_arg1) = m ((c : Thread nD τ).loc main_arg1) :=
  (W3_of_arg m ρ c main_arg1 (by decide)).trans ((W2_of_arg m ρ c main_arg1 (by decide)).trans (W1_main_arg1 m ρ c))
theorem W3_main_arg2 (c : Dev nD) : W3 m ρ c (Proc.devRef .tc main_arg2) = m ((c : Thread nD τ).loc main_arg2) :=
  (W3_of_arg m ρ c main_arg2 (by decide)).trans ((W2_of_arg m ρ c main_arg2 (by decide)).trans (W1_main_arg2 m ρ c))
theorem W3_main_arg3 (c : Dev nD) : W3 m ρ c (Proc.devRef .tc main_arg3) = m ((c : Thread nD τ).loc main_arg3) :=
  (W3_of_arg m ρ c main_arg3 (by decide)).trans ((W2_of_arg m ρ c main_arg3 (by decide)).trans (W1_main_arg3 m ρ c))
theorem W3_main_arg4 (c : Dev nD) : W3 m ρ c (Proc.devRef .tc main_arg4) = m ((c : Thread nD τ).loc main_arg4) :=
  (W3_of_arg m ρ c main_arg4 (by decide)).trans ((W2_of_arg m ρ c main_arg4 (by decide)).trans (W1_main_arg4 m ρ c))
theorem W3_main_arg5 (c : Dev nD) : W3 m ρ c (Proc.devRef .tc main_arg5) = m ((c : Thread nD τ).loc main_arg5) :=
  (W3_of_arg m ρ c main_arg5 (by decide)).trans ((W2_of_arg m ρ c main_arg5 (by decide)).trans (W1_main_arg5 m ρ c))
theorem W3_main_arg6 (c : Dev nD) : W3 m ρ c (Proc.devRef .tc main_arg6) = m ((c : Thread nD τ).loc main_arg6) :=
  (W3_of_arg m ρ c main_arg6 (by decide)).trans ((W2_of_arg m ρ c main_arg6 (by decide)).trans (W1_main_arg6 m ρ c))
theorem W3_main_arg7 (c : Dev nD) : W3 m ρ c (Proc.devRef .tc main_arg7) = m ((c : Thread nD τ).loc main_arg7) :=
  (W3_of_arg m ρ c main_arg7 (by decide)).trans ((W2_of_arg m ρ c main_arg7 (by decide)).trans (W1_main_arg7 m ρ c))

/-- The mean and variance vectors the statistics region leaves. -/
abbrev μk (c : Dev nD) : FVec F BNTail.S256 .f32 := W1 m ρ c (Proc.devRef .tc main_v0_0)
abbrev σk (c : Dev nD) : FVec F BNTail.S256 .f32 := W1 m ρ c (Proc.devRef .tc main_v0_1)

set_option maxHeartbeats 4000000 in
/-- The host stretch's divergence is `BNTail.divT` of the region's mean and variance. -/
theorem W3_v49 (c : Dev nD) :
    W3 m ρ c (Proc.devRef .tc main_v49)
      = BNTail.divT bcast_S_S256 reducesTo_S256_S_d0 h_S_ (μk m ρ c) (σk m ρ c)
          (W1 m ρ c (Proc.devRef .tc main_arg1)) (W1 m ρ c (Proc.devRef .tc main_arg2))
          (W1 m ρ c (Proc.devRef .tc main_arg5)) (W1 m ρ c (Proc.devRef .tc main_arg6)) := by
  show StableHlo.after main_part1_ops0 (StableHlo.after main_part0_ops0 (W1 m ρ c)) (Proc.devRef .tc main_v49) = _
  after_results_simp
  rfl

set_option maxHeartbeats 4000000 in
/-- Its scale is `BNTail.scaleT` of the mixture variance. -/
theorem W3_v73 (c : Dev nD) :
    W3 m ρ c (Proc.devRef .tc main_v73)
      = BNTail.scaleT bcast_S_S256
          (BNTail.runVarT bcast_S_S256 shapeCasts_S1_S_ (μk m ρ c) (σk m ρ c)
            (W1 m ρ c (Proc.devRef .tc main_arg1)) (W1 m ρ c (Proc.devRef .tc main_arg2))
            (W1 m ρ c (Proc.devRef .tc main_arg5)) (W1 m ρ c (Proc.devRef .tc main_arg6))
            (W1 m ρ c (Proc.devRef .tc main_arg7)))
          (W1 m ρ c (Proc.devRef .tc main_arg3)) := by
  show StableHlo.after main_part1_ops0 (StableHlo.after main_part0_ops0 (W1 m ρ c)) (Proc.devRef .tc main_v73) = _
  after_results_simp
  rfl

set_option maxHeartbeats 4000000 in
/-- Its shift is `BNTail.shiftT` of the mixture mean and the scale. -/
theorem W3_v75 (c : Dev nD) :
    W3 m ρ c (Proc.devRef .tc main_v75)
      = BNTail.shiftT
          (BNTail.runMeanT bcast_S_S256 shapeCasts_S1_S_ (μk m ρ c)
            (W1 m ρ c (Proc.devRef .tc main_arg1)) (W1 m ρ c (Proc.devRef .tc main_arg5)) (W1 m ρ c (Proc.devRef .tc main_arg7)))
          (W3 m ρ c (Proc.devRef .tc main_v73))
          (W1 m ρ c (Proc.devRef .tc main_arg4)) := by
  rw [W3_v73]
  show StableHlo.after main_part1_ops0 (StableHlo.after main_part0_ops0 (W1 m ρ c)) (Proc.devRef .tc main_v75) = _
  after_results_simp
  rfl

end Generic

section AtIdeal

variable (m : (ℓ : Loc nD τ sig) → Buf (Elt Ideal) ℓ) (ρ : Dev nD → PrngReg)

/-- The launch contents of the eight arguments on core `c`. -/
abbrev aX (c : Dev nD) : BNSpec.I4 → EReal := m ((c.tc : Thread nD τ).loc main_arg0)
abbrev aLrm (c : Dev nD) : FVec Ideal BNTail.S256 .f32 := m ((c.tc : Thread nD τ).loc main_arg1)
abbrev aLrv (c : Dev nD) : FVec Ideal BNTail.S256 .f32 := m ((c.tc : Thread nD τ).loc main_arg2)
abbrev aW (c : Dev nD) : FVec Ideal BNTail.S256 .f32 := m ((c.tc : Thread nD τ).loc main_arg3)
abbrev aB (c : Dev nD) : FVec Ideal BNTail.S256 .f32 := m ((c.tc : Thread nD τ).loc main_arg4)
abbrev aNrm (c : Dev nD) : FVec Ideal BNTail.S256 .f32 := m ((c.tc : Thread nD τ).loc main_arg5)
abbrev aNrv (c : Dev nD) : FVec Ideal BNTail.S256 .f32 := m ((c.tc : Thread nD τ).loc main_arg6)
abbrev aPr (c : Dev nD) : FVec Ideal BNTail.S1 .f32 := m ((c.tc : Thread nD τ).loc main_arg7)

/-- The statistics region's mean vector is the channel means of the input. -/
theorem μk_eq (c : Dev nD) : μk m ρ c = fun j => BNSpec.mean (aX m c) (j 0) :=
  (W1_arr m ρ c 1).trans (final0_1 (V0 m ρ) c)

/-- Its variance vector is mean of squares minus squared mean. -/
theorem σk_eq (c : Dev nD) : σk m ρ c = fun j => BNSpec.varK (aX m c) (j 0) :=
  (W1_arr m ρ c 2).trans (final0_2 (V0 m ρ) c)

/-- The mixture variance the host stretch computes, channel by channel. -/
theorem runVar_fn (c : Dev nD) :
    BNTail.fn (BNTail.runVarT bcast_S_S256 shapeCasts_S1_S_ (μk m ρ c) (σk m ρ c)
        (W1 m ρ c (Proc.devRef .tc main_arg1)) (W1 m ρ c (Proc.devRef .tc main_arg2))
        (W1 m ρ c (Proc.devRef .tc main_arg5)) (W1 m ρ c (Proc.devRef .tc main_arg6))
        (W1 m ρ c (Proc.devRef .tc main_arg7)))
      = BNSpec.runVar (aPr m c (ix1 0)) (BNSpec.mean (aX m c)) (BNSpec.varK (aX m c))
          (BNTail.fn (aLrm m c)) (BNTail.fn (aLrv m c)) (BNTail.fn (aNrm m c)) (BNTail.fn (aNrv m c)) := by
  rw [μk_eq, σk_eq, W1_main_arg1, W1_main_arg2, W1_main_arg5, W1_main_arg6, W1_main_arg7]
  funext ch
  exact BNTail.runVarT_apply _ _ _ _ _ _ _ _ _ ch

/-- The mixture mean, channel by channel. -/
theorem runMean_fn (c : Dev nD) :
    BNTail.fn (BNTail.runMeanT bcast_S_S256 shapeCasts_S1_S_ (μk m ρ c)
        (W1 m ρ c (Proc.devRef .tc main_arg1)) (W1 m ρ c (Proc.devRef .tc main_arg5)) (W1 m ρ c (Proc.devRef .tc main_arg7)))
      = BNSpec.runMean (aPr m c (ix1 0)) (BNSpec.mean (aX m c)) (BNTail.fn (aLrm m c)) (BNTail.fn (aNrm m c)) := by
  rw [μk_eq, W1_main_arg1, W1_main_arg5, W1_main_arg7]
  funext ch
  exact BNTail.runMeanT_apply _ _ _ _ _ _ ch

/-- The scale vector, channel by channel. -/
theorem scale_fn (c : Dev nD) :
    BNTail.fn (W3 m ρ c (Proc.devRef .tc main_v73))
      = BNSpec.scale (BNSpec.runVar (aPr m c (ix1 0)) (BNSpec.mean (aX m c)) (BNSpec.varK (aX m c))
          (BNTail.fn (aLrm m c)) (BNTail.fn (aLrv m c)) (BNTail.fn (aNrm m c)) (BNTail.fn (aNrv m c))) (BNTail.fn (aW m c)) := by
  rw [W3_v73, ← runVar_fn m ρ c, W1_main_arg3]
  funext ch
  exact BNTail.scaleT_apply _ _ _ ch

/-- The shift vector, channel by channel. -/
theorem shift_fn (c : Dev nD) :
    BNTail.fn (W3 m ρ c (Proc.devRef .tc main_v75))
      = BNSpec.shift (BNSpec.runMean (aPr m c (ix1 0)) (BNSpec.mean (aX m c)) (BNTail.fn (aLrm m c)) (BNTail.fn (aNrm m c)))
          (BNSpec.scale (BNSpec.runVar (aPr m c (ix1 0)) (BNSpec.mean (aX m c)) (BNSpec.varK (aX m c))
            (BNTail.fn (aLrm m c)) (BNTail.fn (aLrv m c)) (BNTail.fn (aNrm m c)) (BNTail.fn (aNrv m c))) (BNTail.fn (aW m c)))
          (BNTail.fn (aB m c)) := by
  rw [W3_v75, ← scale_fn m ρ c, ← runMean_fn m ρ c, W1_main_arg4]
  funext ch
  exact BNTail.shiftT_apply _ _ _ ch

/-- Every weakly fair execution of the kernel program terminates with its two results at the formulas of the
    specification (the variance in its mean-of-squares spelling), the arguments unchanged. -/
theorem kernel_run :
    θ_run (defs (F := Ideal)) (onTc (τ := τ) (main (F := Ideal))) ⟨m, fun _ => 0, ρ⟩ fun r => ∀ c : Dev nD,
      r.2.mem ((c.tc : Thread nD τ).loc main_v76)
          = BNSpec.outK (aX m c)
              (BNSpec.scale (BNSpec.runVar (aPr m c (ix1 0)) (BNSpec.mean (aX m c)) (BNSpec.varK (aX m c))
                (BNTail.fn (aLrm m c)) (BNTail.fn (aLrv m c)) (BNTail.fn (aNrm m c)) (BNTail.fn (aNrv m c))) (BNTail.fn (aW m c)))
              (BNSpec.shift (BNSpec.runMean (aPr m c (ix1 0)) (BNSpec.mean (aX m c)) (BNTail.fn (aLrm m c)) (BNTail.fn (aNrm m c)))
                (BNSpec.scale (BNSpec.runVar (aPr m c (ix1 0)) (BNSpec.mean (aX m c)) (BNSpec.varK (aX m c))
                  (BNTail.fn (aLrm m c)) (BNTail.fn (aLrv m c)) (BNTail.fn (aNrm m c)) (BNTail.fn (aNrv m c))) (BNTail.fn (aW m c)))
                (BNTail.fn (aB m c)))
      ∧ r.2.mem ((c.tc : Thread nD τ).loc main_v49)
          = BNTail.divT (F := Ideal) bcast_S_S256 reducesTo_S256_S_d0 h_S_
              (fun j => BNSpec.mean (aX m c) (j 0)) (fun j => BNSpec.varK (aX m c) (j 0))
              (aLrm m c) (aLrv m c) (aNrm m c) (aNrv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun r h c => ⟨?_, ?_, (h c).2.2⟩) (run_main (F := Ideal) m ρ)
  · refine (h c).1.trans ?_
    refine (W4_arr m ρ c 3).trans ?_
    rw [final1_3 (V3 m ρ) c]
    show BNSpec.outK (W3 m ρ c (Proc.devRef .tc main_arg0)) (BNTail.fn (W3 m ρ c (Proc.devRef .tc main_v73)))
        (BNTail.fn (W3 m ρ c (Proc.devRef .tc main_v75))) = _
    rw [scale_fn, shift_fn, W3_main_arg0]
  · refine (h c).2.1.trans ?_
    refine (W4_of_ne m ρ c main_v49 (by decide)).trans ?_
    rw [W3_v49, μk_eq, σk_eq, W1_main_arg1, W1_main_arg2, W1_main_arg5, W1_main_arg6]

end AtIdeal

end Cert.KernelIdeal.Hand

end
-- ==== Proof.RefValue.lean ====
/-
  The reference program at the extended reals: its first result is, element by element,
  `(x - runMean) / sqrt (runVar + eps) * w + b` with the running moments blended from the batch mean and the mean
  squared deviation; its second result is the symmetric divergence of the same mean and variance vectors.
-/
import proofs.«166841_j11261404250602_1_alg».proof.Proof.Gen.ReferenceIdeal
import proofs.«166841_j11261404250602_1_alg».proof.Proof.Gen.ReferenceIdeal.Run
import proofs.«166841_j11261404250602_1_alg».proof.Proof.Gen.ReferenceIdeal.Read
import proofs.«166841_j11261404250602_1_alg».proof.Proof.BNStats
import Idealize.ShloMosaic.Lib.StableHlo.Run

noncomputable section

namespace Cert.ReferenceIdeal.Hand

open Cert.ReferenceIdeal Cert.ReferenceIdeal.Gen
open Idealize.ShloMosaic Idealize.ShloMosaic.TcCoe Idealize.ShloMosaic.ValueIdx Idealize.SL.Sem

open Cert.ReferenceIdeal.Read

/-! ## The program's stages are the host arithmetic of the shared modules, at any float instance

Each equation is between two spellings of the same operations in the same order; the two statistics enter
as vectors of length 256. -/

section Stages

variable {F : FTy → Type} [FloatOps F]

/-- The mean vector: the sum over batch, height and width, divided by N. -/
theorem v2_eq (x0 : FVec F S64x256x56x56 .f32) :
    val_main_v2 (F := F) x0 = BNTail.meanT reducesTo_S64x256x56x56_S256_d0_2_3 h_S_ bcast_S_S256 x0 := by
  unfold val_main_v2 val_main_v0 val_main_v1 val_main_cst val_main_cst_0 BNTail.meanT BNTail.lit
  rfl

/-- The variance vector: the mean squared deviation from the mean vector. -/
theorem v9_eq (x0 : FVec F S64x256x56x56 .f32) :
    val_main_v9 (F := F) x0
      = BNTail.varRT reducesTo_S64x256x56x56_S256_d0_2_3 h_S_ bcast_S_S256 bcast_S256_S1x256x1x1_1
          bcast_S1x256x1x1_S64x256x56x56_0_1_2_3 x0 := by
  unfold val_main_v9 val_main_v7 val_main_v8 val_main_cst_1 val_main_cst_2 val_main_v6 val_main_v5 val_main_v4 val_main_v3
  rw [v2_eq]
  unfold BNTail.varRT BNTail.lit
  rfl

/-- The momentum blend of the means. -/
theorem v16_eq (x0 : FVec F S64x256x56x56 .f32) (x5 : FVec F S256 .f32) :
    val_main_v16 (F := F) x0 x5 = BNTail.rmT bcast_S_S256 (val_main_v2 (F := F) x0) x5 := by
  unfold val_main_v16 val_main_v13 val_main_v15 val_main_v12 val_main_v14 val_main_cst_4 val_main_cst_5
  generalize val_main_v2 (F := F) x0 = μ
  unfold BNTail.rmT BNTail.lit
  rfl

/-- The momentum blend of the variances. -/
theorem v21_eq (x0 : FVec F S64x256x56x56 .f32) (x6 : FVec F S256 .f32) :
    val_main_v21 (F := F) x0 x6 = BNTail.rvT bcast_S_S256 (val_main_v9 (F := F) x0) x6 := by
  unfold val_main_v21 val_main_v18 val_main_v20 val_main_v17 val_main_v19 val_main_cst_6 val_main_cst_7 val_main_v11
    val_main_v10 val_main_cst_3
  generalize val_main_v9 (F := F) x0 = σ
  unfold BNTail.rvT BNTail.lit
  rfl

/-- The mixture mean. -/
theorem v65_eq (x0 : FVec F S64x256x56x56 .f32) (x1 x5 : FVec F S256 .f32) (x7 : FVec F S1 .f32) :
    val_main_v65 (F := F) x0 x1 x5 x7
      = BNTail.runMeanT bcast_S_S256 shapeCasts_S1_S_ (val_main_v2 (F := F) x0) x1 x5 x7 := by
  unfold val_main_v65 val_main_v61 val_main_v64 val_main_v60 val_main_v63 val_main_v62 val_main_v59 val_main_cst_24
  rw [v16_eq]
  generalize val_main_v2 (F := F) x0 = μ
  unfold BNTail.runMeanT BNTail.prior0
  rfl

/-- The mixture variance. -/
theorem v78_eq (x0 : FVec F S64x256x56x56 .f32) (x1 x2 x5 x6 : FVec F S256 .f32) (x7 : FVec F S1 .f32) :
    val_main_v78 (F := F) x0 x1 x2 x5 x6 x7
      = BNTail.runVarT bcast_S_S256 shapeCasts_S1_S_ (val_main_v2 (F := F) x0) (val_main_v9 (F := F) x0)
          x1 x2 x5 x6 x7 := by
  unfold val_main_v78 val_main_v71 val_main_v77 val_main_v67 val_main_v70 val_main_v66 val_main_v69 val_main_v68
    val_main_cst_25 val_main_v76 val_main_v73 val_main_v72 val_main_cst_26 val_main_v75 val_main_v74 val_main_v59
  rw [v16_eq, v21_eq]
  generalize val_main_v2 (F := F) x0 = μ
  generalize val_main_v9 (F := F) x0 = σ
  unfold BNTail.runVarT BNTail.prior0
  rfl

set_option maxHeartbeats 400000 in
/-- The symmetric divergence. -/
theorem v58_eq (x0 : FVec F S64x256x56x56 .f32) (x1 x2 x5 x6 : FVec F S256 .f32) :
    val_main_v58 (F := F) x0 x1 x2 x5 x6
      = BNTail.divT bcast_S_S256 reducesTo_S256_S_d0 h_S_ (val_main_v2 (F := F) x0) (val_main_v9 (F := F) x0)
          x1 x2 x5 x6 := by
  simp only [val_main_v58, val_main_v41, val_main_v57, val_main_v40, val_main_v56, val_main_v39, val_main_v55,
    val_main_v36, val_main_v38, val_main_v52, val_main_v54, val_main_v33, val_main_v35, val_main_v37, val_main_v49,
    val_main_v51, val_main_v53, val_main_v32, val_main_v34, val_main_v48, val_main_v50, val_main_v27, val_main_v31,
    val_main_v43, val_main_v47, val_main_v26, val_main_v30, val_main_v42, val_main_v46, val_main_v29, val_main_v45,
    val_main_v28, val_main_v44, val_main_v25, val_main_v23, val_main_v22, val_main_v24, val_main_cst_8, val_main_cst_9,
    val_main_cst_10, val_main_cst_11, val_main_cst_12, val_main_cst_13, val_main_cst_14, val_main_cst_15,
    val_main_cst_16, val_main_cst_17, val_main_cst_18, val_main_cst_19, val_main_cst_20, val_main_cst_21,
    val_main_cst_22, val_main_cst_23]
  rw [v16_eq, v21_eq]
  generalize val_main_v2 (F := F) x0 = μ
  generalize val_main_v9 (F := F) x0 = σ
  unfold BNTail.divT BNTail.tot BNTail.lit
  rfl

end Stages

/-! ## Reading at the extended reals -/

section AtIdeal

/-- The mean vector reads, channel by channel, the channel mean. -/
theorem v2_fn (x0 : FVec Ideal S64x256x56x56 .f32) : BNTail.fn (val_main_v2 (F := Ideal) x0) = BNSpec.mean x0 := by
  funext c
  rw [v2_eq]
  exact BNTail.meanT_apply _ _ _ x0 c

/-- The variance vector reads, channel by channel, the mean squared deviation. -/
theorem v9_fn (x0 : FVec Ideal S64x256x56x56 .f32) : BNTail.fn (val_main_v9 (F := Ideal) x0) = BNSpec.varR x0 := by
  funext c
  rw [v9_eq]
  exact BNTail.varRT_apply _ _ _ _ _ x0 c

theorem v2_fun (x0 : FVec Ideal S64x256x56x56 .f32) :
    val_main_v2 (F := Ideal) x0 = fun j => BNSpec.mean x0 (j 0) := by
  funext j
  obtain ⟨c, rfl⟩ : ∃ c : Fin 256, j = ix1 c := ⟨j 0, eq_ix1 j⟩
  exact congrFun (v2_fn x0) c

theorem v9_fun (x0 : FVec Ideal S64x256x56x56 .f32) :
    val_main_v9 (F := Ideal) x0 = fun j => BNSpec.varR x0 (j 0) := by
  funext j
  obtain ⟨c, rfl⟩ : ∃ c : Fin 256, j = ix1 c := ⟨j 0, eq_ix1 j⟩
  exact congrFun (v9_fn x0) c

/-- The two-step spreading of a per-channel vector reads the entry of the index's channel. -/
theorem idx_79_80 (i : S64x256x56x56.Idx) : idx_main_v79 (idx_main_v80 i) = (ix1 (BNSpec.ch i) : S256.Idx) := by
  funext a; match a with | ⟨0, _⟩ => rfl
theorem idx_82_86 (i : S64x256x56x56.Idx) : idx_main_v82 (idx_main_v86 i) = (ix1 (BNSpec.ch i) : S256.Idx) := by
  funext a; match a with | ⟨0, _⟩ => rfl
theorem idx_88_89 (i : S64x256x56x56.Idx) : idx_main_v88 (idx_main_v89 i) = (ix1 (BNSpec.ch i) : S256.Idx) := by
  funext a; match a with | ⟨0, _⟩ => rfl
theorem idx_91_92 (i : S64x256x56x56.Idx) : idx_main_v91 (idx_main_v92 i) = (ix1 (BNSpec.ch i) : S256.Idx) := by
  funext a; match a with | ⟨0, _⟩ => rfl

/-- The normalised output, element by element. -/
theorem out_eq (x0 : FVec Ideal S64x256x56x56 .f32) (x1 x2 x3 x4 x5 x6 : FVec Ideal S256 .f32) (x7 : FVec Ideal S1 .f32) :
    val_main_v93 (F := Ideal) x0 x1 x2 x3 x4 x5 x6 x7
      = BNSpec.outR x0
          (BNSpec.runMean (x7 (ix1 0)) (BNSpec.mean x0) (BNTail.fn x1) (BNTail.fn x5))
          (BNSpec.runVar (x7 (ix1 0)) (BNSpec.mean x0) (BNSpec.varR x0) (BNTail.fn x1) (BNTail.fn x2) (BNTail.fn x5)
            (BNTail.fn x6))
          (BNTail.fn x3) (BNTail.fn x4) := by
  funext i
  rw [val_main_v93_apply, val_main_v90_apply, val_main_v87_apply, val_main_v81_apply, val_main_v80_apply,
    val_main_v79_apply, val_main_v86_apply, val_main_v85_apply, val_main_v84_apply, val_main_v82_apply,
    val_main_v83_apply, val_main_cst_27_apply, val_main_v89_apply, val_main_v88_apply, val_main_v92_apply,
    val_main_v91_apply, idx_79_80, idx_82_86, idx_88_89, idx_91_92, v65_eq, v78_eq, BNTail.runMeanT_apply,
    BNTail.runVarT_apply, v2_fn, v9_fn]
  rfl

/-- The divergence. -/
theorem div_eq (x0 : FVec Ideal S64x256x56x56 .f32) (x1 x2 x5 x6 : FVec Ideal S256 .f32) :
    val_main_v58 (F := Ideal) x0 x1 x2 x5 x6
      = BNTail.divT bcast_S_S256 reducesTo_S256_S_d0 h_S_ (fun j => BNSpec.mean x0 (j 0))
          (fun j => BNSpec.varR x0 (j 0)) x1 x2 x5 x6 := by
  rw [v58_eq, v2_fun, v9_fun]

end AtIdeal

/-- Every weakly fair execution of the reference terminates with its two results at the formulas of the
    specification, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v93)
          = BNSpec.outR (m ((c.tc : Thread nD τ).loc main_arg0))
              (BNSpec.runMean (m ((c.tc : Thread nD τ).loc main_arg7) (ix1 0)) (BNSpec.mean (m ((c.tc : Thread nD τ).loc main_arg0)))
                (BNTail.fn (m ((c.tc : Thread nD τ).loc main_arg1))) (BNTail.fn (m ((c.tc : Thread nD τ).loc main_arg5))))
              (BNSpec.runVar (m ((c.tc : Thread nD τ).loc main_arg7) (ix1 0)) (BNSpec.mean (m ((c.tc : Thread nD τ).loc main_arg0)))
                (BNSpec.varR (m ((c.tc : Thread nD τ).loc main_arg0)))
                (BNTail.fn (m ((c.tc : Thread nD τ).loc main_arg1))) (BNTail.fn (m ((c.tc : Thread nD τ).loc main_arg2)))
                (BNTail.fn (m ((c.tc : Thread nD τ).loc main_arg5))) (BNTail.fn (m ((c.tc : Thread nD τ).loc main_arg6))))
              (BNTail.fn (m ((c.tc : Thread nD τ).loc main_arg3))) (BNTail.fn (m ((c.tc : Thread nD τ).loc main_arg4)))
      ∧ r.2.mem ((c.tc : Thread nD τ).loc main_v58)
          = BNTail.divT (F := Ideal) bcast_S_S256 reducesTo_S256_S_d0 h_S_
              (fun j => BNSpec.mean (m ((c.tc : Thread nD τ).loc main_arg0)) (j 0))
              (fun j => BNSpec.varR (m ((c.tc : Thread nD τ).loc main_arg0)) (j 0))
              (m ((c.tc : Thread nD τ).loc main_arg1)) (m ((c.tc : Thread nD τ).loc main_arg2))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono
    (fun _ h c => ⟨(h c).1.trans ?_, (h c).2.1.trans ?_, (h c).2.2⟩)
    (Cert.ReferenceIdeal.Value.run (F := Ideal) m ρ)
  · exact (val_main_v93_eq m c).trans (out_eq _ _ _ _ _ _ _ _)
  · exact (val_main_v58_eq m c).trans (div_eq _ _ _ _ _)

end Cert.ReferenceIdeal.Hand

end
-- ==== Proof.BitsStats.lean ====
/-
  The first kernel region (the statistics kernel) at any float instance: a grid of 32 points, each fetching a
  block of two batch entries of the input; two scratch vectors of length 256 carry the running per-channel sum and
  sum of squares from point to point (reset at the first point), and the last point writes the mean
  `sum / N` and the variance `sumsq / N - mean * mean` into the two output windows, which are idle before it.
-/
import proofs.«166841_j11261404250602_1_alg».proof.Proof.Gen.Kernel.Launch
import proofs.«166841_j11261404250602_1_alg».proof.Proof.Gen.Kernel.Skeleton
import proofs.«166841_j11261404250602_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running per-channel sum after the first `n` points: zero, then each point adds its block's channel sums. -/
def acc0 (c : Dev nD) : Nat → Vec F S256 .f32
  | 0 => k0_pay1
  | n + 1 => if h : n < cfg0.N then k0_pay3 (iblk0 V c 0 ⟨n, h⟩) (acc0 c n) else acc0 c n

/-- The running per-channel sum of squares after the first `n` points. -/
def acc1 (c : Dev nD) : Nat → Vec F S256 .f32
  | 0 => k0_pay2
  | n + 1 => if h : n < cfg0.N then k0_pay4 (iblk0 V c 0 ⟨n, h⟩) (acc1 c n) else acc1 c n

/-- The region's invariant before point `t`: before the first point the two scratch vectors hold anything;
    before any later point they hold the running sums of the points done; the other scoped buffers at some
    contents, the generator register at some state. -/
def Φ0 (c : Dev nD) (t : Fin (cfg0.N + 1)) : sProp 𝕄 :=
  iprop((if t.val = 0 then iprop(∃ f : Buf (Elt F) ((c : Thread nD τ).loc cc0_scratch0), ((c : Thread nD τ).loc cc0_scratch0) ↦{fullShare} f)
          else owns (c : Thread nD τ) (Memref.whole cc0_scratch0 : Memref sig .tc .vmem S256 .f32) fullShare (acc0 V c t.val))
    ∗ (if t.val = 0 then iprop(∃ f : Buf (Elt F) ((c : Thread nD τ).loc cc0_scratch1), ((c : Thread nD τ).loc cc0_scratch1) ↦{fullShare} f)
          else owns (c : Thread nD τ) (Memref.whole cc0_scratch1 : Memref sig .tc .vmem S256 .f32) fullShare (acc1 V c t.val))
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ ∃ r, prngReg c r)

/-- The proof data of pipeline 0 on core `c`: the arrays as the region finds them; the input's buffer left at
    its block; the two outputs' buffers, consulted at the last point only, at the mean and the variance of
    the completed sums; the invariant `Φ0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay5 (acc0 V c cfg0.N)
    | ⟨2, _⟩ => k0_pay6 (acc0 V c cfg0.N) (acc1 V c cfg0.N)
  Φ t := Φ0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay5 (acc0 V c cfg0.N) := by dsimp only [dat0]
theorem after0_2 (c : Dev nD) (t : Fin cfg0.N) : (dat0 V c).after 2 t = k0_pay6 (acc0 V c cfg0.N) (acc1 V c cfg0.N) := by dsimp only [dat0]

/-! ## The accumulators, one point at a time -/

theorem acc0_of_zero (c : Dev nD) (n : Nat) (h : n = 0) : acc0 V c n = k0_pay1 := by subst h; rfl
theorem acc1_of_zero (c : Dev nD) (n : Nat) (h : n = 0) : acc1 V c n = k0_pay2 := by subst h; rfl

/-- After point `t` the running sum is the one before it plus the point's channel sums. -/
theorem acc0_succ (c : Dev nD) (t : Fin cfg0.N) : acc0 V c (t.val + 1) = k0_pay3 (iblk0 V c 0 t) (acc0 V c t.val) := by
  rw [acc0]; exact dif_pos t.isLt
theorem acc1_succ (c : Dev nD) (t : Fin cfg0.N) : acc1 V c (t.val + 1) = k0_pay4 (iblk0 V c 0 t) (acc1 V c t.val) := by
  rw [acc1]; exact dif_pos t.isLt

/-- At the last point the completed sums are the sums after it. -/
theorem acc0_N (c : Dev nD) (t : Fin cfg0.N) (h : t.val = 31) : acc0 V c cfg0.N = k0_pay3 (iblk0 V c 0 t) (acc0 V c t.val) := by
  have hN : cfg0.N = t.val + 1 := by rw [h]; exact N_0
  exact (congrArg (acc0 V c) hN).trans (acc0_succ V c t)
theorem acc1_N (c : Dev nD) (t : Fin cfg0.N) (h : t.val = 31) : acc1 V c cfg0.N = k0_pay4 (iblk0 V c 0 t) (acc1 V c t.val) := by
  have hN : cfg0.N = t.val + 1 := by rw [h]; exact N_0
  exact (congrArg (acc1 V c) hN).trans (acc1_succ V c t)

/-! ## The two branch conditions and the idle points, in closed form over the grid -/

/-- The first branch's condition: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second branch's condition: the grid coordinate is the last. -/
abbrev cond0_1 (i : grid0.Coords) : Prop := k0_cond2 i = 1#1
/-- It holds at the last point only. -/
theorem hcond0_1 : ∀ t : Fin cfg0.N, cond0_1 (grid0.coords t) ↔ t.val = 31 :=
  (by decide +kernel : ∀ t : Fin grid0.N, cond0_1 (grid0.coords t) ↔ t.val = 31)

/-- The input window is never idle; the two output windows are idle, and not written back, exactly off the last point. -/
theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem idleAt0_2 : ∀ t : Fin cfg0.N, ¬cond0_1 (grid0.coords t) → cfg0.idle 2 (grid0.coords t) = true := by decide +kernel
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel
theorem noFlush0_1 : ∀ t : Fin cfg0.N, ¬cond0_1 (grid0.coords t) → (cfg0.win 1).flush t = false := by decide +kernel
theorem noFlush0_2 : ∀ t : Fin cfg0.N, ¬cond0_1 (grid0.coords t) → (cfg0.win 2).flush t = false := by decide +kernel

/-! ## Whole-vector loads and stores -/

theorem hz1 : (![0] : Fin 1 → Nat) = fun _ => 0 := funext fun a => by fin_cases a <;> rfl
theorem hz4 : (![0, 0, 0, 0] : Fin 4 → Nat) = fun _ => 0 := funext fun a => by fin_cases a <;> rfl

/-- A store of a whole length-256 vector, last, covers the vector. -/
theorem cover1 (p : Vec F S256 .f32) (L : List (View.Piece (Elt F) S256 .f32)) (y : S256.Idx) :
    ∃ pc ∈ ((⟨Rect.unit (s := S256) ![0] S256.size inb_S256_S256_0, p⟩ : View.Piece (Elt F) S256 .f32) :: L), y ∈ pc.1.set :=
  ⟨_, List.mem_cons_self, View.mem_set_unit_zero (S := S256) hz1 inb_S256_S256_0 y⟩

/-! ## The body's triple in each of its three control cases, on any whole memrefs -/

set_option maxHeartbeats 1000000 in
/-- At the first point: both scratch vectors, whatever they held, are reset to zero and then take the block's channel
    sums and sums of squares; the input and the two outputs are left as found. -/
theorem kernel_first (c : Dev nD) (E : Set ℕ) (i : grid0.Coords)
    (arg1 : Memref sig .tc .vmem S2x256x56x56 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S256 .f32) (harg5 : arg5.IsWhole)
    (hc0 : cond0_0 i) (hc1 : ¬cond0_1 i)
    (x : Vec F S2x256x56x56 .f32) (y1 y2 : Vec F S256 .f32) (K : PUnit → sProp 𝕄) :
    iprop(owns (c : Thread nD τ) arg1 fullShare x ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare y1 ∗ owns (c : Thread nD τ) arg3 fullShare y2
            ∗ owns (c : Thread nD τ) arg4 fullShare (k0_pay3 x k0_pay1) ∗ owns (c : Thread nD τ) arg5 fullShare (k0_pay4 x k0_pay2)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1 _ _)]
    sl_unfold_words
    rw [View.canon_cons_unit_zero (S := S256) hz1]
    simp only [View.readAt_eq_ld, View.ld_unit_zero (S := S2x256x56x56) hz4, View.ld_unit_zero (S := S256) hz1, View.readCov_unit_zero (S := S256) _ hz1]
  · iexists _; isplitr
    swap; · iexact H5
    ipureintro
    rw [View.read_writes_eq_canon _ _ _ (cover1 _ _)]
    sl_unfold_words
    rw [View.canon_cons_unit_zero (S := S256) hz1]
    simp only [View.readAt_eq_ld, View.ld_unit_zero (S := S2x256x56x56) hz4, View.ld_unit_zero (S := S256) hz1, View.readCov_unit_zero (S := S256) _ hz1]

set_option maxHeartbeats 1000000 in
/-- At a point that is neither first nor last: the scratch vectors take the block's channel sums and sums of squares
    on top of what they held; the input and the two outputs are left as found. -/
theorem kernel_mid (c : Dev nD) (E : Set ℕ) (i : grid0.Coords)
    (arg1 : Memref sig .tc .vmem S2x256x56x56 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S256 .f32) (harg5 : arg5.IsWhole)
    (hc0 : ¬cond0_0 i) (hc1 : ¬cond0_1 i)
    (x : Vec F S2x256x56x56 .f32) (y1 y2 s0 s1 : Vec F S256 .f32) (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x ∗ owns (c : Thread nD τ) arg2 fullShare y1 ∗ owns (c : Thread nD τ) arg3 fullShare y2
            ∗ owns (c : Thread nD τ) arg4 fullShare (k0_pay3 x s0) ∗ owns (c : Thread nD τ) arg5 fullShare (k0_pay4 x s1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1 _ _), View.canon_unit_zero hz1]
    simp only [View.readAt_eq_ld, View.ld_unit_zero (S := S2x256x56x56) hz4, View.ld_unit_zero (S := S256) hz1]
  · iexists _; isplitr
    swap; · iexact H5
    ipureintro
    rw [View.read_writes_eq_canon _ _ _ (cover1 _ _), View.canon_unit_zero hz1]
    simp only [View.readAt_eq_ld, View.ld_unit_zero (S := S2x256x56x56) hz4, View.ld_unit_zero (S := S256) hz1]

set_option maxHeartbeats 1000000 in
/-- At the last point: the scratch vectors take the block's sums on top of what they held, and the completed sums
    are then read back and the mean and the variance stored into the two outputs, whatever those held. -/
theorem kernel_last (c : Dev nD) (E : Set ℕ) (i : grid0.Coords)
    (arg1 : Memref sig .tc .vmem S2x256x56x56 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S256 .f32) (harg5 : arg5.IsWhole)
    (hc0 : ¬cond0_0 i) (hc1 : cond0_1 i)
    (x : Vec F S2x256x56x56 .f32) (s0 s1 : Vec F S256 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare (k0_pay5 (k0_pay3 x s0))
            ∗ owns (c : Thread nD τ) arg3 fullShare (k0_pay6 (k0_pay3 x s0) (k0_pay4 x s1))
            ∗ owns (c : Thread nD τ) arg4 fullShare (k0_pay3 x s0) ∗ owns (c : Thread nD τ) arg5 fullShare (k0_pay4 x s1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc0 | exact hc1)
  sl_step
  iapply Hk
  isplitl [H1]
  · iexists f1; isplitr; · ipureintro; rfl
    iexact H1
  isplitl [H2]
  · iexists _; isplitr
    swap; · iexact H2
    ipureintro
    rw [View.read_writes_eq_canon _ _ _ (cover1 _ _), View.canon_unit_zero hz1]
    sl_unfold_words
    simp only [View.readAt_eq_ld, View.ld_unit_zero (S := S2x256x56x56) hz4, View.ld_unit_zero (S := S256) hz1, View.readCov_unit_zero (S := S256) _ hz1]
  isplitl [H3]
  · iexists _; isplitr
    swap; · iexact H3
    ipureintro
    rw [View.read_writes_eq_canon _ _ _ (cover1 _ _), View.canon_unit_zero hz1]
    sl_unfold_words
    simp only [View.readAt_eq_ld, View.ld_unit_zero (S := S2x256x56x56) hz4, View.ld_unit_zero (S := S256) hz1, View.readCov_unit_zero (S := S256) _ hz1]
  isplitl [H4]
  · iexists _; isplitr
    swap; · iexact H4
    ipureintro
    sl_unfold_words
    rw [View.read_writes_eq_canon _ _ _ (cover1 _ _), View.canon_unit_zero hz1]
    simp only [View.readAt_eq_ld, View.ld_unit_zero (S := S2x256x56x56) hz4, View.ld_unit_zero (S := S256) hz1]
  · iexists _; isplitr
    swap; · iexact H5
    ipureintro
    sl_unfold_words
    rw [View.read_writes_eq_canon _ _ _ (cover1 _ _), View.canon_unit_zero hz1]
    simp only [View.readAt_eq_ld, View.ld_unit_zero (S := S2x256x56x56) hz4, View.ld_unit_zero (S := S256) hz1]

/-! ## The invariant, before the first point and after it -/

/-- The two scratch vectors as memrefs. -/
abbrev scM0 : Memref sig .tc .vmem S256 .f32 := Memref.whole cc0_scratch0
abbrev scM1 : Memref sig .tc .vmem S256 .f32 := Memref.whole cc0_scratch1

/-- What the invariant holds beside the two scratch vectors: the other scoped buffers at some contents, the generator
    register at some state. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ ∃ r, prngReg c r)

theorem Φ0_eq (c : Dev nD) (t : Fin (cfg0.N + 1)) :
    Φ0 V c t = iprop((if t.val = 0 then iprop(∃ f : Buf (Elt F) ((c : Thread nD τ).loc cc0_scratch0), ((c : Thread nD τ).loc cc0_scratch0) ↦{fullShare} f)
          else owns (c : Thread nD τ) scM0 fullShare (acc0 V c t.val))
    ∗ (if t.val = 0 then iprop(∃ f : Buf (Elt F) ((c : Thread nD τ).loc cc0_scratch1), ((c : Thread nD τ).loc cc0_scratch1) ↦{fullShare} f)
          else owns (c : Thread nD τ) scM1 fullShare (acc1 V c t.val))
    ∗ rest0 (F := F) c) := by
  unfold Φ0 rest0; rfl

/-- Before the first point: the scratch vectors at anything. -/
theorem Φ0_zero (c : Dev nD) (t : Fin (cfg0.N + 1)) (h : t.val = 0) :
    Φ0 V c t = iprop((∃ d, owns (c : Thread nD τ) scM0 fullShare d) ∗ (∃ d, owns (c : Thread nD τ) scM1 fullShare d) ∗ rest0 (F := F) c) := by
  rw [Φ0_eq, if_pos h, if_pos h]; simp only [scM0, scM1, owns_whole]; try rfl

/-- Before a later point `n`: the scratch vectors at the running sums of the first `n` points. -/
theorem Φ0_pos (c : Dev nD) (t : Fin (cfg0.N + 1)) (n : Nat) (hn : t.val = n) (h : n ≠ 0) :
    Φ0 V c t = iprop(owns (c : Thread nD τ) scM0 fullShare (acc0 V c n) ∗ owns (c : Thread nD τ) scM1 fullShare (acc1 V c n) ∗ rest0 (F := F) c) := by
  subst hn; rw [Φ0_eq, if_neg h, if_neg h]

/-! ## The input window's buffer holds its block at every point -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation at a generic point -/

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The input's buffer holds its block; the point is the first, a middle one or the last, and
    that case's triple applies: the scratch vectors go from the running sums of the points done (anything, at the
    first point) to the running sums including this point; off the last point the outputs' buffers are handed back as
    found, and at the last they hold the mean and the variance of the completed sums. Nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Φ0 V c t.succ from by dsimp only [dat0],
    show (dat0 V c).Φ t.castSucc = Φ0 V c t.castSucc from by dsimp only [dat0]]
  rw [Φ0_pos V c t.succ (t.val + 1) (Fin.val_succ t) (Nat.succ_ne_zero _), acc0_succ, acc1_succ]
  rw [show (dat0 V c).leavesExact 0 t = owns (c : Thread nD τ) (st0_0 t) fullShare ((dat0 V c).after 0 t) from by
    unfold Dat.leavesExact; rw [liveAt0_0 t], after0_0]
  have hN : t.val < 32 := lt_of_lt_of_eq t.isLt (show cfg0.N = 32 from N_0)
  by_cases h1 : t.val = 31
  · -- the last point
    have hc0 : ¬cond0_0 (grid0.coords t) := fun h => by have := (hcond0_0 t).mp h; omega
    have hc1 : cond0_1 (grid0.coords t) := (hcond0_1 t).mpr h1
    rw [show (dat0 V c).leavesExact 1 t = owns (c : Thread nD τ) (st0_1 t) fullShare ((dat0 V c).after 1 t) from by
      unfold Dat.leavesExact; rw [liveAt0_1 t hc1], after0_1]
    rw [show (dat0 V c).leavesExact 2 t = owns (c : Thread nD τ) (st0_2 t) fullShare ((dat0 V c).after 2 t) from by
      unfold Dat.leavesExact; rw [liveAt0_2 t hc1], after0_2]
    rw [acc0_N V c t h1, acc1_N V c t h1]
    rw [Φ0_pos V c t.castSucc t.val (Fin.coe_castSucc t) (by omega)]
    iintro ⟨⟨HS0, HS1, HR⟩, Ho, ⟨%d0, H0⟩, ⟨%d1, H1⟩, ⟨%d2, H2⟩⟩
    iapply (kernel_last c Set.univ (grid0.coords t) _ _ _ _ _ _ _ _ _ _ hc0 hc1 (iblk0 V c 0 t) (acc0 V c t.val) (acc1 V c t.val) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    iexact H2
  · have hc1 : ¬cond0_1 (grid0.coords t) := fun h => h1 ((hcond0_1 t).mp h)
    rw [Dat.leavesExact_idle (dat0 V c) 1 t (idleAt0_1 t hc1) (noFlush0_1 t hc1),
      Dat.leavesExact_idle (dat0 V c) 2 t (idleAt0_2 t hc1) (noFlush0_2 t hc1)]
    by_cases h0 : t.val = 0
    · -- the first point
      have hc0 : cond0_0 (grid0.coords t) := (hcond0_0 t).mpr h0
      rw [acc0_of_zero V c t.val h0, acc1_of_zero V c t.val h0]
      rw [Φ0_zero V c t.castSucc ((Fin.coe_castSucc t).trans h0)]
      iintro ⟨⟨HS0, HS1, HR⟩, Ho, ⟨%d0, H0⟩, ⟨%d1, H1⟩, ⟨%d2, H2⟩⟩
      iapply (kernel_first c Set.univ (grid0.coords t) _ _ _ _ _ _ _ _ _ _ hc0 hc1 (iblk0 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexists _; iexact H1
      iexists _; iexact H2
    · -- a middle point
      have hc0 : ¬cond0_0 (grid0.coords t) := fun h => h0 ((hcond0_0 t).mp h)
      rw [Φ0_pos V c t.castSucc t.val (Fin.coe_castSucc t) h0]
      iintro ⟨⟨HS0, HS1, HR⟩, Ho, ⟨%d0, H0⟩, ⟨%d1, H1⟩, ⟨%d2, H2⟩⟩
      iapply (kernel_mid c Set.univ (grid0.coords t) _ _ _ _ _ _ _ _ _ _ hc0 hc1 (iblk0 V c 0 t) _ _ (acc0 V c t.val) (acc1 V c t.val) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexists _; iexact H1
      iexists _; iexact H2

/-- Entering the region: the scoped buffers that are no staging buffer of this pipeline, each at some contents,
    and the generator register give the invariant before the first point. -/
theorem Φ0_in (c : Dev nD) :
    iprop(Pipeline.scopedRest (Ix := Unit) (Name := ℕ) (U := UR sig nD τ) (Lvl := ℕ) (Val := Elt F) spec0 c ∗ ∃ r, prngReg c r)
      ⊢ ((dat0 V c).Φ 0 : sProp 𝕄) := by
  rw [scopedRest0_eq]
  dsimp only [dat0]
  have h0 : (0 : Fin (cfg0.N + 1)).val = 0 := rfl
  rw [Φ0_eq, if_pos h0, if_pos h0]
  unfold rest0
  iintro ⟨⟨A0, A1, B0, B1, B2, B3, B4, B5⟩, R⟩
  isplitl [A0]; · iexact A0
  isplitl [A1]; · iexact A1
  isplitl [B0]; · iexact B0
  isplitl [B1]; · iexact B1
  isplitl [B2]; · iexact B2
  isplitl [B3]; · iexact B3
  isplitl [B4]; · iexact B4
  isplitl [B5]; · iexact B5
  iexact R

/-- Leaving it: the invariant after the last point gives them back, the sums forgotten. -/
theorem Φ0_out (c : Dev nD) :
    ((dat0 V c).Φ (Fin.last cfg0.N) : sProp 𝕄)
      ⊢ iprop(Pipeline.scopedRest (Ix := Unit) (Name := ℕ) (U := UR sig nD τ) (Lvl := ℕ) (Val := Elt F) spec0 c ∗ ∃ r, prngReg c r) := by
  rw [scopedRest0_eq]
  dsimp only [dat0]
  rw [Φ0_pos V c (Fin.last cfg0.N) cfg0.N (Fin.val_last _) (by have : cfg0.N = 32 := N_0; omega)]
  unfold rest0
  simp only [scM0, scM1, owns_whole]
  iintro ⟨A0, A1, B0, B1, B2, B3, B4, B5, R⟩
  isplitr [R]
  · isplitl [A0]; · iexists _; iexact A0
    isplitl [A1]; · iexists _; iexact A1
    isplitl [B0]; · iexact B0
    isplitl [B1]; · iexact B1
    isplitl [B2]; · iexact B2
    isplitl [B3]; · iexact B3
    isplitl [B4]; · iexact B4
    iexact B5
  iexact R

/-- The body obligation of the library, at every point of the grid. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsNorm.lean ====
/-
  The second kernel region (the normalising kernel) at any float instance: a grid of 64 points, each fetching one
  batch entry of the input and, once, the per-channel scale and shift vectors; the body stores
  `x * scale + shift` (the two vectors broadcast along batch, height and width) into the output block, which
  is written back at every point.
-/
import proofs.«166841_j11261404250602_1_alg».proof.Proof.Gen.Kernel.Launch
import proofs.«166841_j11261404250602_1_alg».proof.Proof.Gen.Kernel.Skeleton
import proofs.«166841_j11261404250602_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer, from the three input blocks: its one whole store. -/
def out1_3 (x0 : Vec F S1x256x56x56 .f32) (x1 : Vec F S256 .f32) (x2 : Vec F S256 .f32) : Vec F S1x256x56x56 .f32 :=
  k1_pay1 x0 x1 x2

/-- The proof data of pipeline 1 on core `c`: the arrays as the region finds them; each input's buffer left at
    its block, the output's at the body's store; the class invariant (the other scoped buffers and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Each input's staging buffer holds its block -/

/-- The batch-entry window's current buffer holds its block at every point (it is fetched at every point). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The scale vector's buffer holds the whole vector at every point: fetched at the first, and its block index
    never moves afterwards. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The shift vector's buffer likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body's triple -/

/-- The zero offsets of the body's whole-buffer accesses, at rank 4 and at rank 1. -/
theorem zeros4 : (![0, 0, 0, 0] : Fin 4 → Nat) = fun _ => 0 := funext fun a => by fin_cases a <;> rfl
theorem zeros1 : (![0] : Fin 1 → Nat) = fun _ => 0 := funext fun a => by fin_cases a <;> rfl

set_option maxHeartbeats 1000000 in
/-- The body on whole staging memrefs, the three inputs' at contents `x0`, `x1`, `x2` and the output's at
    anything, runs to the continuation holding the inputs' as they were and the output's at
    `x0 * broadcast x1 + broadcast x2`: three whole loads, one load of the output that is not used, one whole store. -/
theorem sound_kernel1 (c : Dev nD) (E : Set ℕ) (i : grid1.Coords)
    (arg1 : Memref sig .tc .vmem S1x256x56x56 .f32) (harg1 : arg1.IsWhole)
    (arg2 : Memref sig .tc .vmem S256 .f32) (harg2 : arg2.IsWhole)
    (arg3 : Memref sig .tc .vmem S256 .f32) (harg3 : arg3.IsWhole)
    (arg4 : Memref sig .tc .vmem S1x256x56x56 .f32) (harg4 : arg4.IsWhole)
    (x0 : Vec F S1x256x56x56 .f32) (x1 x2 : Vec F S256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- one store through the whole buffer leaves its payload; a load through the whole buffer reads the contents
  rw [View.read_writes_eq_canon _ _ _
      (fun y => ⟨_, List.mem_singleton_self _, View.mem_set_unit_zero (S := S1x256x56x56) zeros4 inb_S1x256x56x56_S1x256x56x56_0_0_0_0 y⟩),
    View.canon_unit_zero zeros4, View.readAt_eq_ld, View.readAt_eq_ld, View.readAt_eq_ld,
    View.ld_unit_zero zeros4, View.ld_unit_zero zeros1, View.ld_unit_zero zeros1]
  rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the library, at every point of the grid. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BitsRun.lean ====
/-
  The whole program at any float instance: the statistics region, a stretch of one hundred host operations (cut in
  two where the printed text is cut), the normalising region.  The buffer contents at each boundary are a fold from
  the launch memory: a region leaves its windows' arrays at what its write-backs made of them and every other
  buffer as it was; a host stretch leaves each operation's result.  No operation and no region writes an
  argument, so every argument ends as launched; the two results end at the fold's values at their buffers.
-/
import proofs.«166841_j11261404250602_1_alg».proof.Proof.Gen.Kernel.Launch
import proofs.«166841_j11261404250602_1_alg».proof.Proof.Gen.Kernel.Skeleton
import proofs.«166841_j11261404250602_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166841_j11261404250602_1_alg».proof.Proof.BitsStats
import proofs.«166841_j11261404250602_1_alg».proof.Proof.BitsNorm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first 59 host operations, and after the remaining 41 (the second region's entry). -/
abbrev W2 : Dev nD → Valuation τ sig (Elt F) := fun c => StableHlo.after main_part0_ops0 (W1 m ρ c)
abbrev W3 : Dev nD → Valuation τ sig (Elt F) := fun c => StableHlo.after main_part1_ops0 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No host operation writes an argument -/

/-- The eight arguments. -/
def IsArg (b : Ref sig .tc) : Prop :=
  b = main_arg0 ∨ b = main_arg1 ∨ b = main_arg2 ∨ b = main_arg3 ∨ b = main_arg4 ∨ b = main_arg5 ∨ b = main_arg6 ∨ b = main_arg7
instance (b : Ref sig .tc) : Decidable (IsArg b) := by unfold IsArg; infer_instance

set_option maxHeartbeats 4000000 in
theorem part0_writes (V : Valuation τ sig (Elt F)) (b : Ref sig .tc) (hb : IsArg b) :
    StableHlo.after (main_part0_ops0 (F := F)) V (Proc.devRef .tc b) = V (Proc.devRef .tc b) := by
  refine StableHlo.after_of_forall_not_mem (b := Proc.devRef .tc b) _ _ (List.forall_iff_forall_mem.mp ?_)
  simp only [main_part0_ops0, List.Forall, StableHlo.nullary_writes, StableHlo.unary_writes, StableHlo.binary_writes,
    StableHlo.reshape_writes, Finset.mem_singleton]
  rcases hb with rfl | rfl | rfl | rfl | rfl | rfl | rfl | rfl <;>
  · repeat' apply And.intro
    all_goals exact StableHlo.devRef_ne_of_ne (by decide)

set_option maxHeartbeats 4000000 in
theorem part1_writes (V : Valuation τ sig (Elt F)) (b : Ref sig .tc) (hb : IsArg b) :
    StableHlo.after (main_part1_ops0 (F := F)) V (Proc.devRef .tc b) = V (Proc.devRef .tc b) := by
  refine StableHlo.after_of_forall_not_mem (b := Proc.devRef .tc b) _ _ (List.forall_iff_forall_mem.mp ?_)
  simp only [main_part1_ops0, List.Forall, StableHlo.nullary_writes, StableHlo.unary_writes, StableHlo.binary_writes,
    StableHlo.reshape_writes, Finset.mem_singleton]
  rcases hb with rfl | rfl | rfl | rfl | rfl | rfl | rfl | rfl <;>
  · repeat' apply And.intro
    all_goals exact StableHlo.devRef_ne_of_ne (by decide)

theorem W2_of_arg (c : Dev nD) (b : Ref sig .tc) (hb : IsArg b) :
    W2 m ρ c (Proc.devRef .tc b) = W1 m ρ c (Proc.devRef .tc b) := part0_writes _ b hb
theorem W3_of_arg (c : Dev nD) (b : Ref sig .tc) (hb : IsArg b) :
    W3 m ρ c (Proc.devRef .tc b) = W2 m ρ c (Proc.devRef .tc b) := part1_writes _ b hb

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of_arg m ρ c main_arg0 (by decide)
    _ = W1 m ρ c (Proc.devRef .tc main_arg0) := W2_of_arg m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_arg m ρ c main_arg1 (by decide)
    _ = W1 m ρ c (Proc.devRef .tc main_arg1) := W2_of_arg m ρ c main_arg1 (by decide)
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_arg m ρ c main_arg2 (by decide)
    _ = W1 m ρ c (Proc.devRef .tc main_arg2) := W2_of_arg m ρ c main_arg2 (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_arg m ρ c main_arg3 (by decide)
    _ = W1 m ρ c (Proc.devRef .tc main_arg3) := W2_of_arg m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_arg m ρ c main_arg4 (by decide)
    _ = W1 m ρ c (Proc.devRef .tc main_arg4) := W2_of_arg m ρ c main_arg4 (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_arg m ρ c main_arg5 (by decide)
    _ = W1 m ρ c (Proc.devRef .tc main_arg5) := W2_of_arg m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_arg m ρ c main_arg6 (by decide)
    _ = W1 m ρ c (Proc.devRef .tc main_arg6) := W2_of_arg m ρ c main_arg6 (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_arg m ρ c main_arg7 (by decide)
    _ = W1 m ρ c (Proc.devRef .tc main_arg7) := W2_of_arg m ρ c main_arg7 (by decide)
    _ = W0 m ρ c (Proc.devRef .tc main_arg7) := W1_of_ne m ρ c main_arg7 (by decide)
    _ = m ((c : Thread nD τ).loc main_arg7) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The statistics region: entered from every unscoped buffer at the launch contents, left at `W1`; the generator
    register and the scoped rest go into the region's invariant (the scratch vectors at anything) and come back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    iintro ⟨Hp, -, Hr⟩
    iapply (Φ0_in (V0 m ρ) c)
    isplitl [Hr]; · iexact Hr
    iexact Hp
  hout c := by
    rw [Pipeline.ownSems0_none, show (pdats m ρ 0 c).Φ (Fin.last _) = (dat0 (V0 m ρ) c).Φ (Fin.last cfg0.N) from rfl]
    iintro H
    ihave H2 := (Φ0_out (V0 m ρ) c) $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg main_part0_ops0 main_part0_ops0_sub part0_fresh (W1 m ρ)),
    .host (hseg main_part1_ops0 main_part1_ops0_sub part1_fresh (W2 m ρ)),
    .region (reg1 m ρ) ]

theorem main_run (c : Dev nD) : main (F := F) c = Pipeline.Seg.run (segs m ρ) :=
  (main_chain_windows c).trans (by chain_rfl)

set_option backward.isDefEq.respectTransparency.types false in
/-- Every weakly fair execution from a memory with zero counters terminates, nothing faulting, and every final state
    has the two results at the fold's values at their buffers and the eight arguments as launched. -/
theorem run_main : θ_run defs (onTc (τ := τ) (main (F := F))) ⟨m, fun _ => 0, ρ⟩ (fun r => ∀ c : Dev nD,
      r.2.mem ((c.tc : Thread nD τ).loc main_v76) = W4 m ρ c (Proc.devRef .tc main_v76)
      ∧ r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v76 (by decide)),
       h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Kernel.Hand

end
-- ==== Proof.lean ====
/- The proof of `Cert.Claim` (proofs.«166841_j11261404250602_1_alg».proof.Defs): frame_Kernel ∧ frame_KernelIdeal ∧ frame_ReferenceIdeal ∧
   preserves_Kernel_KernelIdeal ∧ algebraic_KernelIdeal_ReferenceIdeal.
   The three frames are the three programs' runs with the results forgotten.  The idealization rewrote no operation.
   At the extended reals the kernel program ends at `x * scale + shift` with the variance spelt as mean of squares
   minus squared mean, the reference at `(x - mean) / sqrt (var + eps) * w + b` with the mean squared deviation;
   the precondition makes every input entry a real number and `var + eps` positive on every channel, where the two
   variances agree and so do the two outputs; the divergences are one function of the same mean and variance. -/
import proofs.«166841_j11261404250602_1_alg».proof.Defs
import proofs.«166841_j11261404250602_1_alg».proof.Proof.Gen.Kernel
import proofs.«166841_j11261404250602_1_alg».proof.Proof.Gen.Kernel.Skeleton
import proofs.«166841_j11261404250602_1_alg».proof.Proof.Gen.Kernel.Launch
import proofs.«166841_j11261404250602_1_alg».proof.Proof.Gen.Kernel.Regions
import proofs.«166841_j11261404250602_1_alg».proof.Proof.Gen.Kernel.Points
import proofs.«166841_j11261404250602_1_alg».proof.Proof.Gen.KernelIdeal
import proofs.«166841_j11261404250602_1_alg».proof.Proof.Gen.KernelIdeal.Skeleton
import proofs.«166841_j11261404250602_1_alg».proof.Proof.Gen.KernelIdeal.Launch
import proofs.«166841_j11261404250602_1_alg».proof.Proof.Gen.KernelIdeal.Regions
import proofs.«166841_j11261404250602_1_alg».proof.Proof.Gen.KernelIdeal.Points
import proofs.«166841_j11261404250602_1_alg».proof.Proof.Gen.ReferenceIdeal
import proofs.«166841_j11261404250602_1_alg».proof.Proof.Gen.Pre_finite_inputs
import proofs.«166841_j11261404250602_1_alg».proof.Proof.BNMath
import proofs.«166841_j11261404250602_1_alg».proof.Proof.PreDecode
import proofs.«166841_j11261404250602_1_alg».proof.Proof.KValue
import proofs.«166841_j11261404250602_1_alg».proof.Proof.RefValue
import proofs.«166841_j11261404250602_1_alg».proof.Proof.BitsRun
import Idealize.ShloMosaic.Adequacy
import Idealize.ShloMosaic.Init

noncomputable section

namespace Cert.Proof

open Idealize.ShloMosaic Idealize.ShloMosaic.ValueIdx Idealize.SL.Sem

/-- Under the precondition the two programs' result formulas agree: the normalised outputs, and the divergences
    (the same function of the mean vector and of variance vectors that are equal). -/
theorem results_eq (x0 : FVec Ideal Cert.Pre_finite_inputs.S64x256x56x56 .f32)
    (x1 x2 x3 x4 x5 x6 : FVec Ideal Cert.Pre_finite_inputs.S256 .f32) (x7 : FVec Ideal Cert.Pre_finite_inputs.S1 .f32)
    (hpre : Cert.Pre_finite_inputs.fn (F := Ideal) x0 x1 x2 x3 x4 x5 x6 x7 = fun _ => 1#1)
    (hb : BNTail.S_.BroadcastsInDim BNTail.S256 (![] : Fin 0 → Fin BNTail.S256.rank))
    (hr : BNTail.S256.ReducesTo [0] BNTail.S_) (h0 : 0 < BNTail.S_.numel) :
    BNSpec.outK x0
        (BNSpec.scale (BNSpec.runVar (x7 (ix1 0)) (BNSpec.mean x0) (BNSpec.varK x0)
          (BNTail.fn x1) (BNTail.fn x2) (BNTail.fn x5) (BNTail.fn x6)) (BNTail.fn x3))
        (BNSpec.shift (BNSpec.runMean (x7 (ix1 0)) (BNSpec.mean x0) (BNTail.fn x1) (BNTail.fn x5))
          (BNSpec.scale (BNSpec.runVar (x7 (ix1 0)) (BNSpec.mean x0) (BNSpec.varK x0)
            (BNTail.fn x1) (BNTail.fn x2) (BNTail.fn x5) (BNTail.fn x6)) (BNTail.fn x3))
          (BNTail.fn x4))
      = BNSpec.outR x0 (BNSpec.runMean (x7 (ix1 0)) (BNSpec.mean x0) (BNTail.fn x1) (BNTail.fn x5))
          (BNSpec.runVar (x7 (ix1 0)) (BNSpec.mean x0) (BNSpec.varR x0)
            (BNTail.fn x1) (BNTail.fn x2) (BNTail.fn x5) (BNTail.fn x6))
          (BNTail.fn x3) (BNTail.fn x4)
    ∧ BNTail.divT (F := Ideal) hb hr h0 (fun j => BNSpec.mean x0 (j 0)) (fun j => BNSpec.varK x0 (j 0)) x1 x2 x5 x6
      = BNTail.divT (F := Ideal) hb hr h0 (fun j => BNSpec.mean x0 (j 0)) (fun j => BNSpec.varR x0 (j 0)) x1 x2 x5 x6 := by
  obtain ⟨hx0, hx1, hx2, hx3, hx4, hx5, hx6, hx7, hpos⟩ :=
    Cert.Pre_finite_inputs.Hand.pre_decode x0 x1 x2 x3 x4 x5 x6 x7 hpre
  refine ⟨BNSpec.out_eq x0 (BNTail.fn x1) (BNTail.fn x2) (BNTail.fn x3) (BNTail.fn x4) (BNTail.fn x5) (BNTail.fn x6)
    (x7 (ix1 0)) hx0 hx1 hx2 hx3 hx4 hx5 hx6 hx7 hpos, ?_⟩
  rw [show BNSpec.varK x0 = BNSpec.varR x0 from funext (BNSpec.varK_eq_varR x0 hx0)]

theorem frame_k : Cert.frame_Kernel := fun m ρ _ =>
  (θ_run Cert.Kernel.defs _ _).mono (fun r h c => (h c).2.2) (Cert.Kernel.Hand.run_main (F := Bits) m ρ)

theorem frame_ki : Cert.frame_KernelIdeal := fun m ρ _ =>
  (θ_run Cert.KernelIdeal.defs _ _).mono (fun r h c => (h c).2.2) (Cert.KernelIdeal.Hand.run_main (F := Ideal) m ρ)

theorem frame_ri : Cert.frame_ReferenceIdeal := fun m ρ _ =>
  (θ_run Cert.ReferenceIdeal.defs _ _).mono (fun r h c => (h c).2.2) (Cert.ReferenceIdeal.Hand.ref_run m ρ)

theorem preserves : Cert.preserves_Kernel_KernelIdeal := trivial

/-- Both programs run; the witnesses are the kernel program's result formulas, which the reference's equal under
    the precondition once its arguments are rewritten to the kernel program's. -/
theorem algebraic : Cert.algebraic_KernelIdeal_ReferenceIdeal := by
  intro m ρ m' ρ' hpre hagree
  refine ⟨_, _, Cert.KernelIdeal.Hand.kernel_run m ρ, ?_⟩
  refine (θ_run Cert.ReferenceIdeal.defs _ _).mono (fun r h c => ⟨(h c).1.trans ?_, (h c).2.1.trans ?_, (h c).2.2⟩)
    (Cert.ReferenceIdeal.Hand.ref_run m' ρ')
  · obtain ⟨e0, e1, e2, e3, e4, e5, e6, e7⟩ := hagree c
    rw [e0, e1, e2, e3, e4, e5, e6, e7]
    exact (results_eq _ _ _ _ _ _ _ _ (hpre c) Cert.KernelIdeal.Gen.bcast_S_S256 Cert.KernelIdeal.Gen.reducesTo_S256_S_d0
      Cert.KernelIdeal.Gen.h_S_).1.symm
  · obtain ⟨e0, e1, e2, e3, e4, e5, e6, e7⟩ := hagree c
    rw [e0, e1, e2, e5, e6]
    exact (results_eq _ _ _ (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) _ _
      (m ((c.tc : Thread Cert.KernelIdeal.nD Cert.KernelIdeal.τ).loc Cert.KernelIdeal.main_arg7)) (hpre c) _ _ _).2.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
